-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S50000x320 : Shape := ⟨2, ![50000, 320]⟩
abbrev S2x2000000 : Shape := ⟨2, ![2, 2000000]⟩
abbrev S100000x128 : Shape := ⟨2, ![100000, 128]⟩
abbrev S320x128 : Shape := ⟨2, ![320, 128]⟩
abbrev S128 : Shape := ⟨1, ![128]⟩
abbrev S128x128 : Shape := ⟨2, ![128, 128]⟩
abbrev S_ : Shape := ⟨0, ![]⟩

class Facts : Prop where
  bcast_S_S50000x320 : S_.BroadcastsInDim S50000x320 (![] : Fin 0 → Fin S50000x320.rank)
  reducesTo_S50000x320_S_d0_1 : S50000x320.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : IVec S1024 32) (main_arg1 : FVec F S50000x320 .f32) (main_arg2 : IVec S2x2000000 32) (main_arg3 : FVec F S100000x128 .f32) (main_arg4 : FVec F S320x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x320 .f32 := Host.absf main_arg1
  let main_cst : FVec F S_ .f32 := constant S_ .f32 0x7F800000#32
  let main_v1 : FVec F S50000x320 .f32 := broadcastInDim S50000x320 ![] bcast_S_S50000x320 main_cst
  let main_v2 : IVec S50000x320 1 := cmpf .olt main_v0 main_v1
  let main_c : IVec S_ 1 := constantI S_ 1 1#1
  let main_v3 : IVec S_ 1 := (fun x v => Host.reduce IntOp.andi x v reducesTo_S50000x320_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S320x128 .f32 := Host.absf main_arg4
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S1024 : Shape := ⟨1, ![1024]⟩
abbrev S50000x320 : Shape := ⟨2, ![50000, 320]⟩
abbrev S2x2000000 : Shape := ⟨2, ![2, 2000000]⟩
abbrev S100000x128 : Shape := ⟨2, ![100000, 128]⟩
abbrev S320x128 : Shape := ⟨2, ![320, 128]⟩
abbrev S128 : Shape := ⟨1, ![128]⟩
abbrev S128x128 : Shape := ⟨2, ![128, 128]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S150000x1 : Shape := ⟨2, ![150000, 1]⟩
abbrev S1x128 : Shape := ⟨2, ![1, 128]⟩
abbrev S50000x128 : Shape := ⟨2, ![50000, 128]⟩
abbrev S2000x320 : Shape := ⟨2, ![2000, 320]⟩
abbrev S2000x128 : Shape := ⟨2, ![2000, 128]⟩
abbrev S150000x128 : Shape := ⟨2, ![150000, 128]⟩
abbrev S3000x128 : Shape := ⟨2, ![3000, 128]⟩
abbrev S3000x1 : Shape := ⟨2, ![3000, 1]⟩
abbrev S2000000x128 : Shape := ⟨2, ![2000000, 128]⟩
abbrev S1024x1 : Shape := ⟨2, ![1024, 1]⟩
abbrev S1024x128 : Shape := ⟨2, ![1024, 128]⟩

abbrev nBuf : Space → Nat
  | .hbm => 83
  | .vmem => 42
  | .smem => 0
  | _ => 0

abbrev bufTy : (tb : Table) → Fin (tcTables nBuf tb) → BufTy
  | .hbm, ⟨0, _⟩ => ⟨S1024, .i32⟩
  | .hbm, ⟨1, _⟩ => ⟨S50000x320, .f32⟩
  | .hbm, ⟨2, _⟩ => ⟨S2x2000000, .i32⟩
  | .hbm, ⟨3, _⟩ => ⟨S100000x128, .f32⟩
  | .hbm, ⟨4, _⟩ => ⟨S320x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x2000000, .i32⟩
  | .hbm, ⟨13, _⟩ => ⟨S2000000, .i32⟩
  | .hbm, ⟨14, _⟩ => ⟨S1x2000000, .i32⟩
  | .hbm, ⟨15, _⟩ => ⟨S2000000, .i32⟩
  | .hbm, ⟨16, _⟩ => ⟨S_, .f32⟩
  | .hbm, ⟨17, _⟩ => ⟨S2000000, .f32⟩
  | .hbm, ⟨18, _⟩ => ⟨S_, .f32⟩
  | .hbm, ⟨19, _⟩ => ⟨S150000, .f32⟩
  | .hbm, ⟨20, _⟩ => ⟨S2000000x1, .i32⟩
  | .hbm, ⟨21, _⟩ => ⟨S150000, .f32⟩
  | .hbm, ⟨22, _⟩ => ⟨S_, .f32⟩
  | .hbm, ⟨23, _⟩ => ⟨S150000, .f32⟩
  | .hbm, ⟨24, _⟩ => ⟨S150000, .f32⟩
  | .hbm, ⟨25, _⟩ => ⟨S150000, .f32⟩
  | .hbm, ⟨26, _⟩ => ⟨S150000x1, .f32⟩
  | .hbm, ⟨27, _⟩ => ⟨S1x128, .f32⟩
  | .hbm, ⟨28, _⟩ => ⟨S50000x128, .f32⟩
  | .hbm, ⟨29, _⟩ => ⟨S150000x128, .f32⟩
  | .hbm, ⟨30, _⟩ => ⟨S150000x128, .f32⟩
  | .hbm, ⟨31, _⟩ => ⟨S_, .i32⟩
  | .hbm, ⟨32, _⟩ => ⟨S2000000, .i32⟩
  | .hbm, ⟨33, _⟩ => ⟨S2000000, .i1⟩
  | .hbm, ⟨34, _⟩ => ⟨S_, .i32⟩
  | .hbm, ⟨35, _⟩ => ⟨S2000000, .i32⟩
  | .hbm, ⟨36, _⟩ => ⟨S2000000, .i32⟩
  | .hbm, ⟨37, _⟩ => ⟨S2000000, .i32⟩
  | .hbm, ⟨38, _⟩ => ⟨S2000000x1, .i32⟩
  | .hbm, ⟨39, _⟩ => ⟨S2000000x128, .f32⟩
  | .hbm, ⟨40, _⟩ => ⟨S_, .f32⟩
  | .hbm, ⟨41, _⟩ => ⟨S150000x128, .f32⟩
  | .hbm, ⟨42, _⟩ => ⟨S2000000x1, .i32⟩
  | .hbm, ⟨43, _⟩ => ⟨S150000x128, .f32⟩
  | .hbm, ⟨44, _⟩ => ⟨S1x128, .f32⟩
  | .hbm, ⟨45, _⟩ => ⟨S150000x128, .f32⟩
  | .hbm, ⟨46, _⟩ => ⟨S150000x128, .f32⟩
  | .hbm, ⟨47, _⟩ => ⟨S_, .i32⟩
  | .hbm, ⟨48, _⟩ => ⟨S2000000, .i32⟩
  | .hbm, ⟨49, _⟩ => ⟨S2000000, .i1⟩
  | .hbm, ⟨50, _⟩ => ⟨S_, .i32⟩
  | .hbm, ⟨51, _⟩ => ⟨S2000000, .i32⟩
  | .hbm, ⟨52, _⟩ => ⟨S2000000, .i32⟩
  | .hbm, ⟨53, _⟩ => ⟨S2000000, .i32⟩
  | .hbm, ⟨54, _⟩ => ⟨S2000000x1, .i32⟩
  | .hbm, ⟨55, _⟩ => ⟨S2000000x128, .f32⟩
  | .hbm, ⟨56, _⟩ => ⟨S_, .f32⟩
  | .hbm, ⟨57, _⟩ => ⟨S150000x128, .f32⟩
  | .hbm, ⟨58, _⟩ => ⟨S2000000x1, .i32⟩
  | .hbm, ⟨59, _⟩ => ⟨S150000x128, .f32⟩
  | .hbm, ⟨60, _⟩ => ⟨S1x128, .f32⟩
  | .hbm, ⟨61, _⟩ => ⟨S150000x128, .f32⟩
  | .hbm, ⟨62, _⟩ => ⟨S_, .i32⟩
  | .hbm, ⟨63, _⟩ => ⟨S1024, .i32⟩
  | .hbm, ⟨64, _⟩ => ⟨S1024, .i1⟩
  | .hbm, ⟨65, _⟩ => ⟨S_, .i32⟩
  | .hbm, ⟨66, _⟩ => ⟨S1024, .i32⟩
  | .hbm, ⟨67, _⟩ => ⟨S1024, .i32⟩
  | .hbm, ⟨68, _⟩ => ⟨S1024, .i32⟩
  | .hbm, ⟨69, _⟩ => ⟨S1024x1, .i32⟩
  | .hbm, ⟨70, _⟩ => ⟨S1024x128, .f32⟩
  | .hbm, ⟨71, _⟩ => ⟨S_, .i32⟩
  | .hbm, ⟨72, _⟩ => ⟨S1024, .i32⟩
  | .hbm, ⟨73, _⟩ => ⟨S1024, .i1⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S1024, .i32⟩
  | .hbm, ⟨78, _⟩ => ⟨S1024x1, .i32⟩
  | .hbm, ⟨79, _⟩ => ⟨S1024x128, .f32⟩
  | .hbm, ⟨80, _⟩ => ⟨S1024x128, .f32⟩
  | .hbm, ⟨81, _⟩ => ⟨S1x128, .f32⟩
  | .hbm, ⟨82, _⟩ => ⟨S1024x128, .f32⟩
  | .local _ .vmem, ⟨0, _⟩ => ⟨S2000x320, .f32⟩
  | .local _ .vmem, ⟨1, _⟩ => ⟨S2000x320, .f32⟩
  | .local _ .vmem, ⟨2, _⟩ => ⟨S320x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S3000x128, .f32⟩
  | .local _ .vmem, ⟨7, _⟩ => ⟨S3000x128, .f32⟩
  | .local _ .vmem, ⟨8, _⟩ => ⟨S128x128, .f32⟩
  | .local _ .vmem, ⟨9, _⟩ => ⟨S3000x1, .f32⟩
  | .local _ .vmem, ⟨10, _⟩ => ⟨S3000x1, .f32⟩
  | .local _ .vmem, ⟨11, _⟩ => ⟨S3000x128, .f32⟩
  | .local _ .vmem, ⟨12, _⟩ => ⟨S3000x128, .f32⟩
  | .local _ .vmem, ⟨13, _⟩ => ⟨S3000x128, .f32⟩
  | .local _ .vmem, ⟨14, _⟩ => ⟨S3000x128, .f32⟩
  | .local _ .vmem, ⟨15, _⟩ => ⟨S3000x128, .f32⟩
  | .local _ .vmem, ⟨16, _⟩ => ⟨S3000x128, .f32⟩
  | .local _ .vmem, ⟨17, _⟩ => ⟨S3000x1, .f32⟩
  | .local _ .vmem, ⟨18, _⟩ => ⟨S3000x1, .f32⟩
  | .local _ .vmem, ⟨19, _⟩ => ⟨S1x128, .f32⟩
  | .local _ .vmem, ⟨20, _⟩ => ⟨S3000x128, .f32⟩
  | .local _ .vmem, ⟨21, _⟩ => ⟨S3000x128, .f32⟩
  | .local _ .vmem, ⟨22, _⟩ => ⟨S3000x128, .f32⟩
  | .local _ .vmem, ⟨23, _⟩ => ⟨S3000x128, .f32⟩
  | .local _ .vmem, ⟨24, _⟩ => ⟨S128x128, .f32⟩
  | .local _ .vmem, ⟨25, _⟩ => ⟨S3000x1, .f32⟩
  | .local _ .vmem, ⟨26, _⟩ => ⟨S3000x1, .f32⟩
  | .local _ .vmem, ⟨27, _⟩ => ⟨S3000x128, .f32⟩
  | .local _ .vmem, ⟨28, _⟩ => ⟨S3000x128, .f32⟩
  | .local _ .vmem, ⟨29, _⟩ => ⟨S3000x128, .f32⟩
  | .local _ .vmem, ⟨30, _⟩ => ⟨S3000x128, .f32⟩
  | .local _ .vmem, ⟨31, _⟩ => ⟨S3000x128, .f32⟩
  | .local _ .vmem, ⟨32, _⟩ => ⟨S3000x128, .f32⟩
  | .local _ .vmem, ⟨33, _⟩ => ⟨S3000x1, .f32⟩
  | .local _ .vmem, ⟨34, _⟩ => ⟨S3000x1, .f32⟩
  | .local _ .vmem, ⟨35, _⟩ => ⟨S1x128, .f32⟩
  | .local _ .vmem, ⟨36, _⟩ => ⟨S3000x128, .f32⟩
  | .local _ .vmem, ⟨37, _⟩ => ⟨S3000x128, .f32⟩
  | .local _ .vmem, ⟨38, _⟩ => ⟨S1024x128, .f32⟩
  | .local _ .vmem, ⟨39, _⟩ => ⟨S128x128, .f32⟩
  | .local _ .vmem, ⟨40, _⟩ => ⟨S1x128, .f32⟩
  | .local _ .vmem, ⟨41, _⟩ => ⟨S1024x128, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem1_0 : DmaSem sig := 39
abbrev cc5_sem2_0 : DmaSem sig := 40
abbrev cc5_sem3_0 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S3000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S3000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S3000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S3000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1024x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  shapeCasts_S150000_S150000x1 : S150000.ShapeCasts S150000x1
  shapeCasts_S128_S1x128 : S128.ShapeCasts S1x128
  inb_S2000x320_S2000x320_0_0 : ∀ a, (![0, 0] : Fin 2 → Nat) a + S2000x320.size a ≤ S2000x320.size a
  h_S2000x320 : 0 < S2000x320.numel
  bitsLt_bf16_f32 : FTy.bits .bf16 < FTy.bits .f32
  inb_S320x128_S320x128_0_0 : ∀ a, (![0, 0] : Fin 2 → Nat) a + S320x128.size a ≤ S320x128.size a
  h_S320x128 : 0 < S320x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  concatenates_S100000x128_S50000x128_S150000x128_d0 : Shape.Concatenates [S100000x128, S50000x128] S150000x128 0
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S128x128_S128x128_0_0 : ∀ a, (![0, 0] : Fin 2 → Nat) a + S128x128.size a ≤ S128x128.size a
  h_S128x128 : 0 < S128x128.numel
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  broadcasts_S3000x1_S3000x128 : S3000x1.Broadcasts S3000x128
  bcast_S_S150000x128 : S_.BroadcastsInDim S150000x128 (![] : Fin 0 → Fin S150000x128.rank)
  broadcasts_S1x128_S3000x128 : S1x128.Broadcasts S3000x128
  bcast_S_S1024 : S_.BroadcastsInDim S1024 (![] : Fin 0 → Fin S1024.rank)
  bcast_S1024_S1024x1_0 : S1024.BroadcastsInDim S1024x1 (![0] : Fin 1 → Fin S1024x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  scatter_S150000_S2000000x1_S2000000_n_0_0_1_wf : ScatterDims.WF S150000 S2000000x1 S2000000 [] [0] [0] 1
  dot_S2000x320_S320x128_S2000x128_1_0_0_1_n_n_wf : DotDims.WF S2000x320 S320x128 S2000x128 [1] [0] [0] [1] [] []
  dot_S3000x128_S128x128_S3000x128_1_0_0_1_n_n_wf : DotDims.WF S3000x128 S128x128 S3000x128 [1] [0] [0] [1] [] []
  gather_S150000x128_S2000000x1_S2000000x128_1_0_n_n_0_1_1128_wf : GatherDims.WF S150000x128 S2000000x1 S2000000x128 [1] [0] [] [0] [] 1 ![1, 128]
  scatter_S150000x128_S2000000x1_S2000000x128_1_0_0_1_wf : ScatterDims.WF S150000x128 S2000000x1 S2000000x128 [1] [0] [0] 1
  gather_S150000x128_S1024x1_S1024x128_1_0_n_n_0_1_1128_wf : GatherDims.WF S150000x128 S1024x1 S1024x128 [1] [0] [] [0] [] 1 ![1, 128]
  gather_S100000x128_S1024x1_S1024x128_1_0_n_n_0_1_1128_wf : GatherDims.WF S100000x128 S1024x1 S1024x128 [1] [0] [] [0] [] 1 ![1, 128]
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x320.size a ≤ S50000x320.size a
  hwx0_0 : ∀ i : grid0.Coords, EltTy.bits .f32 = 32 ∨ (Rect.block (s := S50000x320) S2000x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x128.size a ≤ S320x128.size a
  hwx0_1 : ∀ i : grid0.Coords, EltTy.bits .f32 = 32 ∨ (Rect.block (s := S320x128) S320x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S150000x128.size a
  hwx1_0 : ∀ i : grid1.Coords, EltTy.bits .f32 = 32 ∨ (Rect.block (s := S150000x128) S3000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x1.size a ≤ S150000x1.size a
  hwx1_2 : ∀ i : grid1.Coords, EltTy.bits .f32 = 32 ∨ (Rect.block (s := S150000x1) S3000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3000x128.size a ≤ S150000x128.size a
  hwx1_3 : ∀ i : grid1.Coords, EltTy.bits .f32 = 32 ∨ (Rect.block (s := S150000x128) S3000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S150000x128.size a
  hwx2_0 : ∀ i : grid2.Coords, EltTy.bits .f32 = 32 ∨ (Rect.block (s := S150000x128) S3000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x128.size a ≤ S150000x128.size a
  hwx2_1 : ∀ i : grid2.Coords, EltTy.bits .f32 = 32 ∨ (Rect.block (s := S150000x128) S3000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x1.size a ≤ S150000x1.size a
  hwx2_2 : ∀ i : grid2.Coords, EltTy.bits .f32 = 32 ∨ (Rect.block (s := S150000x1) S3000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3000x128.size a ≤ S150000x128.size a
  hwx2_4 : ∀ i : grid2.Coords, EltTy.bits .f32 = 32 ∨ (Rect.block (s := S150000x128) S3000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x128.size a ≤ S150000x128.size a
  hwx3_0 : ∀ i : grid3.Coords, EltTy.bits .f32 = 32 ∨ (Rect.block (s := S150000x128) S3000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3000x1.size a ≤ S150000x1.size a
  hwx3_2 : ∀ i : grid3.Coords, EltTy.bits .f32 = 32 ∨ (Rect.block (s := S150000x1) S3000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S3000x128.size a ≤ S150000x128.size a
  hwx3_3 : ∀ i : grid3.Coords, EltTy.bits .f32 = 32 ∨ (Rect.block (s := S150000x128) S3000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3000x128.size a ≤ S150000x128.size a
  hwx4_0 : ∀ i : grid4.Coords, EltTy.bits .f32 = 32 ∨ (Rect.block (s := S150000x128) S3000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3000x128.size a ≤ S150000x128.size a
  hwx4_1 : ∀ i : grid4.Coords, EltTy.bits .f32 = 32 ∨ (Rect.block (s := S150000x128) S3000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S3000x1.size a ≤ S150000x1.size a
  hwx4_2 : ∀ i : grid4.Coords, EltTy.bits .f32 = 32 ∨ (Rect.block (s := S150000x1) S3000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S3000x128.size a ≤ S150000x128.size a
  hwx4_4 : ∀ i : grid4.Coords, EltTy.bits .f32 = 32 ∨ (Rect.block (s := S150000x128) S3000x128.size (cc4_transform_4 i) (hinb4_4 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S1024x128.size a
  hwx5_0 : ∀ i : grid5.Coords, EltTy.bits .f32 = 32 ∨ (Rect.block (s := S1024x128) S1024x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S1024x128.size a
  hwx5_3 : ∀ i : grid5.Coords, EltTy.bits .f32 = 32 ∨ (Rect.block (s := S1024x128) S1024x128.size (cc5_transform_3 i) (hinb5_3 i)).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def dot_S2000x320_S320x128_S2000x128_1_0_0_1_n_n : DotDims S2000x320 S320x128 S2000x128 where
  lhsContracting := [1]
  rhsContracting := [0]
  lhsNonContracting := [0]
  rhsNonContracting := [1]
  lhsBatch := []
  rhsBatch := []
  wf := dot_S2000x320_S320x128_S2000x128_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def gather_S150000x128_S2000000x1_S2000000x128_1_0_n_n_0_1_1128 : GatherDims S150000x128 S2000000x1 S2000000x128 where
  offsetDims := [1]
  collapsedSliceDims := [0]
  operandBatchingDims := []
  startIndicesBatchingDims := []
  startIndexMap := [0]
  indexVectorDim := 1
  sliceSizes := ![1, 128]
  wf := gather_S150000x128_S2000000x1_S2000000x128_1_0_n_n_0_1_1128_wf
def scatter_S150000x128_S2000000x1_S2000000x128_1_0_0_1 : ScatterDims S150000x128 S2000000x1 S2000000x128 where
  updateWindowDims := [1]
  insertedWindowDims := [0]
  scatterDimsToOperandDims := [0]
  indexVectorDim := 1
  wf := scatter_S150000x128_S2000000x1_S2000000x128_1_0_0_1_wf
def gather_S150000x128_S1024x1_S1024x128_1_0_n_n_0_1_1128 : GatherDims S150000x128 S1024x1 S1024x128 where
  offsetDims := [1]
  collapsedSliceDims := [0]
  operandBatchingDims := []
  startIndicesBatchingDims := []
  startIndexMap := [0]
  indexVectorDim := 1
  sliceSizes := ![1, 128]
  wf := gather_S150000x128_S1024x1_S1024x128_1_0_n_n_0_1_1128_wf
def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S2000x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S320x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S3000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S3000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S3000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S3000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S3000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v27) S3000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S3000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v28) S3000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S3000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S3000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S3000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v39) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S3000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v55) S1024x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1024x128.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S1024 : Shape := ⟨1, ![1024]⟩
abbrev S50000x320 : Shape := ⟨2, ![50000, 320]⟩
abbrev S2x2000000 : Shape := ⟨2, ![2, 2000000]⟩
abbrev S100000x128 : Shape := ⟨2, ![100000, 128]⟩
abbrev S320x128 : Shape := ⟨2, ![320, 128]⟩
abbrev S128 : Shape := ⟨1, ![128]⟩
abbrev S128x128 : Shape := ⟨2, ![128, 128]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S50000x128 : Shape := ⟨2, ![50000, 128]⟩
abbrev S1x128 : Shape := ⟨2, ![1, 128]⟩
abbrev S150000x128 : Shape := ⟨2, ![150000, 128]⟩
abbrev S2000000x128 : Shape := ⟨2, ![2000000, 128]⟩
abbrev S150000x1 : Shape := ⟨2, ![150000, 1]⟩
abbrev S1024x1 : Shape := ⟨2, ![1024, 1]⟩
abbrev S1024x128 : Shape := ⟨2, ![1024, 128]⟩

abbrev nBuf : Space → Nat
  | .hbm => 156
  | .vmem => 0
  | .smem => 0
  | _ => 0

abbrev hbmTy0_0 (i : Nat) : BufTy := match i % 128 with
  | 0 => ⟨S1024, .i32⟩
  | 1 => ⟨S50000x320, .f32⟩
  | 2 => ⟨S2x2000000, .i32⟩
  | 3 => ⟨S100000x128, .f32⟩
  | 4 => ⟨S320x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S1x2000000, .i32⟩
  | 13 => ⟨S2000000, .i32⟩
  | 14 => ⟨S1x2000000, .i32⟩
  | 15 => ⟨S2000000, .i32⟩
  | 16 => ⟨S_, .f32⟩
  | 17 => ⟨S2000000, .f32⟩
  | 18 => ⟨S_, .f32⟩
  | 19 => ⟨S150000, .f32⟩
  | 20 => ⟨S2000000x1, .i32⟩
  | 21 => ⟨S150000, .f32⟩
  | 22 => ⟨S_, .f32⟩
  | 23 => ⟨S150000, .f32⟩
  | 24 => ⟨S150000, .f32⟩
  | 25 => ⟨S150000, .f32⟩
  | 26 => ⟨S50000x128, .f32⟩
  | 27 => ⟨S1x128, .f32⟩
  | 28 => ⟨S50000x128, .f32⟩
  | 29 => ⟨S50000x128, .f32⟩
  | 30 => ⟨S150000x128, .f32⟩
  | 31 => ⟨S150000x128, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000, .f32⟩
  | 41 => ⟨S_, .i32⟩
  | 42 => ⟨S2000000, .i32⟩
  | 43 => ⟨S2000000, .i1⟩
  | 44 => ⟨S_, .i32⟩
  | 45 => ⟨S2000000, .i32⟩
  | 46 => ⟨S2000000, .i32⟩
  | 47 => ⟨S2000000, .i32⟩
  | 48 => ⟨S2000000x1, .i32⟩
  | 49 => ⟨S2000000, .f32⟩
  | 50 => ⟨S2000000, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000x128, .f32⟩
  | 60 => ⟨S2000000x1, .f32⟩
  | 61 => ⟨S2000000x128, .f32⟩
  | 62 => ⟨S2000000x128, .f32⟩
  | 63 => ⟨S_, .f32⟩
  | 64 => ⟨S150000x128, .f32⟩
  | 65 => ⟨S2000000x1, .i32⟩
  | 66 => ⟨S150000x128, .f32⟩
  | 67 => ⟨S150000, .f32⟩
  | 68 => ⟨S150000x1, .f32⟩
  | 69 => ⟨S150000x128, .f32⟩
  | 70 => ⟨S150000x128, .f32⟩
  | 71 => ⟨S150000x128, .f32⟩
  | 72 => ⟨S1x128, .f32⟩
  | 73 => ⟨S150000x128, .f32⟩
  | 74 => ⟨S150000x128, .f32⟩
  | 75 => ⟨S_, .f32⟩
  | 76 => ⟨S150000x128, .f32⟩
  | 77 => ⟨S150000x128, .i1⟩
  | 78 => ⟨S_, .f32⟩
  | 79 => ⟨S150000x128, .f32⟩
  | 80 => ⟨S150000x128, .f32⟩
  | 81 => ⟨S150000x128, .f32⟩
  | 82 => ⟨S150000x128, .f32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S2000000, .f32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i32⟩
  | 98 => ⟨S2000000, .i32⟩
  | 99 => ⟨S2000000x1, .i32⟩
  | 100 => ⟨S2000000, .f32⟩
  | 101 => ⟨S2000000, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x128, .f32⟩
  | 111 => ⟨S2000000x1, .f32⟩
  | 112 => ⟨S2000000x128, .f32⟩
  | 113 => ⟨S2000000x128, .f32⟩
  | 114 => ⟨S_, .f32⟩
  | 115 => ⟨S150000x128, .f32⟩
  | 116 => ⟨S2000000x1, .i32⟩
  | 117 => ⟨S150000x128, .f32⟩
  | 118 => ⟨S150000, .f32⟩
  | 119 => ⟨S150000x1, .f32⟩
  | 120 => ⟨S150000x128, .f32⟩
  | 121 => ⟨S150000x128, .f32⟩
  | 122 => ⟨S150000x128, .f32⟩
  | 123 => ⟨S1x128, .f32⟩
  | 124 => ⟨S150000x128, .f32⟩
  | 125 => ⟨S150000x128, .f32⟩
  | 126 => ⟨S_, .f32⟩
  | 127 => ⟨S150000x128, .f32⟩
  | _ => ⟨S1024, .i32⟩

abbrev hbmTy0_1 (i : Nat) : BufTy := match i % 128 with
  | 0 => ⟨S150000x128, .i1⟩
  | 1 => ⟨S_, .f32⟩
  | 2 => ⟨S150000x128, .f32⟩
  | 3 => ⟨S150000x128, .f32⟩
  | 4 => ⟨S150000x128, .f32⟩
  | 5 => ⟨S_, .i32⟩
  | 6 => ⟨S1024, .i32⟩
  | 7 => ⟨S1024, .i1⟩
  | 8 => ⟨S_, .i32⟩
  | 9 => ⟨S1024, .i32⟩
  | 10 => ⟨S1024, .i32⟩
  | 11 => ⟨S1024, .i32⟩
  | 12 => ⟨S1024x1, .i32⟩
  | 13 => ⟨S1024x128, .f32⟩
  | 14 => ⟨S_, .i32⟩
  | 15 => ⟨S1024, .i32⟩
  | 16 => ⟨S1024, .i1⟩
  | 17 => ⟨S_, .i32⟩
  | 18 => ⟨S1024, .i32⟩
  | 19 => ⟨S1024, .i32⟩
  | 20 => ⟨S1024, .i32⟩
  | 21 => ⟨S1024x1, .i32⟩
  | 22 => ⟨S1024x128, .f32⟩
  | 23 => ⟨S1024x128, .f32⟩
  | 24 => ⟨S1024x128, .f32⟩
  | 25 => ⟨S1x128, .f32⟩
  | 26 => ⟨S1024x128, .f32⟩
  | 27 => ⟨S1024x128, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_14 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_19 : Ref sig .tc := ⟨.hbm, 133, rfl⟩
abbrev main_v100 : Ref sig .tc := ⟨.hbm, 134, rfl⟩
abbrev main_v101 : Ref sig .tc := ⟨.hbm, 135, rfl⟩
abbrev main_c_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_21 : Ref sig .tc := ⟨.hbm, 142, rfl⟩
abbrev main_v107 : Ref sig .tc := ⟨.hbm, 143, rfl⟩
abbrev main_v108 : Ref sig .tc := ⟨.hbm, 144, rfl⟩
abbrev main_c_22 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S100000x128_S50000x128_S150000x128_d0 : Shape.Concatenates [S100000x128, S50000x128] S150000x128 0
  bcast_S2000000x1_S2000000x128_0_1 : S2000000x1.BroadcastsInDim S2000000x128 (![0, 1] : Fin 2 → Fin S2000000x128.rank)
  bcast_S_S150000x128 : S_.BroadcastsInDim S150000x128 (![] : Fin 0 → Fin S150000x128.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  bcast_S1x128_S150000x128_0_1 : S1x128.BroadcastsInDim S150000x128 (![0, 1] : Fin 2 → Fin S150000x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1x128_S1024x128_0_1 : S1x128.BroadcastsInDim S1024x128 (![0, 1] : Fin 2 → Fin S1024x128.rank)
  scatter_S150000_S2000000x1_S2000000_n_0_0_1_wf : ScatterDims.WF S150000 S2000000x1 S2000000 [] [0] [0] 1
  dot_S50000x320_S320x128_S50000x128_1_0_0_1_n_n_wf : DotDims.WF S50000x320 S320x128 S50000x128 [1] [0] [0] [1] [] []
  dot_S150000x128_S128x128_S150000x128_1_0_0_1_n_n_wf : DotDims.WF S150000x128 S128x128 S150000x128 [1] [0] [0] [1] [] []
  gather_S150000_S2000000x1_S2000000_n_0_n_n_0_1_1_wf : GatherDims.WF S150000 S2000000x1 S2000000 [] [0] [] [0] [] 1 ![1]
  gather_S150000x128_S2000000x1_S2000000x128_1_0_n_n_0_1_1128_wf : GatherDims.WF S150000x128 S2000000x1 S2000000x128 [1] [0] [] [0] [] 1 ![1, 128]
  scatter_S150000x128_S2000000x1_S2000000x128_1_0_0_1_wf : ScatterDims.WF S150000x128 S2000000x1 S2000000x128 [1] [0] [0] 1
  gather_S150000x128_S1024x1_S1024x128_1_0_n_n_0_1_1128_wf : GatherDims.WF S150000x128 S1024x1 S1024x128 [1] [0] [] [0] [] 1 ![1, 128]
  gather_S100000x128_S1024x1_S1024x128_1_0_n_n_0_1_1128_wf : GatherDims.WF S100000x128 S1024x1 S1024x128 [1] [0] [] [0] [] 1 ![1, 128]
  dot_S1024x128_S128x128_S1024x128_1_0_0_1_n_n_wf : DotDims.WF S1024x128 S128x128 S1024x128 [1] [0] [0] [1] [] []

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def dot_S50000x320_S320x128_S50000x128_1_0_0_1_n_n : DotDims S50000x320 S320x128 S50000x128 where
  lhsContracting := [1]
  rhsContracting := [0]
  lhsNonContracting := [0]
  rhsNonContracting := [1]
  lhsBatch := []
  rhsBatch := []
  wf := dot_S50000x320_S320x128_S50000x128_1_0_0_1_n_n_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x128_S2000000x1_S2000000x128_1_0_n_n_0_1_1128 : GatherDims S150000x128 S2000000x1 S2000000x128 where
  offsetDims := [1]
  collapsedSliceDims := [0]
  operandBatchingDims := []
  startIndicesBatchingDims := []
  startIndexMap := [0]
  indexVectorDim := 1
  sliceSizes := ![1, 128]
  wf := gather_S150000x128_S2000000x1_S2000000x128_1_0_n_n_0_1_1128_wf
def scatter_S150000x128_S2000000x1_S2000000x128_1_0_0_1 : ScatterDims S150000x128 S2000000x1 S2000000x128 where
  updateWindowDims := [1]
  insertedWindowDims := [0]
  scatterDimsToOperandDims := [0]
  indexVectorDim := 1
  wf := scatter_S150000x128_S2000000x1_S2000000x128_1_0_0_1_wf
def gather_S150000x128_S1024x1_S1024x128_1_0_n_n_0_1_1128 : GatherDims S150000x128 S1024x1 S1024x128 where
  offsetDims := [1]
  collapsedSliceDims := [0]
  operandBatchingDims := []
  startIndicesBatchingDims := []
  startIndexMap := [0]
  indexVectorDim := 1
  sliceSizes := ![1, 128]
  wf := gather_S150000x128_S1024x1_S1024x128_1_0_n_n_0_1_1128_wf
def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

class Facts : Prop extends Facts₀ where

variable [Facts]
-- ==== Proof.Spec.lean ====
/-
  The mathematics both programs compute, stated once over plain index-to-value functions on the extended reals.

  A graph-convolution layer over 150000 nodes and 2000000 directed edges. Every node `n` carries a weight
  `dv n` (the inverse square root of its in-degree plus one). With `h = x · W`, edge `e` reading row `rs e` of a table
  and landing on node `i` when `lands e i`:
    • one arrangement first scales every row, `g n = h n * dv n`, sums the landed rows of `g`, adds `g i`, and scales the
      total by `dv i`;
    • the other scales each landed row of `h` by the product of the two end weights `dv (rs e) * dv (rd e)`, sums, and adds
      `(dv i * dv i) * h i`.
  They agree entry by entry when every weight is a NONNEGATIVE REAL (so that it distributes over sums of extended reals)
  and an edge that lands on `i` reads its second weight at `i` (`rd e = i`). Multiplication of extended reals is
  commutative and associative, which is all the rest needs.
-/
import Idealize.ShloMosaic.PureOps.Ideal
import Idealize.ShloMosaic.Lib.ValueIdx

noncomputable section

open Idealize.ShloMosaic Idealize.ShloMosaic.ValueIdx
open scoped BigOperators

namespace Cert.Gcn

/-- An `r × c` array of extended reals, as a function of its index. -/
abbrev Mat (r c : ℕ) := (⟨2, ![r, c]⟩ : Shape).Idx → EReal
/-- A length-`n` vector of extended reals. -/
abbrev Vec1 (n : ℕ) := (⟨1, ![n]⟩ : Shape).Idx → EReal

/-- An array given by its entry at row `p`, column `q`. -/
def ofRC {r c : ℕ} (f : Fin r → Fin c → EReal) : Mat r c := fun i => f (i 0) (i 1)
theorem ofRC_apply {r c : ℕ} (f : Fin r → Fin c → EReal) (p : Fin r) (q : Fin c) : ofRC f (ix2 p q) = f p q := rfl

/-- The matrix product: entry `(p, q)` is `∑ k, a (p, k) * w (k, q)`. -/
def prod {M K N : ℕ} (a : Mat M K) (w : Mat K N) : Mat M N := ofRC fun p q => ∑ k : Fin K, a (ix2 p k) * w (ix2 k q)
theorem prod_apply {M K N : ℕ} (a : Mat M K) (w : Mat K N) (p : Fin M) (q : Fin N) :
    prod a w (ix2 p q) = ∑ k : Fin K, a (ix2 p k) * w (ix2 k q) := rfl

/-- A dense layer: the product plus a bias along the columns. -/
def dense {M K N : ℕ} (a : Mat M K) (w : Mat K N) (b : Vec1 N) : Mat M N := ofRC fun p q => prod a w (ix2 p q) + b (ix1 q)
theorem dense_apply {M K N : ℕ} (a : Mat M K) (w : Mat K N) (b : Vec1 N) (p : Fin M) (q : Fin N) :
    dense a w b (ix2 p q) = (∑ k : Fin K, a (ix2 p k) * w (ix2 k q)) + b (ix1 q) := rfl

/-- The float words the programs share: `0.0`, `1.0` and the slope `0.2` (as its binary32 word). -/
def zeroW : EReal := Ideal.ofBits .f32 0x00000000#32
def oneW : EReal := Ideal.ofBits .f32 0x3F800000#32
def slopeW : EReal := Ideal.ofBits .f32 0x3E4CCCCD#32

/-- The leaky rectifier on one entry: `v` where `v ≥ 0`, else `slope * v`. -/
def leakyAt (v : EReal) : EReal := Scalar.select (FloatOps.cmpf (F := Ideal) (φ := .f32) CmpFPredicate.oge v zeroW) v (slopeW * v)

section layer

variable (dv : Fin 150000 → EReal) (rs rd : Fin 2000000 → Fin 150000)
  (lands : Fin 2000000 → Fin 150000 → Prop) [∀ e i, Decidable (lands e i)]

/-- The layer, rows scaled first and the total scaled after (the kernel's arrangement). -/
def scaledFirst (x : Mat 150000 128) (W : Mat 128 128) (b : Vec1 128) : Mat 150000 128 := ofRC fun i c =>
  leakyAt (dv i * ((zeroW + ∑ e ∈ Finset.univ.filter (fun e => lands e i), prod x W (ix2 (rs e) c) * dv (rs e))
      + prod x W (ix2 i c) * dv i) + b (ix1 c))

/-- The layer, each landed row scaled by both end weights (the reference's arrangement). -/
def scaledPerEdge (x : Mat 150000 128) (W : Mat 128 128) (b : Vec1 128) : Mat 150000 128 := ofRC fun i c =>
  leakyAt (((zeroW + ∑ e ∈ Finset.univ.filter (fun e => lands e i), prod x W (ix2 (rs e) c) * (dv (rs e) * dv (rd e)))
      + (dv i * dv i) * prod x W (ix2 i c)) + b (ix1 c))

end layer

/-! ## What one launch computes on whole arrays (any number of rows) -/

/-- A dense layer whose bias arrives as one row. -/
def denseRow {M K N : ℕ} (a : Mat M K) (w : Mat K N) (b : Mat 1 N) : Mat M N :=
  ofRC fun p q => prod a w (ix2 p q) + b (ix2 (0 : Fin 1) q)

/-- A product with every row `p` scaled afterwards by the column entry `d (p, 0)`. -/
def scaledRows {n : ℕ} (x : Mat n 128) (W : Mat 128 128) (d : Mat n 1) : Mat n 128 :=
  ofRC fun p q => prod x W (ix2 p q) * d (ix2 p (0 : Fin 1))

/-- The closing step of a layer: `leaky (d p * (s + g) + b)`. -/
def finished {n : ℕ} (s g : Mat n 128) (d : Mat n 1) (b : Mat 1 128) : Mat n 128 :=
  ofRC fun p q => leakyAt (d (ix2 p (0 : Fin 1)) * (s (ix2 p q) + g (ix2 p q)) + b (ix2 (0 : Fin 1) q))

/-! ## The graph's data, read off the edge list -/

/-- The word jnp's `table[w]` looks up in a table of `R` rows: a negative word wraps once (`w + R`). -/
def wrapW (R w : BitVec 32) : BitVec 32 := Scalar.select (IntOp.cmpi .slt w 0#32) (IntOp.addi w R) w

/-- The row `table[w]` reads: the wrapped word, read signed and clamped into the table. -/
def takeRow (R : ℕ) (hR : 0 < R) (Rw w : BitVec 32) : Fin R := ⟨min (wrapW Rw w).toInt.toNat (R - 1), by omega⟩

/-- The edge list: row 0 the sources, row 1 the destinations. -/
abbrev Edges := IVec (⟨2, ![2, 2000000]⟩ : Shape) 32

def srcW (E : Edges) (e : Fin 2000000) : BitVec 32 := E (ix2 (0 : Fin 2) e)
def dstW (E : Edges) (e : Fin 2000000) : BitVec 32 := E (ix2 (1 : Fin 2) e)

/-- Edge `e` is accumulated into node `i`: its destination word, read signed and NOT wrapped, is `i`. -/
def lands (E : Edges) (e : Fin 2000000) (i : Fin 150000) : Prop := (dstW E e).toInt = (i.val : ℤ)
instance (E : Edges) (e : Fin 2000000) (i : Fin 150000) : Decidable (lands E e i) := by unfold lands; infer_instance

/-- The node a take by the source word, and by the destination word, reads. -/
def rowSrc (E : Edges) (e : Fin 2000000) : Fin 150000 := takeRow 150000 (by decide) 150000#32 (srcW E e)
def rowDst (E : Edges) (e : Fin 2000000) : Fin 150000 := takeRow 150000 (by decide) 150000#32 (dstW E e)

/-- A node's weight: the inverse square root of one plus the number of edges accumulated into it. -/
def dinv (E : Edges) (n : Fin 150000) : EReal :=
  Ideal.rsqrt (oneW + (zeroW + ∑ e ∈ Finset.univ.filter (fun e => lands E e n), oneW))

/-! ## The whole computation, in each arrangement -/

/-- The node table: the 100000 user rows above the 50000 projected rows. -/
def nodes0 (ut : Mat 100000 128) (poi : Mat 50000 320) (Wp : Mat 320 128) (bp : Vec1 128) : Mat 150000 128 :=
  ofRC fun n j => if h : n.val < 100000 then ut (ix2 ⟨n.val, h⟩ j)
    else dense poi Wp bp (ix2 ⟨n.val - 100000, by have := n.isLt; omega⟩ j)

/-- The batch readout: the looked-up node row plus the looked-up user row, through a last dense layer. -/
def readout (x : Mat 150000 128) (ut : Mat 100000 128) (uidx : IVec (⟨1, ![1024]⟩ : Shape) 32) (Wf : Mat 128 128)
    (bf : Vec1 128) : Mat 1024 128 :=
  dense (ofRC fun p j => x (ix2 (takeRow 150000 (by decide) 150000#32 (uidx (ix1 p))) j)
      + ut (ix2 (takeRow 100000 (by decide) 100000#32 (uidx (ix1 p))) j)) Wf bf

/-- Two layers then the readout, every layer with its rows scaled first. -/
def outScaledFirst (uidx : IVec (⟨1, ![1024]⟩ : Shape) 32) (poi : Mat 50000 320) (E : Edges) (ut : Mat 100000 128)
    (Wp : Mat 320 128) (bp : Vec1 128) (W1 : Mat 128 128) (b1 : Vec1 128) (W2 : Mat 128 128) (b2 : Vec1 128)
    (Wf : Mat 128 128) (bf : Vec1 128) : Mat 1024 128 :=
  readout (scaledFirst (dinv E) (rowSrc E) (lands E)
    (scaledFirst (dinv E) (rowSrc E) (lands E) (nodes0 ut poi Wp bp) W1 b1) W2 b2) ut uidx Wf bf

/-- The same with every layer scaled per edge. -/
def outScaledPerEdge (uidx : IVec (⟨1, ![1024]⟩ : Shape) 32) (poi : Mat 50000 320) (E : Edges) (ut : Mat 100000 128)
    (Wp : Mat 320 128) (bp : Vec1 128) (W1 : Mat 128 128) (b1 : Vec1 128) (W2 : Mat 128 128) (b2 : Vec1 128)
    (Wf : Mat 128 128) (bf : Vec1 128) : Mat 1024 128 :=
  readout (scaledPerEdge (dinv E) (rowSrc E) (rowDst E) (lands E)
    (scaledPerEdge (dinv E) (rowSrc E) (rowDst E) (lands E) (nodes0 ut poi Wp bp) W1 b1) W2 b2) ut uidx Wf bf

end Cert.Gcn

end
-- ==== Proof.Law.lean ====
/-
  The two arrangements of the layer agree.

  A node's weight is `(√(1 + count))⁻¹`, a nonnegative real number, so multiplying by it distributes over any sum of
  extended reals; an edge accumulated into node `i` has its destination word equal to `i ≥ 0`, which the wrap leaves
  alone and the clamp finds in range, so the take by that word reads row `i`. With those two facts
    dv i * ((0 + ∑ h(rs e) * dv (rs e)) + h i * dv i)  =  (0 + ∑ h(rs e) * (dv (rs e) * dv (rd e))) + (dv i * dv i) * h i
  term by term, by commutativity and associativity of the product.
-/
import proofs.«120925_j38465727103681_1_alg».proof.Proof.Spec

noncomputable section

open Idealize.ShloMosaic Idealize.ShloMosaic.ValueIdx
open scoped BigOperators

namespace Cert.Gcn

/-- The word `0x00000000` is the real zero. -/
theorem zeroW_eq : zeroW = 0 := by
  simp [zeroW, Ideal.ofBits, Ideal.ieee]

/-- The word `0x3F800000` is the real one. -/
theorem oneW_eq : oneW = 1 := by
  simp [oneW, Ideal.ofBits, Ideal.ieee]
  rw [← EReal.coe_mul, ← EReal.coe_one]
  exact congrArg _ (by norm_num)

/-- A nonnegative real distributes over a sum of two extended reals. -/
theorem nonneg_real_mul_add (r : ℝ) (hr : 0 ≤ r) (y z : EReal) : (r : EReal) * (y + z) = (r : EReal) * y + (r : EReal) * z :=
  EReal.left_distrib_of_nonneg_of_ne_top (EReal.coe_nonneg.mpr hr) (EReal.coe_ne_top r) y z

/-- A nonnegative real distributes over a finite sum of extended reals. -/
theorem nonneg_real_mul_sum {ι : Type} (s : Finset ι) (f : ι → EReal) (r : ℝ) (hr : 0 ≤ r) :
    (r : EReal) * ∑ j ∈ s, f j = ∑ j ∈ s, (r : EReal) * f j := by
  classical
  induction s using Finset.induction_on with
  | empty => rw [Finset.sum_empty, Finset.sum_empty, mul_zero]
  | insert a s ha ih => rw [Finset.sum_insert ha, Finset.sum_insert ha, nonneg_real_mul_add r hr, ih]

/-- A sum of ones over a finite set is the real number of its elements. -/
theorem sum_oneW {ι : Type} (s : Finset ι) : ∑ _e ∈ s, oneW = ((s.card : ℝ) : EReal) := by
  classical
  induction s using Finset.induction_on with
  | empty => simp
  | insert a s ha ih =>
    rw [Finset.sum_insert ha, ih, Finset.card_insert_of_notMem ha, oneW_eq, ← EReal.coe_one, ← EReal.coe_add]
    congr 1
    push_cast
    ring

/-- Every node's weight is a nonnegative real. -/
theorem dinv_real (E : Edges) (n : Fin 150000) : ∃ r : ℝ, 0 ≤ r ∧ dinv E n = (r : EReal) := by
  have hpos : (0 : ℝ) < 1 + ((Finset.univ.filter (fun e => lands E e n)).card : ℝ) := by positivity
  refine ⟨(Real.sqrt (1 + ((Finset.univ.filter (fun e => lands E e n)).card : ℝ)))⁻¹,
    inv_nonneg.mpr (Real.sqrt_nonneg _), ?_⟩
  have harg : oneW + (zeroW + ∑ e ∈ Finset.univ.filter (fun e => lands E e n), oneW)
      = ((1 + ((Finset.univ.filter (fun e => lands E e n)).card : ℝ) : ℝ) : EReal) := by
    rw [sum_oneW, zeroW_eq, oneW_eq, zero_add, EReal.coe_add, EReal.coe_one]
  unfold dinv
  rw [harg, Ideal.rsqrt_coe, if_neg (not_lt.mpr hpos.le), if_neg hpos.ne']

/-- An edge accumulated into node `i` reads its destination weight at `i`. -/
theorem rowDst_of_lands (E : Edges) (e : Fin 2000000) (i : Fin 150000) (h : lands E e i) : rowDst E e = i := by
  have hw : (dstW E e).toInt = (i.val : ℤ) := h
  have hslt : (dstW E e).slt 0#32 = false := by
    rw [BitVec.slt_eq_decide, BitVec.toInt_zero, hw]
    exact decide_eq_false (by omega)
  have hwrap : wrapW 150000#32 (dstW E e) = dstW E e := by
    unfold wrapW IntOp.cmpi
    rw [hslt, BitVec.ofBool_false]
    exact select_zero _ _
  apply Fin.ext
  unfold rowDst takeRow
  simp only [hwrap, hw]
  have := i.isLt
  omega

/-- The layer law. -/
theorem scaledFirst_eq_scaledPerEdge (dv : Fin 150000 → EReal) (rs rd : Fin 2000000 → Fin 150000)
    (lands : Fin 2000000 → Fin 150000 → Prop) [∀ e i, Decidable (lands e i)]
    (hdv : ∀ n, ∃ r : ℝ, 0 ≤ r ∧ dv n = (r : EReal)) (hrd : ∀ e i, lands e i → rd e = i)
    (x : Mat 150000 128) (W : Mat 128 128) (b : Vec1 128) :
    scaledFirst dv rs lands x W b = scaledPerEdge dv rs rd lands x W b := by
  funext j
  obtain ⟨i, c, rfl⟩ : ∃ i c, j = ix2 i c := ⟨j 0, j 1, eq_ix2 j⟩
  unfold scaledFirst scaledPerEdge
  rw [ofRC_apply, ofRC_apply]
  refine congrArg leakyAt (congrArg (· + b (ix1 c)) ?_)
  obtain ⟨r, hr, hdvi⟩ := hdv i
  rw [hdvi, nonneg_real_mul_add r hr, nonneg_real_mul_add r hr, zeroW_eq, mul_zero, nonneg_real_mul_sum _ _ r hr]
  refine congrArg₂ (· + ·) (congrArg (0 + ·) (Finset.sum_congr rfl fun e he => ?_)) ?_
  · rw [hrd e i (Finset.mem_filter.mp he).2, hdvi]
    exact (mul_left_comm _ _ _).trans (congrArg (_ * ·) (mul_comm _ _))
  · exact (congrArg (_ * ·) (mul_comm _ _)).trans (mul_assoc _ _ _).symm

/-- The two whole computations agree on every input. -/
theorem outScaledFirst_eq_outScaledPerEdge (uidx : IVec (⟨1, ![1024]⟩ : Shape) 32) (poi : Mat 50000 320) (E : Edges)
    (ut : Mat 100000 128) (Wp : Mat 320 128) (bp : Vec1 128) (W1 : Mat 128 128) (b1 : Vec1 128) (W2 : Mat 128 128)
    (b2 : Vec1 128) (Wf : Mat 128 128) (bf : Vec1 128) :
    outScaledFirst uidx poi E ut Wp bp W1 b1 W2 b2 Wf bf = outScaledPerEdge uidx poi E ut Wp bp W1 b1 W2 b2 Wf bf := by
  unfold outScaledFirst outScaledPerEdge
  rw [scaledFirst_eq_scaledPerEdge (dinv E) (rowSrc E) (rowDst E) (lands E) (dinv_real E) (rowDst_of_lands E),
    scaledFirst_eq_scaledPerEdge (dinv E) (rowSrc E) (rowDst E) (lands E) (dinv_real E) (rowDst_of_lands E)]

end Cert.Gcn

end
-- ==== Proof.LibRowTake.lean ====
/-
  A table's rows taken at a list of positions, read at one entry, for every size.

  jnp's `table[idx]` over an `R × C` table and `n` positions is a gather whose start indices are the `n × 1` column
  of positions: the result's axis 1 is its one offset axis and runs over the table's axis 1 whole, the table's axis 0 is
  collapsed and is the one axis a start index names, and the index vector lies along axis 1 of the start indices. The
  result is `n × C`, and its entry `(e, c)` is the table's entry at column `c` of the row position `e` names, that
  position read as a signed integer and clamped into `[0, R - 1]`: a negative position reads row 0, one past the end
  reads the last row.

  The reason is a reading of the operand index coordinate by coordinate. On the table's axis 1 no start index applies
  and nothing is batched, so the coordinate is the result's own offset coordinate, its coordinate on axis 1, which is
  `c`. On the table's axis 0 the offset is zero (the axis is collapsed, so its slice has size one) and the coordinate is
  the clamped start index; the start index of entry `(e, c)` is read at the result's batch coordinates, here the single
  coordinate on axis 0, which is `e`, with component 0 on the index vector's axis: the column's entry `(e, 0)`.

  The dimension numbers enter as hypotheses, so a program's printed record with these numbers is an instance, each
  hypothesis by unfolding.
-/
import Idealize.ShloMosaic.PureOps.ShapeOps
import Idealize.ShloMosaic.Lib.ValueIdx

namespace Cert.LibRowTake

open Idealize.ShloMosaic Idealize.ShloMosaic.ValueIdx

/-- The row of an `R`-row table that a position word names: the word read signed, clamped into `[0, R - 1]`. -/
def rowOf {w : ℕ} (R : ℕ) (hR : 0 < R) (p : BitVec w) : Fin R := ⟨min p.toInt.toNat (R - 1), by omega⟩

/-- Entry `(e, c)` of the rows of `x` taken at the positions `idx`: column `c` of the row of `x` that position `e`
    names, read signed and clamped into the table. -/
theorem gather_rows {α : Type} {R C n w : ℕ} (d : GatherDims ⟨2, ![R, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![R, C]⟩ : Shape).Idx → α) (idx : IVec ⟨2, ![n, 1]⟩ w) (e : Fin n) (c : Fin C) (hR : 0 < R) :
    Host.gather d x idx (ix2 e c) = x (ix2 (rowOf R hR (idx (ix2 e 0))) c) := by
  have hnb : ∀ a : Fin 2, a ∉ d.operandBatchingDims := fun a => by rw [hob]; exact List.not_mem_nil
  have hk1 : (1 : Fin 2) ∈ d.sKept := by rw [GatherDims.mem_sKept, hcoll]; exact ⟨by simp, hnb 1⟩
  have hk0 : (0 : Fin 2) ∉ d.sKept := by rw [GatherDims.mem_sKept, hcoll]; simp
  have hm1 : (1 : Fin 2) ∉ d.startIndexMap := by rw [hsim]; simp
  have hm0 : (0 : Fin 2) ∈ d.startIndexMap := by rw [hsim]; exact List.mem_singleton.mpr rfl
  have hsl : d.sliceSizes 0 = 1 := d.slice_collapsed 0 (by rw [hcoll]; exact List.mem_singleton.mpr rfl)
  -- the result's one offset axis is axis 1, its one batch axis is axis 0
  have hoffm : ∀ a ∈ d.offsetDims, a = (1 : Fin 2) := fun a ha => by
    rw [hoff] at ha; exact List.mem_singleton.1 ha
  have hoff1 : ∀ (i : Nat) (hi : i < d.offsetDims.length), d.offsetDims[i] = (1 : Fin 2) := fun i hi =>
    hoffm _ (List.getElem_mem hi)
  have hbatm : ∀ a ∈ d.batchDims, a = (0 : Fin 2) := fun a ha => by
    simp only [GatherDims.batchDims, Shape.kept, hoff, List.mem_filter, List.mem_singleton] at ha
    have hne : a ≠ (1 : Fin 2) := by simpa using ha.2
    have hlt : a.val < 2 := a.isLt
    have hv : a.val ≠ 1 := fun h => hne (Fin.ext h)
    apply Fin.ext
    show a.val = 0
    omega
  have hbat0 : ∀ (i : Nat) (hi : i < d.batchDims.length), d.batchDims[i] = (0 : Fin 2) := fun i hi =>
    hbatm _ (List.getElem_mem hi)
  have rd0 : ∀ a : Fin 2, a = 0 → ((ix2 e c : (⟨2, ![n, C]⟩ : Shape).Idx) a).val = e.val := by rintro _ rfl; rfl
  have rd1 : ∀ a : Fin 2, a = 1 → ((ix2 e c : (⟨2, ![n, C]⟩ : Shape).Idx) a).val = c.val := by rintro _ rfl; rfl
  -- the start index that result entry (e, c) reads is the column's entry at row e
  have hsi : ∀ h, d.siIdx (ix2 e c) ⟨List.idxOf (0 : Fin 2) d.startIndexMap, h⟩ = ix2 e 0 := fun h => by
    funext b
    match b with
    | ⟨0, _⟩ =>
      unfold GatherDims.siIdx
      rw [dif_neg (by rw [hivd]; simp)]
      unfold GatherDims.siCoord
      apply Fin.ext
      simp only [Fin.val_cast]
      exact rd0 _ (hbat0 _ _)
    | ⟨1, _⟩ =>
      unfold GatherDims.siIdx
      rw [dif_pos (by rw [hivd])]
      apply Fin.ext
      show List.idxOf (0 : Fin 2) d.startIndexMap = 0
      rw [hsim]; simp
  have e0 : (d.operandIdx (ix2 e c) idx 0).val = min (idx (ix2 e 0)).toInt.toNat (R - 1) := by
    simp only [GatherDims.operandIdx, GatherDims.batchCoord_eq_zero _ _ _ (hnb _), GatherDims.start, dif_pos hm0,
      GatherDims.offCoord_eq_zero _ _ _ hk0, Nat.add_zero]
    rw [hsi, hsl]
    rfl
  have e1 : (d.operandIdx (ix2 e c) idx 1).val = c.val := by
    simp only [GatherDims.operandIdx, GatherDims.batchCoord_eq_zero _ _ _ (hnb _), GatherDims.start, dif_neg hm1,
      Nat.add_zero, Nat.zero_add]
    unfold GatherDims.offCoord
    rw [dif_pos hk1]
    exact rd1 _ (hoff1 _ _)
  unfold Host.gather
  congr 1
  funext a
  apply Fin.ext
  match a with
  | ⟨0, _⟩ => exact e0
  | ⟨1, _⟩ => exact e1

end Cert.LibRowTake
-- ==== Proof.LibBroadcastRead.lean ====
/-
  The host's two-step broadcasts of a vector into a rectangle, read at one entry.

  `jnp` lays a vector along a rectangle in two steps: first it gives the vector a unit axis (a row `[1, m]` or a column
  `[n, 1]`), then it repeats that along the unit axis. Read at entry `(p, q)`, a row repeated down the rows holds the
  row's entry `q`, and a column repeated along the columns holds the column's entry `p`; the unit-axis step changes
  nothing but the index's shape. Stated for every size, so a program's printed broadcast is an instance.
-/
import Idealize.ShloMosaic.Lib.ValueIdx
import Idealize.ShloMosaic.Lib.Pipeline.Value

namespace Cert.LibBroadcastRead

open Idealize.ShloMosaic Idealize.ShloMosaic.ValueIdx Idealize.ShloMosaic.Pipeline

variable {α : Type} {n m : ℕ}

/-- A vector as a one-row matrix: entry `(0, q)` is the vector's entry `q`. -/
theorem vec_as_row_apply (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt; split <;> omega

/-- A vector as a one-column matrix: entry `(p, 0)` is the vector's entry `p`. -/
theorem vec_as_col_apply (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt; split <;> omega

/-- A one-row matrix repeated down `n` rows: entry `(p, q)` is the row's entry `q`. -/
theorem row_down_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v _ _ fun a => by
    match a with
    | ⟨0, _⟩ => show (0 : ℕ) = if (1 : ℕ) = 1 then 0 else p.val; rw [if_pos rfl]
    | ⟨1, _⟩ =>
      show q.val = if m = 1 then 0 else q.val
      have := q.isLt; split <;> omega

/-- A one-column matrix repeated along `m` columns: entry `(p, q)` is the column's entry `p`. -/
theorem col_along_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt; split <;> omega
    | ⟨1, _⟩ => show (0 : ℕ) = if (1 : ℕ) = 1 then 0 else q.val; rw [if_pos rfl]

end Cert.LibBroadcastRead
-- ==== Proof.Decode.lean ====
/-
  Reading the host's indexed operations at one entry.

  The accumulating scatter of rows (`segment_sum`): entry `(i, c)` of the result is the operand's entry plus the sum, over
  the edges whose index word read signed is exactly `i`, of the update's entry `(e, c)`; the same for a vector of
  per-edge scalars. jnp's `table[v]`: the wrap of negative words followed by the clamped take reads row
  `takeRow` of the table. The edge list's two rows are its sources and destinations.
-/
import proofs.«120925_j38465727103681_1_alg».proof.Proof.Spec
import proofs.«120925_j38465727103681_1_alg».proof.Proof.LibRowTake
import proofs.«120925_j38465727103681_1_alg».proof.Proof.LibBroadcastRead
import Idealize.ShloMosaic.Lib.StableHlo.Predicate
import Idealize.ShloMosaic.Lib.Pipeline.Value

noncomputable section

open Idealize.ShloMosaic Idealize.ShloMosaic.ValueIdx
open scoped BigOperators

namespace Cert.Gcn

/-- Where an update entry of the row scatter lands. -/
theorem scatterRows_lands (d : ScatterDims (⟨2, ![150000, 128]⟩ : Shape) ⟨2, ![2000000, 1]⟩ ⟨2, ![2000000, 128]⟩)
    (huw : d.updateWindowDims = [1]) (hiw : d.insertedWindowDims = [0]) (hsd : d.scatterDimsToOperandDims = [0])
    (hiv : d.indexVectorDim = 1) (idx : IVec (⟨2, ![2000000, 1]⟩ : Shape) 32)
    (e : Fin 2000000) (c' : Fin 128) (i : Fin 150000) (c : Fin 128) :
    d.resultIdx? (ix2 e c') idx = some (ix2 i c) ↔ (idx (ix2 e (0 : Fin 1))).toInt = (i.val : ℤ) ∧ c' = c := by
  have hm0 : (0 : Fin 2) ∈ d.scatterDimsToOperandDims := by rw [hsd]; exact List.mem_singleton.mpr rfl
  have hm1 : (1 : Fin 2) ∉ d.scatterDimsToOperandDims := by rw [hsd]; simp
  have hk1 : (1 : Fin 2) ∈ d.sKept := by
    simp only [ScatterDims.sKept, Shape.kept, hiw, List.mem_filter, List.mem_singleton]
    exact ⟨List.mem_finRange _, by simp⟩
  have hk0 : (0 : Fin 2) ∉ d.sKept := by
    simp only [ScatterDims.sKept, Shape.kept, hiw, List.mem_filter, List.mem_singleton]
    simp
  -- the updates' one scatter axis is axis 0, their one window axis is axis 1
  have husm : ∀ a ∈ d.uScatter, a = (0 : Fin 2) := fun a ha => by
    simp only [ScatterDims.uScatter, Shape.kept, huw, List.mem_filter, List.mem_singleton] at ha
    have hne : a ≠ (1 : Fin 2) := by simpa using ha.2
    have hlt : a.val < 2 := a.isLt
    have hv : a.val ≠ 1 := fun h => hne (Fin.ext h)
    apply Fin.ext
    show a.val = 0
    omega
  have hus0 : ∀ (k : Nat) (hk : k < d.uScatter.length), d.uScatter[k] = (0 : Fin 2) := fun k hk =>
    husm _ (List.getElem_mem hk)
  have huwm : ∀ a ∈ d.updateWindowDims, a = (1 : Fin 2) := fun a ha => by
    rw [huw] at ha; exact List.mem_singleton.1 ha
  have huw1 : ∀ (k : Nat) (hk : k < d.updateWindowDims.length), d.updateWindowDims[k] = (1 : Fin 2) := fun k hk =>
    huwm _ (List.getElem_mem hk)
  have rd0 : ∀ a : Fin 2, a = 0 → ((ix2 e c' : (⟨2, ![2000000, 128]⟩ : Shape).Idx) a).val = e.val := by rintro _ rfl; rfl
  have rd1 : ∀ a : Fin 2, a = 1 → ((ix2 e c' : (⟨2, ![2000000, 128]⟩ : Shape).Idx) a).val = c'.val := by rintro _ rfl; rfl
  have hsi : ∀ h, d.siIdx (ix2 e c') ⟨List.idxOf (0 : Fin 2) d.scatterDimsToOperandDims, h⟩ = ix2 e 0 := fun h => by
    funext b
    match b with
    | ⟨0, _⟩ =>
      unfold ScatterDims.siIdx
      rw [dif_neg (by rw [hiv]; simp)]
      unfold ScatterDims.siCoord
      apply Fin.ext
      simp only [Fin.val_cast]
      exact rd0 _ (hus0 _ _)
    | ⟨1, _⟩ =>
      unfold ScatterDims.siIdx
      rw [dif_pos (by rw [hiv])]
      apply Fin.ext
      show List.idxOf (0 : Fin 2) d.scatterDimsToOperandDims = 0
      rw [hsd]; simp
  have s0 : d.start (ix2 e c') idx 0 = (idx (ix2 e (0 : Fin 1))).toInt := by
    unfold ScatterDims.start
    rw [dif_pos hm0, hsi]
  have s1 : d.start (ix2 e c') idx 1 = 0 := by
    unfold ScatterDims.start
    rw [dif_neg hm1]
  have w0 : d.window (ix2 e c') 0 = 0 := by
    unfold ScatterDims.window
    rw [dif_neg hk0]
  have w1 : d.window (ix2 e c') 1 = c'.val := by
    unfold ScatterDims.window
    rw [dif_pos hk1]
    exact rd1 _ (huw1 _ _)
  have hsz0 : (⟨2, ![150000, 128]⟩ : Shape).size 0 = 150000 := rfl
  have hsz1 : (⟨2, ![150000, 128]⟩ : Shape).size 1 = 128 := rfl
  have hi := i.isLt
  have hc := c.isLt
  have hc' := c'.isLt
  unfold ScatterDims.resultIdx?
  constructor
  · intro h
    split at h
    · rename_i hcond
      have hf := Option.some.inj h
      have h0 : (d.start (ix2 e c') idx 0 + (d.window (ix2 e c') 0 : ℤ)).toNat = i.val := congrArg Fin.val (congrFun hf 0)
      have h1 : (d.start (ix2 e c') idx 1 + (d.window (ix2 e c') 1 : ℤ)).toNat = c.val := congrArg Fin.val (congrFun hf 1)
      have hc0 := (hcond 0).1
      rw [s0, w0] at h0 hc0
      rw [s1, w1] at h1
      refine ⟨by omega, Fin.ext (by omega)⟩
    · exact absurd h (by simp)
  · rintro ⟨ht, rfl⟩
    have hcond : ∀ a : Fin 2, 0 ≤ d.start (ix2 e c') idx a + (d.window (ix2 e c') a : ℤ) ∧
        d.start (ix2 e c') idx a + (d.window (ix2 e c') a : ℤ) < ((⟨2, ![150000, 128]⟩ : Shape).size a : ℕ) := fun a => by
      match a with
      | ⟨0, _⟩ => rw [show (⟨0, by decide⟩ : Fin 2) = 0 from rfl, s0, w0, hsz0]; omega
      | ⟨1, _⟩ => rw [show (⟨1, by decide⟩ : Fin 2) = 1 from rfl, s1, w1, hsz1]; omega
    rw [dif_pos hcond]
    congr 1
    funext a
    apply Fin.ext
    match a with
    | ⟨0, _⟩ =>
      show (d.start (ix2 e c') idx 0 + (d.window (ix2 e c') 0 : ℤ)).toNat = i.val
      rw [s0, w0]; omega
    | ⟨1, _⟩ =>
      show (d.start (ix2 e c') idx 1 + (d.window (ix2 e c') 1 : ℤ)).toNat = c'.val
      rw [s1, w1]; omega

/-- The row scatter at an entry. -/
theorem scatterRows_apply (d : ScatterDims (⟨2, ![150000, 128]⟩ : Shape) ⟨2, ![2000000, 1]⟩ ⟨2, ![2000000, 128]⟩)
    (huw : d.updateWindowDims = [1]) (hiw : d.insertedWindowDims = [0]) (hsd : d.scatterDimsToOperandDims = [0])
    (hiv : d.indexVectorDim = 1) (x : Mat 150000 128) (idx : IVec (⟨2, ![2000000, 1]⟩ : Shape) 32) (u : Mat 2000000 128)
    (i : Fin 150000) (c : Fin 128) :
    Host.scatterAdd (F := Ideal) (φ := .f32) d x idx u (ix2 i c)
      = x (ix2 i c) + ∑ e ∈ Finset.univ.filter (fun e : Fin 2000000 => (idx (ix2 e (0 : Fin 1))).toInt = (i.val : ℤ)),
          u (ix2 e c) := by
  have L := scatterRows_lands d huw hiw hsd hiv idx
  unfold Host.scatterAdd
  rw [Ideal.hostScatterAdd_def]
  unfold Ideal.hostScatterAdd
  refine congrArg (HAdd.hAdd (x (ix2 i c))) ?_
  refine Finset.sum_nbij' (fun j => j 0) (fun e => ix2 e c) ?_ ?_ ?_ ?_ ?_
  · intro j hj
    obtain ⟨p, q, rfl⟩ : ∃ p q, j = ix2 p q := ⟨j 0, j 1, eq_ix2 j⟩
    rw [Finset.mem_filter] at hj ⊢
    exact ⟨Finset.mem_univ _, ((L p q i c).1 hj.2).1⟩
  · intro e he
    rw [Finset.mem_filter] at he ⊢
    exact ⟨Finset.mem_univ _, (L e c i c).2 ⟨he.2, rfl⟩⟩
  · intro j hj
    obtain ⟨p, q, rfl⟩ : ∃ p q, j = ix2 p q := ⟨j 0, j 1, eq_ix2 j⟩
    rw [Finset.mem_filter] at hj
    have hq : q = c := ((L p q i c).1 hj.2).2
    subst hq
    rfl
  · intro e _
    rfl
  · intro j hj
    obtain ⟨p, q, rfl⟩ : ∃ p q, j = ix2 p q := ⟨j 0, j 1, eq_ix2 j⟩
    rw [Finset.mem_filter] at hj
    have hq : q = c := ((L p q i c).1 hj.2).2
    subst hq
    rfl

/-- Where an update entry of the scalar scatter lands. -/
theorem scatterCount_lands (d : ScatterDims (⟨1, ![150000]⟩ : Shape) ⟨2, ![2000000, 1]⟩ ⟨1, ![2000000]⟩)
    (huw : d.updateWindowDims = []) (hiw : d.insertedWindowDims = [0]) (hsd : d.scatterDimsToOperandDims = [0])
    (hiv : d.indexVectorDim = 1) (idx : IVec (⟨2, ![2000000, 1]⟩ : Shape) 32)
    (e : Fin 2000000) (i : Fin 150000) :
    d.resultIdx? (ix1 e) idx = some (ix1 i) ↔ (idx (ix2 e (0 : Fin 1))).toInt = (i.val : ℤ) := by
  have hm0 : (0 : Fin 1) ∈ d.scatterDimsToOperandDims := by rw [hsd]; exact List.mem_singleton.mpr rfl
  have hk0 : (0 : Fin 1) ∉ d.sKept := by
    simp only [ScatterDims.sKept, Shape.kept, hiw, List.mem_filter, List.mem_singleton]
    simp
  -- the updates' one axis is their scatter axis
  have hus0 : ∀ (k : Nat) (hk : k < d.uScatter.length), d.uScatter[k] = (0 : Fin 1) := fun k hk =>
    Subsingleton.elim _ _
  have rd0 : ∀ a : Fin 1, a = 0 → ((ix1 e : (⟨1, ![2000000]⟩ : Shape).Idx) a).val = e.val := by rintro _ rfl; rfl
  have hsi : ∀ h, d.siIdx (ix1 e) ⟨List.idxOf (0 : Fin 1) d.scatterDimsToOperandDims, h⟩ = ix2 e 0 := fun h => by
    funext b
    match b with
    | ⟨0, _⟩ =>
      unfold ScatterDims.siIdx
      rw [dif_neg (by rw [hiv]; simp)]
      unfold ScatterDims.siCoord
      apply Fin.ext
      simp only [Fin.val_cast]
      exact rd0 _ (hus0 _ _)
    | ⟨1, _⟩ =>
      unfold ScatterDims.siIdx
      rw [dif_pos (by rw [hiv])]
      apply Fin.ext
      show List.idxOf (0 : Fin 1) d.scatterDimsToOperandDims = 0
      rw [hsd]; simp
  have s0 : d.start (ix1 e) idx 0 = (idx (ix2 e (0 : Fin 1))).toInt := by
    unfold ScatterDims.start
    rw [dif_pos hm0, hsi]
  have w0 : d.window (ix1 e) 0 = 0 := by
    unfold ScatterDims.window
    rw [dif_neg hk0]
  have hsz0 : (⟨1, ![150000]⟩ : Shape).size 0 = 150000 := rfl
  have hi := i.isLt
  unfold ScatterDims.resultIdx?
  constructor
  · intro h
    split at h
    · rename_i hcond
      have hf := Option.some.inj h
      have h0 : (d.start (ix1 e) idx 0 + (d.window (ix1 e) 0 : ℤ)).toNat = i.val := congrArg Fin.val (congrFun hf 0)
      have hc0 := (hcond 0).1
      rw [s0, w0] at h0 hc0
      omega
    · exact absurd h (by simp)
  · intro ht
    have hcond : ∀ a : Fin 1, 0 ≤ d.start (ix1 e) idx a + (d.window (ix1 e) a : ℤ) ∧
        d.start (ix1 e) idx a + (d.window (ix1 e) a : ℤ) < ((⟨1, ![150000]⟩ : Shape).size a : ℕ) := fun a => by
      match a with
      | ⟨0, _⟩ => rw [show (⟨0, by decide⟩ : Fin 1) = 0 from rfl, s0, w0, hsz0]; omega
    rw [dif_pos hcond]
    congr 1
    funext a
    apply Fin.ext
    match a with
    | ⟨0, _⟩ =>
      show (d.start (ix1 e) idx 0 + (d.window (ix1 e) 0 : ℤ)).toNat = i.val
      rw [s0, w0]; omega

/-- The scalar scatter (the in-degree count) at an entry. -/
theorem scatterCount_apply (d : ScatterDims (⟨1, ![150000]⟩ : Shape) ⟨2, ![2000000, 1]⟩ ⟨1, ![2000000]⟩)
    (huw : d.updateWindowDims = []) (hiw : d.insertedWindowDims = [0]) (hsd : d.scatterDimsToOperandDims = [0])
    (hiv : d.indexVectorDim = 1) (x : Vec1 150000) (idx : IVec (⟨2, ![2000000, 1]⟩ : Shape) 32) (u : Vec1 2000000)
    (i : Fin 150000) :
    Host.scatterAdd (F := Ideal) (φ := .f32) d x idx u (ix1 i)
      = x (ix1 i) + ∑ e ∈ Finset.univ.filter (fun e : Fin 2000000 => (idx (ix2 e (0 : Fin 1))).toInt = (i.val : ℤ)),
          u (ix1 e) := by
  have L := scatterCount_lands d huw hiw hsd hiv idx
  unfold Host.scatterAdd
  rw [Ideal.hostScatterAdd_def]
  unfold Ideal.hostScatterAdd
  refine congrArg (HAdd.hAdd (x (ix1 i))) ?_
  refine Finset.sum_nbij' (fun j => j 0) (fun e => ix1 e) ?_ ?_ ?_ ?_ ?_
  · intro j hj
    obtain ⟨p, rfl⟩ : ∃ p, j = ix1 p := ⟨j 0, eq_ix1 j⟩
    rw [Finset.mem_filter] at hj ⊢
    exact ⟨Finset.mem_univ _, (L p i).1 hj.2⟩
  · intro e he
    rw [Finset.mem_filter] at he ⊢
    exact ⟨Finset.mem_univ _, (L e i).2 he.2⟩
  · intro j _
    exact (eq_ix1 j).symm
  · intro e _
    rfl
  · intro j _
    exact congrArg u (eq_ix1 j)

/-- `table[v]` over a table of rows: the wrapped word's clamped row. `z` is the vector of zeros and `Rv` the vector of the
    table's row count that the wrap compares with and adds. -/
theorem takeRows_wrapped {α : Type} {R C n : ℕ} (d : GatherDims (⟨2, ![R, C]⟩ : Shape) ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (hb : (⟨1, ![n]⟩ : Shape).BroadcastsInDim ⟨2, ![n, 1]⟩ ![0])
    (x : (⟨2, ![R, C]⟩ : Shape).Idx → α) (v z Rv : IVec (⟨1, ![n]⟩ : Shape) 32) (Rw : BitVec 32)
    (hz : ∀ e, z e = 0#32) (hRv : ∀ e, Rv e = Rw) (hR : 0 < R) (e : Fin n) (c : Fin C) :
    Host.gather d x (broadcastInDim ⟨2, ![n, 1]⟩ ![0] hb (select (cmpi .slt v z) (addi v Rv) v)) (ix2 e c)
      = x (ix2 (takeRow R hR Rw (v (ix1 e))) c) := by
  -- the index column at row `e` holds the wrapped word
  have hw : broadcastInDim ⟨2, ![n, 1]⟩ ![0] hb (select (cmpi .slt v z) (addi v Rv) v) (ix2 e (0 : Fin 1))
      = wrapW Rw (v (ix1 e)) := by
    refine (Cert.LibBroadcastRead.vec_as_col_apply hb _ e 0).trans ?_
    show Scalar.select (IntOp.cmpi .slt (v (ix1 e)) (z (ix1 e))) (IntOp.addi (v (ix1 e)) (Rv (ix1 e))) (v (ix1 e)) = _
    rw [hz, hRv]
    rfl
  refine (Cert.LibRowTake.gather_rows d hoff hcoll hob hsim hivd x _ e c hR).trans ?_
  rw [hw]
  rfl

/-- `table[v]` over a vector. -/
theorem takeVec_wrapped {α : Type} {R n : ℕ} (d : GatherDims (⟨1, ![R]⟩ : Shape) ⟨2, ![n, 1]⟩ ⟨1, ![n]⟩)
    (hcoll : d.collapsedSliceDims = [0]) (hob : d.operandBatchingDims = [])
    (hsim : d.startIndexMap = [0]) (hivd : d.indexVectorDim = 1)
    (hb : (⟨1, ![n]⟩ : Shape).BroadcastsInDim ⟨2, ![n, 1]⟩ ![0])
    (x : (⟨1, ![R]⟩ : Shape).Idx → α) (v z Rv : IVec (⟨1, ![n]⟩ : Shape) 32) (Rw : BitVec 32)
    (hz : ∀ e, z e = 0#32) (hRv : ∀ e, Rv e = Rw) (hR : 0 < R) (e : Fin n) :
    Host.gather d x (broadcastInDim ⟨2, ![n, 1]⟩ ![0] hb (select (cmpi .slt v z) (addi v Rv) v)) (ix1 e)
      = x (ix1 (takeRow R hR Rw (v (ix1 e)))) := by
  -- the two spellings of a rank-1 index, and of row `e` of a column, agree
  have hof : ∀ {m : ℕ} (p : Fin m), (Shape.Idx.ofFin p : (⟨1, ![m]⟩ : Shape).Idx) = ix1 p := fun p => by
    funext a
    match a with
    | ⟨0, _⟩ => exact Fin.ext rfl
  have hixP : (StableHlo.Predicate.ixP e : (⟨2, ![n, 1]⟩ : Shape).Idx) = ix2 e (0 : Fin 1) := by
    funext a
    match a with
    | ⟨0, _⟩ => rfl
    | ⟨1, _⟩ => rfl
  -- the index column at row `e` holds the wrapped word
  have hw : broadcastInDim ⟨2, ![n, 1]⟩ ![0] hb (select (cmpi .slt v z) (addi v Rv) v) (ix2 e (0 : Fin 1))
      = wrapW Rw (v (ix1 e)) := by
    refine (Cert.LibBroadcastRead.vec_as_col_apply hb _ e 0).trans ?_
    show Scalar.select (IntOp.cmpi .slt (v (ix1 e)) (z (ix1 e))) (IntOp.addi (v (ix1 e)) (Rv (ix1 e))) (v (ix1 e)) = _
    rw [hz, hRv]
    rfl
  have h := StableHlo.Predicate.gather_take d hcoll hob hsim hivd x
    (broadcastInDim ⟨2, ![n, 1]⟩ ![0] hb (select (cmpi .slt v z) (addi v Rv) v)) e hR
  rw [hof e] at h
  refine h.trans (congrArg x ?_)
  rw [hof]
  refine congrArg (ix1 (n := R)) (Fin.ext ?_)
  show min (broadcastInDim ⟨2, ![n, 1]⟩ ![0] hb (select (cmpi .slt v z) (addi v Rv) v)
      (StableHlo.Predicate.ixP e)).toInt.toNat (R - 1) = min (wrapW Rw (v (ix1 e))).toInt.toNat (R - 1)
  rw [hixP, hw]

/-- Row `r` of the edge list, sliced out and flattened, at edge `e`. -/
theorem edgeRow_apply (E : Edges) (r : Fin 2) (hs : (⟨2, ![2, 2000000]⟩ : Shape).Slices ![r.val, 0] ⟨2, ![1, 2000000]⟩)
    (hc : (⟨2, ![1, 2000000]⟩ : Shape).ShapeCasts ⟨1, ![2000000]⟩) (e : Fin 2000000) :
    shapeCast (⟨1, ![2000000]⟩ : Shape) (extractStridedSlice (⟨2, ![1, 2000000]⟩ : Shape) ![r.val, 0] E hs) hc (ix1 e)
      = E (ix2 r e) := by
  -- flattening a one-row block keeps the position along the row
  refine (shapeCast_apply _ hc (ix1 e) (ix2 (0 : Fin 1) e) ?_).trans ?_
  · rw [Shape.rowMajor_val_two, Shape.rowMajor_val_one]
    show (0 : ℕ) * 2000000 + e.val = e.val
    omega
  -- the block's row 0 is row `r` of the list
  · refine extractStridedSlice_apply _ E hs (ix2 (0 : Fin 1) e) (ix2 r e) fun a => ?_
    match a with
    | ⟨0, _⟩ => show r.val = r.val + 0; rfl
    | ⟨1, _⟩ => show e.val = 0 + e.val; omega

/-- A vector laid as a column, at `(e, 0)`. -/
theorem asColumn_apply {α : Type} {n : ℕ} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e (0 : Fin 1)) = v (ix1 e) :=
  Cert.LibBroadcastRead.vec_as_col_apply hb v e 0

end Cert.Gcn

end
-- ==== Proof.LibRowScale.lean ====
/-
  Scaling the rows of a matrix by a column, read entry by entry, for every size.

  A matrix `a` of `n` rows and `m` columns and a column `s` of `n` entries give the matrix whose entry `(p, q)` is
  `a (p, q) · s p` on the extended reals (`rowScale`). Two spellings of it are met. A vector unit multiplies `a` by the
  column repeated along the columns (a broadcast of `[n, 1]` to `[n, m]`), both operands first recast to their own
  shapes. The host multiplies `a` by a vector `v` of `n` entries laid out in two steps: given a unit axis (`[n]` to
  `[n, 1]`), then repeated along it (`[n, 1]` to `[n, m]`); the column is then the vector recast to `[n, 1]`. Both are
  `rowScale`, entry by entry: a repeated column holds at `(p, q)` the column's entry `p`.
-/
import Idealize.ShloMosaic.Lib.ValueIdx
import Idealize.ShloMosaic.Lib.ValueLayout
import Idealize.ShloMosaic.Lib.Pipeline.Value
import proofs.«120925_j38465727103681_1_alg».proof.Proof.LibBroadcastRead

noncomputable section

namespace Cert.LibRowScale

open Idealize.ShloMosaic Idealize.ShloMosaic.ValueIdx Idealize.ShloMosaic.Pipeline

variable {α : Type} {n m : ℕ}

/-- A column `[n, 1]` repeated along `m` columns by a vector broadcast: entry `(p, q)` is the column's entry `p`. -/
theorem column_repeat_apply (v : (⟨2, ![n, 1]⟩ : Shape).Idx → α) (h : (⟨2, ![n, 1]⟩ : Shape).Broadcasts ⟨2, ![n, m]⟩)
    (p : Fin n) (q : Fin m) : broadcastTo ⟨2, ![n, m]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

/-- A vector of `n` entries recast as a column `[n, 1]`: entry `(p, 0)` is the vector's entry `p`. -/
theorem vec_recast_col_apply (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The rows of `a` scaled by the column `s`: entry `(p, q)` is `a (p, q) · s p`. -/
def rowScale (a : FVec Ideal ⟨2, ![n, m]⟩ .f32) (s : FVec Ideal ⟨2, ![n, 1]⟩ .f32) : FVec Ideal ⟨2, ![n, m]⟩ .f32 :=
  fun i => a i * s (ix2 (i 0) (0 : Fin 1))

theorem rowScale_apply (a : FVec Ideal ⟨2, ![n, m]⟩ .f32) (s : FVec Ideal ⟨2, ![n, 1]⟩ .f32) (p : Fin n) (q : Fin m) :
    rowScale a s (ix2 p q) = a (ix2 p q) * s (ix2 p (0 : Fin 1)) := rfl

/-- A block of rows of the scaled matrix is the block of rows scaled by the block of the column: when block row `r`
    of `a` and of `s` hold row `e r` of `A` and of `S`. -/
theorem rowScale_block {B : ℕ} (A : FVec Ideal ⟨2, ![n, m]⟩ .f32) (S : FVec Ideal ⟨2, ![n, 1]⟩ .f32)
    (a : FVec Ideal ⟨2, ![B, m]⟩ .f32) (s : FVec Ideal ⟨2, ![B, 1]⟩ .f32) (e : Fin B → Fin n)
    (ha : ∀ r q, a (ix2 r q) = A (ix2 (e r) q)) (hs : ∀ r, s (ix2 r (0 : Fin 1)) = S (ix2 (e r) (0 : Fin 1)))
    (r : Fin B) (q : Fin m) : rowScale a s (ix2 r q) = rowScale A S (ix2 (e r) q) := by
  rw [rowScale_apply, rowScale_apply, ha, hs]

/-- The vector unit's spelling: `a` times the column repeated along the columns, both recast to their own shapes. -/
theorem mul_column_repeat (a : FVec Ideal ⟨2, ![n, m]⟩ .f32) (s : FVec Ideal ⟨2, ![n, 1]⟩ .f32)
    (ha : (⟨2, ![n, m]⟩ : Shape).ShapeCasts ⟨2, ![n, m]⟩) (hs : (⟨2, ![n, 1]⟩ : Shape).ShapeCasts ⟨2, ![n, 1]⟩)
    (hb : (⟨2, ![n, 1]⟩ : Shape).Broadcasts ⟨2, ![n, m]⟩) :
    mulf (shapeCast ⟨2, ![n, m]⟩ a ha) (broadcastTo ⟨2, ![n, m]⟩ (shapeCast ⟨2, ![n, 1]⟩ s hs) hb) = rowScale a s := by
  funext i
  obtain ⟨p, q, rfl⟩ : ∃ (p : Fin n) (q : Fin m), i = ix2 p q := ⟨i 0, i 1, eq_ix2 i⟩
  rw [mulf_apply, shapeCast_self, shapeCast_self, column_repeat_apply]
  rfl

/-- The host's spelling: `a` times the vector `v` given a unit axis and repeated along it; the column is `v` recast. -/
theorem mul_vec_laid_out (a : FVec Ideal ⟨2, ![n, m]⟩ .f32) (v : FVec Ideal ⟨1, ![n]⟩ .f32)
    (h0 : (⟨1, ![n]⟩ : Shape).BroadcastsInDim ⟨2, ![n, 1]⟩ ![0])
    (h01 : (⟨2, ![n, 1]⟩ : Shape).BroadcastsInDim ⟨2, ![n, m]⟩ ![0, 1])
    (hc : (⟨1, ![n]⟩ : Shape).ShapeCasts ⟨2, ![n, 1]⟩) :
    mulf a (broadcastInDim ⟨2, ![n, m]⟩ ![0, 1] h01 (broadcastInDim ⟨2, ![n, 1]⟩ ![0] h0 v))
      = rowScale a (shapeCast ⟨2, ![n, 1]⟩ v hc) := by
  funext i
  obtain ⟨p, q, rfl⟩ : ∃ (p : Fin n) (q : Fin m), i = ix2 p q := ⟨i 0, i 1, eq_ix2 i⟩
  rw [mulf_apply, Cert.LibBroadcastRead.col_along_apply, Cert.LibBroadcastRead.vec_as_col_apply, rowScale_apply,
    vec_recast_col_apply]

end Cert.LibRowScale

end
-- ==== Proof.KernelStages.lean ====
/-
  The kernel program's stages.

  Each stage below is the array one host operation chain or one launch produces, written over the previous stages and
  the program's arguments: the edge list's two rows, the weight column, each bias as a row, the projected rows, the stacked
  table, and per layer the scaled product, the gather along the sources, the accumulation by destination and the closing
  step; last the two batch look-ups added and the readout's dense layer. The first host stretch writes the edge list's
  rows, the weight column and the first bias row.
-/
import proofs.«120925_j38465727103681_1_alg».proof.Proof.Gen.KernelIdeal.Frame
import proofs.«120925_j38465727103681_1_alg».proof.Proof.Spec
import Idealize.ShloMosaic.Lib.StableHlo.Run

set_option maxRecDepth 16384

noncomputable section

namespace Cert.KernelIdeal.FoldValue

open Idealize.ShloMosaic Idealize.ShloMosaic.TcCoe Idealize.ShloMosaic.ValueIdx Idealize.SL.Sem Idealize.ShloMosaic.StableHlo
open Cert.KernelIdeal Cert.KernelIdeal.Gen Cert.Gcn

/-! ## The stages -/

/-- The source words: row 0 of the edge list, flattened. -/
def stSrc (E : Edges) : IVec S2000000 32 :=
  shapeCast S2000000 (extractStridedSlice S1x2000000 ![0, 0] E slices_S2x2000000_S1x2000000_0_0) shapeCasts_S1x2000000_S2000000
/-- The destination words: row 1. -/
def stDst (E : Edges) : IVec S2000000 32 :=
  shapeCast S2000000 (extractStridedSlice S1x2000000 ![1, 0] E slices_S2x2000000_S1x2000000_1_0) shapeCasts_S1x2000000_S2000000
/-- The weight column: the inverse square root of one plus the accumulated ones, laid as a column. -/
def stW (E : Edges) : Mat 150000 1 :=
  shapeCast S150000x1
    (Host.rsqrt (addf (broadcastInDim S150000 ![] bcast_S_S150000 (constant (F := Ideal) S_ .f32 0x3F800000#32))
      (Host.scatterAdd scatter_S150000_S2000000x1_S2000000_n_0_0_1
        (broadcastInDim S150000 ![] bcast_S_S150000 (constant (F := Ideal) S_ .f32 0x00000000#32))
        (broadcastInDim S2000000x1 ![0] bcast_S2000000_S2000000x1_0 (stDst E))
        (broadcastInDim S2000000 ![] bcast_S_S2000000 (constant (F := Ideal) S_ .f32 0x3F800000#32)))))
    shapeCasts_S150000_S150000x1
/-- A bias vector laid as one row. -/
def stRow (b : Vec1 128) : Mat 1 128 := shapeCast S1x128 b shapeCasts_S128_S1x128
/-- The user rows stacked on the projected rows. -/
def stStack (ut : Mat 100000 128) (y : Mat 50000 128) : Mat 150000 128 :=
  concatenate S150000x128 0 [⟨S100000x128, ut⟩, ⟨S50000x128, y⟩] concatenates_S100000x128_S50000x128_S150000x128_d0
/-- `table[v]` as the host spells it: the wrapped words laid as a column of start indices. -/
def stCol {n : ℕ} (v z Rv : IVec (⟨1, ![n]⟩ : Shape) 32) (hb : (⟨1, ![n]⟩ : Shape).BroadcastsInDim ⟨2, ![n, 1]⟩ ![0]) :
    IVec (⟨2, ![n, 1]⟩ : Shape) 32 :=
  broadcastInDim ⟨2, ![n, 1]⟩ ![0] hb (select (cmpi .slt v z) (addi v Rv) v)
/-- The rows of `g` gathered along the sources. -/
def stTake (E : Edges) (g : Mat 150000 128) : Mat 2000000 128 :=
  Host.gather gather_S150000x128_S2000000x1_S2000000x128_1_0_n_n_0_1_1128 g
    (stCol (stSrc E) (broadcastInDim S2000000 ![] bcast_S_S2000000 (constantI S_ 32 0#32))
      (broadcastInDim S2000000 ![] bcast_S_S2000000 (constantI S_ 32 150000#32)) bcast_S2000000_S2000000x1_0)
/-- Rows accumulated by destination, from zero. -/
def stAcc (E : Edges) (u : Mat 2000000 128) : Mat 150000 128 :=
  Host.scatterAdd scatter_S150000x128_S2000000x1_S2000000x128_1_0_0_1
    (broadcastInDim S150000x128 ![] bcast_S_S150000x128 (constant (F := Ideal) S_ .f32 0x00000000#32))
    (broadcastInDim S2000000x1 ![0] bcast_S2000000_S2000000x1_0 (stDst E)) u
/-- One layer in the kernel program's order of operations. -/
def stLayer (E : Edges) (x : Mat 150000 128) (W : Mat 128 128) (b : Vec1 128) : Mat 150000 128 :=
  finished (stAcc E (stTake E (scaledRows x W (stW E)))) (scaledRows x W (stW E)) (stW E) (stRow b)
/-- The two batch look-ups added. -/
def stBatch (x : Mat 150000 128) (ut : Mat 100000 128) (uidx : IVec S1024 32) : Mat 1024 128 :=
  addf (F := Ideal) (φ := .f32)
    (Host.gather gather_S150000x128_S1024x1_S1024x128_1_0_n_n_0_1_1128 x
      (stCol uidx (broadcastInDim S1024 ![] bcast_S_S1024 (constantI S_ 32 0#32))
        (broadcastInDim S1024 ![] bcast_S_S1024 (constantI S_ 32 150000#32)) bcast_S1024_S1024x1_0))
    (Host.gather gather_S100000x128_S1024x1_S1024x128_1_0_n_n_0_1_1128 ut
      (stCol uidx (broadcastInDim S1024 ![] bcast_S_S1024 (constantI S_ 32 0#32))
        (broadcastInDim S1024 ![] bcast_S_S1024 (constantI S_ 32 100000#32)) bcast_S1024_S1024x1_0))
/-- The whole program, stage over stage. -/
def stOut (uidx : IVec S1024 32) (poi : Mat 50000 320) (E : Edges) (ut : Mat 100000 128) (Wp : Mat 320 128) (bp : Vec1 128)
    (W1 : Mat 128 128) (b1 : Vec1 128) (W2 : Mat 128 128) (b2 : Vec1 128) (Wf : Mat 128 128) (bf : Vec1 128) : Mat 1024 128 :=
  denseRow (stBatch (stLayer E (stLayer E (stStack ut (denseRow poi Wp (stRow bp))) W1 b1) W2 b2) ut uidx) Wf (stRow bf)

/-! ## What the first host stretch writes -/

variable (m : (ℓ : Loc nD τ sig) → Buf (Elt Ideal) ℓ) (ρ : Dev nD → PrngReg)

/-- A host stretch: its operations applied to the previous boundary's contents; a buffer it does not write is unchanged. -/
local macro "stretch " ops:ident prev:term : tactic =>
  `(tactic| (show StableHlo.after $ops $prev _ = _; after_results))

theorem src_1 (c : Dev nD) : W1 m ρ c (Proc.devRef .tc main_v1) = stSrc (m ((c : Thread nD τ).loc main_arg2)) := by
  stretch hostOps0 (W0 m ρ c); rfl
theorem dst_1 (c : Dev nD) : W1 m ρ c (Proc.devRef .tc main_v3) = stDst (m ((c : Thread nD τ).loc main_arg2)) := by
  stretch hostOps0 (W0 m ρ c); rfl
theorem w_1 (c : Dev nD) : W1 m ρ c (Proc.devRef .tc main_v11) = stW (m ((c : Thread nD τ).loc main_arg2)) := by
  stretch hostOps0 (W0 m ρ c); rfl
theorem row_1 (c : Dev nD) : W1 m ρ c (Proc.devRef .tc main_v12) = stRow (m ((c : Thread nD τ).loc main_arg5)) := by
  stretch hostOps0 (W0 m ρ c); rfl

end Cert.KernelIdeal.FoldValue

end
-- ==== Proof.KernelCarry.lean ====
/- Which buffers the segments leave alone. An argument, the weight column and the edge list's two rows are written once (or
  never) and read many segments later; across a host stretch that does not write it a buffer is unchanged, across a launch
  it is unchanged when it is none of the launch's arrays, and when it is one of the launch's INPUT arrays the launch leaves it
  as it entered. One lemma per buffer and boundary, each from the boundary before. -/
import proofs.«120925_j38465727103681_1_alg».proof.Proof.KernelStages

set_option maxRecDepth 16384

noncomputable section

namespace Cert.KernelIdeal.FoldValue

open Idealize.ShloMosaic Idealize.ShloMosaic.TcCoe Idealize.ShloMosaic.ValueIdx Idealize.SL.Sem Idealize.ShloMosaic.StableHlo
open Cert.KernelIdeal Cert.KernelIdeal.Gen Cert.Gcn

variable (m : (ℓ : Loc nD τ sig) → Buf (Elt Ideal) ℓ) (ρ : Dev nD → PrngReg)

local macro "stretch " ops:ident prev:term : tactic =>
  `(tactic| (show StableHlo.after $ops $prev _ = _; after_results))

theorem arg1_1 (c : Dev nD) : W1 m ρ c (Proc.devRef .tc main_arg1) = m ((c : Thread nD τ).loc main_arg1) := by
  stretch hostOps0 (W0 m ρ c)
theorem arg4_1 (c : Dev nD) : W1 m ρ c (Proc.devRef .tc main_arg4) = m ((c : Thread nD τ).loc main_arg4) := by
  stretch hostOps0 (W0 m ρ c)
theorem arg3_1 (c : Dev nD) : W1 m ρ c (Proc.devRef .tc main_arg3) = m ((c : Thread nD τ).loc main_arg3) := by
  stretch hostOps0 (W0 m ρ c)
theorem arg3_2 (c : Dev nD) : W2 m ρ c (Proc.devRef .tc main_arg3) = m ((c : Thread nD τ).loc main_arg3) :=
  (W2_of_ne m ρ c main_arg3 (by decide)).trans (arg3_1 m ρ c)
theorem arg3_3 (c : Dev nD) : W3 m ρ c (Proc.devRef .tc main_arg3) = m ((c : Thread nD τ).loc main_arg3) := by
  stretch hostOps1 (W2 m ρ c); exact arg3_2 m ρ c
theorem arg3_4 (c : Dev nD) : W4 m ρ c (Proc.devRef .tc main_arg3) = m ((c : Thread nD τ).loc main_arg3) :=
  (W4_of_ne m ρ c main_arg3 (by decide)).trans (arg3_3 m ρ c)
theorem arg3_5 (c : Dev nD) : W5 m ρ c (Proc.devRef .tc main_arg3) = m ((c : Thread nD τ).loc main_arg3) := by
  stretch hostOps2 (W4 m ρ c); exact arg3_4 m ρ c
theorem arg3_6 (c : Dev nD) : W6 m ρ c (Proc.devRef .tc main_arg3) = m ((c : Thread nD τ).loc main_arg3) :=
  (W6_of_ne m ρ c main_arg3 (by decide)).trans (arg3_5 m ρ c)
theorem arg3_7 (c : Dev nD) : W7 m ρ c (Proc.devRef .tc main_arg3) = m ((c : Thread nD τ).loc main_arg3) :=
  (W7_of_ne m ρ c main_arg3 (by decide)).trans (arg3_6 m ρ c)
theorem arg3_8 (c : Dev nD) : W8 m ρ c (Proc.devRef .tc main_arg3) = m ((c : Thread nD τ).loc main_arg3) := by
  stretch hostOps4 (W7 m ρ c); exact arg3_7 m ρ c
theorem arg3_9 (c : Dev nD) : W9 m ρ c (Proc.devRef .tc main_arg3) = m ((c : Thread nD τ).loc main_arg3) :=
  (W9_of_ne m ρ c main_arg3 (by decide)).trans (arg3_8 m ρ c)
theorem arg6_1 (c : Dev nD) : W1 m ρ c (Proc.devRef .tc main_arg6) = m ((c : Thread nD τ).loc main_arg6) := by
  stretch hostOps0 (W0 m ρ c)
theorem arg6_2 (c : Dev nD) : W2 m ρ c (Proc.devRef .tc main_arg6) = m ((c : Thread nD τ).loc main_arg6) :=
  (W2_of_ne m ρ c main_arg6 (by decide)).trans (arg6_1 m ρ c)
theorem arg6_3 (c : Dev nD) : W3 m ρ c (Proc.devRef .tc main_arg6) = m ((c : Thread nD τ).loc main_arg6) := by
  stretch hostOps1 (W2 m ρ c); exact arg6_2 m ρ c
theorem arg7_1 (c : Dev nD) : W1 m ρ c (Proc.devRef .tc main_arg7) = m ((c : Thread nD τ).loc main_arg7) := by
  stretch hostOps0 (W0 m ρ c)
theorem arg7_2 (c : Dev nD) : W2 m ρ c (Proc.devRef .tc main_arg7) = m ((c : Thread nD τ).loc main_arg7) :=
  (W2_of_ne m ρ c main_arg7 (by decide)).trans (arg7_1 m ρ c)
theorem arg7_3 (c : Dev nD) : W3 m ρ c (Proc.devRef .tc main_arg7) = m ((c : Thread nD τ).loc main_arg7) := by
  stretch hostOps1 (W2 m ρ c); exact arg7_2 m ρ c
theorem arg7_4 (c : Dev nD) : W4 m ρ c (Proc.devRef .tc main_arg7) = m ((c : Thread nD τ).loc main_arg7) :=
  (W4_of_ne m ρ c main_arg7 (by decide)).trans (arg7_3 m ρ c)
theorem arg8_1 (c : Dev nD) : W1 m ρ c (Proc.devRef .tc main_arg8) = m ((c : Thread nD τ).loc main_arg8) := by
  stretch hostOps0 (W0 m ρ c)
theorem arg8_2 (c : Dev nD) : W2 m ρ c (Proc.devRef .tc main_arg8) = m ((c : Thread nD τ).loc main_arg8) :=
  (W2_of_ne m ρ c main_arg8 (by decide)).trans (arg8_1 m ρ c)
theorem arg8_3 (c : Dev nD) : W3 m ρ c (Proc.devRef .tc main_arg8) = m ((c : Thread nD τ).loc main_arg8) := by
  stretch hostOps1 (W2 m ρ c); exact arg8_2 m ρ c
theorem arg8_4 (c : Dev nD) : W4 m ρ c (Proc.devRef .tc main_arg8) = m ((c : Thread nD τ).loc main_arg8) :=
  (W4_of_ne m ρ c main_arg8 (by decide)).trans (arg8_3 m ρ c)
theorem arg8_5 (c : Dev nD) : W5 m ρ c (Proc.devRef .tc main_arg8) = m ((c : Thread nD τ).loc main_arg8) := by
  stretch hostOps2 (W4 m ρ c); exact arg8_4 m ρ c
theorem arg8_6 (c : Dev nD) : W6 m ρ c (Proc.devRef .tc main_arg8) = m ((c : Thread nD τ).loc main_arg8) :=
  (W6_of_ne m ρ c main_arg8 (by decide)).trans (arg8_5 m ρ c)
theorem arg9_1 (c : Dev nD) : W1 m ρ c (Proc.devRef .tc main_arg9) = m ((c : Thread nD τ).loc main_arg9) := by
  stretch hostOps0 (W0 m ρ c)
theorem arg9_2 (c : Dev nD) : W2 m ρ c (Proc.devRef .tc main_arg9) = m ((c : Thread nD τ).loc main_arg9) :=
  (W2_of_ne m ρ c main_arg9 (by decide)).trans (arg9_1 m ρ c)
theorem arg9_3 (c : Dev nD) : W3 m ρ c (Proc.devRef .tc main_arg9) = m ((c : Thread nD τ).loc main_arg9) := by
  stretch hostOps1 (W2 m ρ c); exact arg9_2 m ρ c
theorem arg9_4 (c : Dev nD) : W4 m ρ c (Proc.devRef .tc main_arg9) = m ((c : Thread nD τ).loc main_arg9) :=
  (W4_of_ne m ρ c main_arg9 (by decide)).trans (arg9_3 m ρ c)
theorem arg9_5 (c : Dev nD) : W5 m ρ c (Proc.devRef .tc main_arg9) = m ((c : Thread nD τ).loc main_arg9) := by
  stretch hostOps2 (W4 m ρ c); exact arg9_4 m ρ c
theorem arg9_6 (c : Dev nD) : W6 m ρ c (Proc.devRef .tc main_arg9) = m ((c : Thread nD τ).loc main_arg9) :=
  (W6_of_ne m ρ c main_arg9 (by decide)).trans (arg9_5 m ρ c)
theorem arg9_7 (c : Dev nD) : W7 m ρ c (Proc.devRef .tc main_arg9) = m ((c : Thread nD τ).loc main_arg9) :=
  (W7_of_ne m ρ c main_arg9 (by decide)).trans (arg9_6 m ρ c)
theorem arg0_1 (c : Dev nD) : W1 m ρ c (Proc.devRef .tc main_arg0) = m ((c : Thread nD τ).loc main_arg0) := by
  stretch hostOps0 (W0 m ρ c)
theorem arg0_2 (c : Dev nD) : W2 m ρ c (Proc.devRef .tc main_arg0) = m ((c : Thread nD τ).loc main_arg0) :=
  (W2_of_ne m ρ c main_arg0 (by decide)).trans (arg0_1 m ρ c)
theorem arg0_3 (c : Dev nD) : W3 m ρ c (Proc.devRef .tc main_arg0) = m ((c : Thread nD τ).loc main_arg0) := by
  stretch hostOps1 (W2 m ρ c); exact arg0_2 m ρ c
theorem arg0_4 (c : Dev nD) : W4 m ρ c (Proc.devRef .tc main_arg0) = m ((c : Thread nD τ).loc main_arg0) :=
  (W4_of_ne m ρ c main_arg0 (by decide)).trans (arg0_3 m ρ c)
theorem arg0_5 (c : Dev nD) : W5 m ρ c (Proc.devRef .tc main_arg0) = m ((c : Thread nD τ).loc main_arg0) := by
  stretch hostOps2 (W4 m ρ c); exact arg0_4 m ρ c
theorem arg0_6 (c : Dev nD) : W6 m ρ c (Proc.devRef .tc main_arg0) = m ((c : Thread nD τ).loc main_arg0) :=
  (W6_of_ne m ρ c main_arg0 (by decide)).trans (arg0_5 m ρ c)
theorem arg0_7 (c : Dev nD) : W7 m ρ c (Proc.devRef .tc main_arg0) = m ((c : Thread nD τ).loc main_arg0) :=
  (W7_of_ne m ρ c main_arg0 (by decide)).trans (arg0_6 m ρ c)
theorem arg0_8 (c : Dev nD) : W8 m ρ c (Proc.devRef .tc main_arg0) = m ((c : Thread nD τ).loc main_arg0) := by
  stretch hostOps4 (W7 m ρ c); exact arg0_7 m ρ c
theorem arg0_9 (c : Dev nD) : W9 m ρ c (Proc.devRef .tc main_arg0) = m ((c : Thread nD τ).loc main_arg0) :=
  (W9_of_ne m ρ c main_arg0 (by decide)).trans (arg0_8 m ρ c)
theorem arg11_1 (c : Dev nD) : W1 m ρ c (Proc.devRef .tc main_arg11) = m ((c : Thread nD τ).loc main_arg11) := by
  stretch hostOps0 (W0 m ρ c)
theorem arg11_2 (c : Dev nD) : W2 m ρ c (Proc.devRef .tc main_arg11) = m ((c : Thread nD τ).loc main_arg11) :=
  (W2_of_ne m ρ c main_arg11 (by decide)).trans (arg11_1 m ρ c)
theorem arg11_3 (c : Dev nD) : W3 m ρ c (Proc.devRef .tc main_arg11) = m ((c : Thread nD τ).loc main_arg11) := by
  stretch hostOps1 (W2 m ρ c); exact arg11_2 m ρ c
theorem arg11_4 (c : Dev nD) : W4 m ρ c (Proc.devRef .tc main_arg11) = m ((c : Thread nD τ).loc main_arg11) :=
  (W4_of_ne m ρ c main_arg11 (by decide)).trans (arg11_3 m ρ c)
theorem arg11_5 (c : Dev nD) : W5 m ρ c (Proc.devRef .tc main_arg11) = m ((c : Thread nD τ).loc main_arg11) := by
  stretch hostOps2 (W4 m ρ c); exact arg11_4 m ρ c
theorem arg11_6 (c : Dev nD) : W6 m ρ c (Proc.devRef .tc main_arg11) = m ((c : Thread nD τ).loc main_arg11) :=
  (W6_of_ne m ρ c main_arg11 (by decide)).trans (arg11_5 m ρ c)
theorem arg11_7 (c : Dev nD) : W7 m ρ c (Proc.devRef .tc main_arg11) = m ((c : Thread nD τ).loc main_arg11) :=
  (W7_of_ne m ρ c main_arg11 (by decide)).trans (arg11_6 m ρ c)
theorem arg11_8 (c : Dev nD) : W8 m ρ c (Proc.devRef .tc main_arg11) = m ((c : Thread nD τ).loc main_arg11) := by
  stretch hostOps4 (W7 m ρ c); exact arg11_7 m ρ c
theorem arg11_9 (c : Dev nD) : W9 m ρ c (Proc.devRef .tc main_arg11) = m ((c : Thread nD τ).loc main_arg11) :=
  (W9_of_ne m ρ c main_arg11 (by decide)).trans (arg11_8 m ρ c)
theorem arg10_1 (c : Dev nD) : W1 m ρ c (Proc.devRef .tc main_arg10) = m ((c : Thread nD τ).loc main_arg10) := by
  stretch hostOps0 (W0 m ρ c)
theorem arg10_2 (c : Dev nD) : W2 m ρ c (Proc.devRef .tc main_arg10) = m ((c : Thread nD τ).loc main_arg10) :=
  (W2_of_ne m ρ c main_arg10 (by decide)).trans (arg10_1 m ρ c)
theorem arg10_3 (c : Dev nD) : W3 m ρ c (Proc.devRef .tc main_arg10) = m ((c : Thread nD τ).loc main_arg10) := by
  stretch hostOps1 (W2 m ρ c); exact arg10_2 m ρ c
theorem arg10_4 (c : Dev nD) : W4 m ρ c (Proc.devRef .tc main_arg10) = m ((c : Thread nD τ).loc main_arg10) :=
  (W4_of_ne m ρ c main_arg10 (by decide)).trans (arg10_3 m ρ c)
theorem arg10_5 (c : Dev nD) : W5 m ρ c (Proc.devRef .tc main_arg10) = m ((c : Thread nD τ).loc main_arg10) := by
  stretch hostOps2 (W4 m ρ c); exact arg10_4 m ρ c
theorem arg10_6 (c : Dev nD) : W6 m ρ c (Proc.devRef .tc main_arg10) = m ((c : Thread nD τ).loc main_arg10) :=
  (W6_of_ne m ρ c main_arg10 (by decide)).trans (arg10_5 m ρ c)
theorem arg10_7 (c : Dev nD) : W7 m ρ c (Proc.devRef .tc main_arg10) = m ((c : Thread nD τ).loc main_arg10) :=
  (W7_of_ne m ρ c main_arg10 (by decide)).trans (arg10_6 m ρ c)
theorem arg10_8 (c : Dev nD) : W8 m ρ c (Proc.devRef .tc main_arg10) = m ((c : Thread nD τ).loc main_arg10) := by
  stretch hostOps4 (W7 m ρ c); exact arg10_7 m ρ c
theorem arg10_9 (c : Dev nD) : W9 m ρ c (Proc.devRef .tc main_arg10) = m ((c : Thread nD τ).loc main_arg10) :=
  (W9_of_ne m ρ c main_arg10 (by decide)).trans (arg10_8 m ρ c)
theorem arg10_10 (c : Dev nD) : W10 m ρ c (Proc.devRef .tc main_arg10) = m ((c : Thread nD τ).loc main_arg10) := by
  stretch hostOps5 (W9 m ρ c); exact arg10_9 m ρ c
theorem w_2 (c : Dev nD) : W2 m ρ c (Proc.devRef .tc main_v11) = stW (m ((c : Thread nD τ).loc main_arg2)) :=
  (W2_of_ne m ρ c main_v11 (by decide)).trans (w_1 m ρ c)
theorem w_3 (c : Dev nD) : W3 m ρ c (Proc.devRef .tc main_v11) = stW (m ((c : Thread nD τ).loc main_arg2)) := by
  stretch hostOps1 (W2 m ρ c); exact w_2 m ρ c
theorem w_4 (c : Dev nD) : W4 m ρ c (Proc.devRef .tc main_v11) = stW (m ((c : Thread nD τ).loc main_arg2)) :=
  ((W4_arr m ρ c 2).trans (((dat1 (V3 m ρ) c).arrAt_in 2 rfl _).trans (A_eq1 (V3 m ρ) c 2))).trans (w_3 m ρ c)
theorem w_5 (c : Dev nD) : W5 m ρ c (Proc.devRef .tc main_v11) = stW (m ((c : Thread nD τ).loc main_arg2)) := by
  stretch hostOps2 (W4 m ρ c); exact w_4 m ρ c
theorem w_6 (c : Dev nD) : W6 m ρ c (Proc.devRef .tc main_v11) = stW (m ((c : Thread nD τ).loc main_arg2)) :=
  ((W6_arr m ρ c 2).trans (((dat2 (V5 m ρ) c).arrAt_in 2 rfl _).trans (A_eq2 (V5 m ρ) c 2))).trans (w_5 m ρ c)
theorem w_7 (c : Dev nD) : W7 m ρ c (Proc.devRef .tc main_v11) = stW (m ((c : Thread nD τ).loc main_arg2)) :=
  ((W7_arr m ρ c 2).trans (((dat3 (V6 m ρ) c).arrAt_in 2 rfl _).trans (A_eq3 (V6 m ρ) c 2))).trans (w_6 m ρ c)
theorem w_8 (c : Dev nD) : W8 m ρ c (Proc.devRef .tc main_v11) = stW (m ((c : Thread nD τ).loc main_arg2)) := by
  stretch hostOps4 (W7 m ρ c); exact w_7 m ρ c
theorem src_2 (c : Dev nD) : W2 m ρ c (Proc.devRef .tc main_v1) = stSrc (m ((c : Thread nD τ).loc main_arg2)) :=
  (W2_of_ne m ρ c main_v1 (by decide)).trans (src_1 m ρ c)
theorem src_3 (c : Dev nD) : W3 m ρ c (Proc.devRef .tc main_v1) = stSrc (m ((c : Thread nD τ).loc main_arg2)) := by
  stretch hostOps1 (W2 m ρ c); exact src_2 m ρ c
theorem src_4 (c : Dev nD) : W4 m ρ c (Proc.devRef .tc main_v1) = stSrc (m ((c : Thread nD τ).loc main_arg2)) :=
  (W4_of_ne m ρ c main_v1 (by decide)).trans (src_3 m ρ c)
theorem src_5 (c : Dev nD) : W5 m ρ c (Proc.devRef .tc main_v1) = stSrc (m ((c : Thread nD τ).loc main_arg2)) := by
  stretch hostOps2 (W4 m ρ c); exact src_4 m ρ c
theorem src_6 (c : Dev nD) : W6 m ρ c (Proc.devRef .tc main_v1) = stSrc (m ((c : Thread nD τ).loc main_arg2)) :=
  (W6_of_ne m ρ c main_v1 (by decide)).trans (src_5 m ρ c)
theorem src_7 (c : Dev nD) : W7 m ρ c (Proc.devRef .tc main_v1) = stSrc (m ((c : Thread nD τ).loc main_arg2)) :=
  (W7_of_ne m ρ c main_v1 (by decide)).trans (src_6 m ρ c)
theorem dst_2 (c : Dev nD) : W2 m ρ c (Proc.devRef .tc main_v3) = stDst (m ((c : Thread nD τ).loc main_arg2)) :=
  (W2_of_ne m ρ c main_v3 (by decide)).trans (dst_1 m ρ c)
theorem dst_3 (c : Dev nD) : W3 m ρ c (Proc.devRef .tc main_v3) = stDst (m ((c : Thread nD τ).loc main_arg2)) := by
  stretch hostOps1 (W2 m ρ c); exact dst_2 m ρ c
theorem dst_4 (c : Dev nD) : W4 m ρ c (Proc.devRef .tc main_v3) = stDst (m ((c : Thread nD τ).loc main_arg2)) :=
  (W4_of_ne m ρ c main_v3 (by decide)).trans (dst_3 m ρ c)
theorem dst_5 (c : Dev nD) : W5 m ρ c (Proc.devRef .tc main_v3) = stDst (m ((c : Thread nD τ).loc main_arg2)) := by
  stretch hostOps2 (W4 m ρ c); exact dst_4 m ρ c
theorem dst_6 (c : Dev nD) : W6 m ρ c (Proc.devRef .tc main_v3) = stDst (m ((c : Thread nD τ).loc main_arg2)) :=
  (W6_of_ne m ρ c main_v3 (by decide)).trans (dst_5 m ρ c)
theorem dst_7 (c : Dev nD) : W7 m ρ c (Proc.devRef .tc main_v3) = stDst (m ((c : Thread nD τ).loc main_arg2)) :=
  (W7_of_ne m ρ c main_v3 (by decide)).trans (dst_6 m ρ c)

end Cert.KernelIdeal.FoldValue

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.RegionDense.lean ====
/-
  What the two dense launches leave in their output arrays: every block of rows is the product of the matching rows with
  the whole weight matrix plus the bias row, and the blocks tile the array, so the array is the dense layer of the whole input.
-/
import proofs.«120925_j38465727103681_1_alg».proof.Proof.Gen.KernelIdeal.Frame
import proofs.«120925_j38465727103681_1_alg».proof.Proof.Spec
import proofs.«120925_j38465727103681_1_alg».proof.Proof.LibPlainProduct
import proofs.«120925_j38465727103681_1_alg».proof.Proof.LibBroadcastRead

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

/-! ## The 50000-row projection: one block's arithmetic at an entry -/

/-- A zero offset on both axes. -/
theorem denseZeroOffsets : (![0, 0] : Fin 2 → Nat) = fun _ => 0 := funext fun a => by fin_cases a <;> rfl

/-- The printed dimension record of the 2000×320 by 320×128 product is the plain one. -/
theorem plainProduct0 : dot_S2000x320_S320x128_S2000x128_1_0_0_1_n_n = DotDims.plain 2000 320 128 := rfl

/-- The bias row repeated down 2000 rows, at `(p, q)`: the row's entry `q`. -/
theorem biasDown0 (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) fun a => by
    match a with
    | ⟨0, _⟩ => show (0 : ℕ) = if (1 : ℕ) = 1 then 0 else _; rw [if_pos rfl]
    | ⟨1, _⟩ => show q.val = if (128 : ℕ) = 1 then 0 else q.val; rw [if_neg (by decide)]

/-- The dense layer at an entry, for every size. -/
theorem denseRow_apply {M K N : ℕ} (a : Mat M K) (w : Mat K N) (b : Mat 1 N) (p : Fin M) (q : Fin N) :
    denseRow a w b (ix2 p q) = (∑ k : Fin K, a (ix2 p k) * w (ix2 k q)) + b (ix2 (0 : Fin 1) q) := rfl

/-- One block's payload at `(p, q)`: the row of the block times the column of the weights, plus the bias entry. -/
theorem blockEntry0 (x0 : Vec Ideal S2000x320 .f32) (x1 : Vec Ideal S320x128 .f32) (x2 : Vec Ideal S1x128 .f32)
    (p : Fin 2000) (q : Fin 128) :
    k0_pay1 (F := Ideal) x0 x1 x2 (ix2 p q) = (∑ k : Fin 320, x0 (ix2 p k) * x1 (ix2 k q)) + x2 (ix2 (0 : Fin 1) q) := by
  unfold k0_pay1
  refine (addf_apply _ _ (ix2 p q)).trans ?_
  refine congrArg₂ (· + ·) ?_ ?_
  · rw [plainProduct0]
    exact Cert.LibPlainProduct.matmul_zero_plain_apply (M := 2000) (K := 320) (N := 128) _ _ none p q
  · refine (biasDown0 _ p q).trans ?_
    rw [shapeCast_self]

/-! ## The 50000-row projection: the blocks as rows of the arrays -/

/-- The printed index maps over the 25 points: the row-block windows sit at block `t`, the whole-array windows at block 0. -/
theorem blockOrigin0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block `t` of the input rows is rows `2000 t … 2000 t + 1999` of the input. -/
theorem inputRows0 (c : Dev nD) (t : Fin cfg0.N) (x : S2000x320.Idx) (i : S50000x320.Idx)
    (h0 : (i 0).val = t.val * 2000 + (x 0).val) (h1 : (i 1).val = (x 1).val) :
    (iblk0 (F := Ideal) V c 0 t : Vec Ideal S2000x320 .f32) x = (V c main_arg1 : Mat 50000 320) i := by
  obtain ⟨e0, e1, -⟩ := blockOrigin0 t
  show V c main_arg1 (((cfg0.win 0).blk t).view.emb x) = V c main_arg1 i
  refine congrArg (V c main_arg1) (funext fun a => Fin.ext ?_)
  match a with
  | ⟨0, _⟩ => show win0_0.index t (0 : Fin 2) * 2000 + 1 * (x 0).val = (i 0).val; rw [e0, h0]; omega
  | ⟨1, _⟩ => show win0_0.index t (1 : Fin 2) * 320 + 1 * (x 1).val = (i 1).val; rw [e1, h1]; omega

/-- The weights' one block is the weights. -/
theorem weightBlock0 (c : Dev nD) (t : Fin cfg0.N) (x : S320x128.Idx) :
    (iblk0 (F := Ideal) V c 1 t : Vec Ideal S320x128 .f32) x = (V c main_arg4 : Mat 320 128) x := by
  obtain ⟨-, -, e2, e3, -⟩ := blockOrigin0 t
  show V c main_arg4 (((cfg0.win 1).blk t).view.emb x) = V c main_arg4 x
  refine congrArg (V c main_arg4) (funext fun a => Fin.ext ?_)
  match a with
  | ⟨0, _⟩ => show win0_1.index t (0 : Fin 2) * 320 + 1 * (x 0).val = (x 0).val; rw [e2]; omega
  | ⟨1, _⟩ => show win0_1.index t (1 : Fin 2) * 128 + 1 * (x 1).val = (x 1).val; rw [e3]; omega

/-- The bias row's one block is the bias row. -/
theorem biasBlock0 (c : Dev nD) (t : Fin cfg0.N) (x : S1x128.Idx) :
    (iblk0 (F := Ideal) V c 2 t : Vec Ideal S1x128 .f32) x = (V c main_v12 : Mat 1 128) x := by
  obtain ⟨-, -, -, -, e4, e5, -⟩ := blockOrigin0 t
  show V c main_v12 (((cfg0.win 2).blk t).view.emb x) = V c main_v12 x
  refine congrArg (V c main_v12) (funext fun a => Fin.ext ?_)
  match a with
  | ⟨0, _⟩ => show win0_2.index t (0 : Fin 2) * 1 + 1 * (x 0).val = (x 0).val; rw [e4]; omega
  | ⟨1, _⟩ => show win0_2.index t (1 : Fin 2) * 128 + 1 * (x 1).val = (x 1).val; rw [e5]; omega

/-- What point `t` writes back is block `t` of the dense layer of the whole input. -/
theorem writtenBack0 (c : Dev nD) (t : Fin cfg0.N) :
    (dat0 (F := Ideal) V c).flushed 3 t = ((cfg0.win 3).blk t).view.read (Elt Ideal)
      (denseRow (V c main_arg1 : Mat 50000 320) (V c main_arg4 : Mat 320 128) (V c main_v12 : Mat 1 128)) := by
  show (cfg0.win 3).cut (grid0.coords t) ((dat0 (F := Ideal) V c).after 3 t) = _
  rw [after0_3]
  unfold out0_3
  rw [View.canon_unit_zero denseZeroOffsets]
  simp only [View.ld_unit_zero (S := S2000x320) denseZeroOffsets, View.ld_unit_zero (S := S320x128) denseZeroOffsets,
    View.ld_unit_zero (S := S1x128) denseZeroOffsets]
  funext j
  obtain ⟨r, q, rfl⟩ : ∃ (r : Fin 2000) (q : Fin 128), j = ix2 r q := ⟨j 0, j 1, eq_ix2 j⟩
  obtain ⟨-, -, -, -, -, -, e6, e7⟩ := blockOrigin0 t
  have hr : r.val < 2000 := r.isLt
  have ht : t.val < 25 := lt_of_lt_of_eq t.isLt N_0
  have hrow : t.val * 2000 + r.val < 50000 := by omega
  show k0_pay1 (F := Ideal) (iblk0 (F := Ideal) V c 0 t) (iblk0 (F := Ideal) V c 1 t) (iblk0 (F := Ideal) V c 2 t) (ix2 r q)
      = denseRow (V c main_arg1 : Mat 50000 320) (V c main_arg4 : Mat 320 128) (V c main_v12 : Mat 1 128)
          (((cfg0.win 3).blk t).view.emb (ix2 r q))
  -- the array entry the block's entry `(r, q)` lands on: row `2000 t + r`, column `q`
  have hi : ((cfg0.win 3).blk t).view.emb (ix2 r q) = ix2 (⟨t.val * 2000 + r.val, hrow⟩ : Fin 50000) q := by
    funext a; apply Fin.ext
    match a with
    | ⟨0, _⟩ => show win0_3.index t (0 : Fin 2) * 2000 + 1 * r.val = t.val * 2000 + r.val; rw [e6]; omega
    | ⟨1, _⟩ => show win0_3.index t (1 : Fin 2) * 128 + 1 * q.val = q.val; rw [e7]; omega
  rw [hi]
  refine (blockEntry0 (iblk0 (F := Ideal) V c 0 t) (iblk0 (F := Ideal) V c 1 t) (iblk0 (F := Ideal) V c 2 t) r q).trans
    (Eq.trans ?_ (denseRow_apply (V c main_arg1 : Mat 50000 320) (V c main_arg4 : Mat 320 128) (V c main_v12 : Mat 1 128)
      (⟨t.val * 2000 + r.val, hrow⟩ : Fin 50000) q).symm)
  refine congrArg₂ (· + ·) (Finset.sum_congr rfl fun k _ => congrArg₂ (· * ·) ?_ ?_) ?_
  · exact inputRows0 V c t (ix2 r k) (ix2 (⟨t.val * 2000 + r.val, hrow⟩ : Fin 50000) k) rfl rfl
  · exact weightBlock0 V c t (ix2 k q)
  · exact biasBlock0 V c t (ix2 (0 : Fin 1) q)

/-! ## The 50000-row projection: the 25 blocks tile the array -/

/-- An entry is in point `t`'s block iff each coordinate is in the block's range on its axis. -/
theorem inRowBlock0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v13).slice (win0_3.rect t)).set ↔ _
  rw [View.set_slice_whole, Rect.mem_set_unit]
  exact Iff.rfl

/-- Row `r` is written back by point `r / 2000`. -/
theorem rowBlocksCover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, e6, e7⟩ := blockOrigin0 ⟨(i 0).val / 2000, hlt⟩
  refine ⟨⟨(i 0).val / 2000, hlt⟩, flush0_3 _, ?_⟩
  rw [inRowBlock0]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    rw [e7]; omega

/-- The projection of the 50000 feature rows (25 blocks of 2000 rows). -/
theorem region0_value (c : Dev nD) :
    ((dat0 (F := Ideal) V c).arrAt 3 cfg0.N : Mat 50000 128)
      = denseRow (V c main_arg1 : Mat 50000 320) (V c main_arg4 : Mat 320 128) (V c main_v12 : Mat 1 128) :=
  (dat0 (F := Ideal) V c).arrAt_eq_of_cover 3
    (denseRow (V c main_arg1 : Mat 50000 320) (V c main_arg4 : Mat 320 128) (V c main_v12 : Mat 1 128))
    (fun t _ => writtenBack0 V c t) rowBlocksCover0

/-! ## The last projection: one block's arithmetic at an entry -/

/-- The printed dimension record of the 1024×128 by 128×128 product is the plain one. -/
theorem plainProduct5 : dot_S1024x128_S128x128_S1024x128_1_0_0_1_n_n = DotDims.plain 1024 128 128 := rfl

/-- The bias row repeated down 1024 rows, at `(p, q)`: the row's entry `q`. -/
theorem biasDown5 (b : FVec Ideal S1x128 .f32) (p : Fin 1024) (q : Fin 128) :
    broadcastTo S1024x128 b broadcasts_S1x128_S1024x128 (ix2 p q) = b (ix2 (0 : Fin 1) q) :=
  broadcastTo_apply b broadcasts_S1x128_S1024x128 (ix2 p q) (ix2 (0 : Fin 1) q) fun a => by
    match a with
    | ⟨0, _⟩ => show (0 : ℕ) = if (1 : ℕ) = 1 then 0 else _; rw [if_pos rfl]
    | ⟨1, _⟩ => show q.val = if (128 : ℕ) = 1 then 0 else q.val; rw [if_neg (by decide)]

/-- The block's payload at `(p, q)`: the row of the input times the column of the weights, plus the bias entry. -/
theorem blockEntry5 (x0 : Vec Ideal S1024x128 .f32) (x1 : Vec Ideal S128x128 .f32) (x2 : Vec Ideal S1x128 .f32)
    (p : Fin 1024) (q : Fin 128) :
    k5_pay1 (F := Ideal) x0 x1 x2 (ix2 p q) = (∑ k : Fin 128, x0 (ix2 p k) * x1 (ix2 k q)) + x2 (ix2 (0 : Fin 1) q) := by
  unfold k5_pay1
  refine (addf_apply _ _ (ix2 p q)).trans ?_
  refine congrArg₂ (· + ·) ?_ ?_
  · rw [plainProduct5]
    refine (Cert.LibPlainProduct.matmul_zero_plain_apply (M := 1024) (K := 128) (N := 128) _ _ none p q).trans ?_
    rw [shapeCast_self]
    rfl
  · refine (biasDown5 _ p q).trans ?_
    rw [shapeCast_self]

/-! ## The last projection: the one block is the whole of each array -/

/-- The printed index maps at the one point: every window sits at block 0. -/
theorem blockOrigin5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- The input rows' one block is the input. -/
theorem inputRows5 (c : Dev nD) (t : Fin cfg5.N) (x : S1024x128.Idx) :
    (iblk5 (F := Ideal) V c 0 t : Vec Ideal S1024x128 .f32) x = (V c main_v55 : Mat 1024 128) x := by
  obtain ⟨e0, e1, -⟩ := blockOrigin5 t
  show V c main_v55 (((cfg5.win 0).blk t).view.emb x) = V c main_v55 x
  refine congrArg (V c main_v55) (funext fun a => Fin.ext ?_)
  match a with
  | ⟨0, _⟩ => show win5_0.index t (0 : Fin 2) * 1024 + 1 * (x 0).val = (x 0).val; rw [e0]; omega
  | ⟨1, _⟩ => show win5_0.index t (1 : Fin 2) * 128 + 1 * (x 1).val = (x 1).val; rw [e1]; omega

/-- The weights' one block is the weights. -/
theorem weightBlock5 (c : Dev nD) (t : Fin cfg5.N) (x : S128x128.Idx) :
    (iblk5 (F := Ideal) V c 1 t : Vec Ideal S128x128 .f32) x = (V c main_arg10 : Mat 128 128) x := by
  obtain ⟨-, -, e2, e3, -⟩ := blockOrigin5 t
  show V c main_arg10 (((cfg5.win 1).blk t).view.emb x) = V c main_arg10 x
  refine congrArg (V c main_arg10) (funext fun a => Fin.ext ?_)
  match a with
  | ⟨0, _⟩ => show win5_1.index t (0 : Fin 2) * 128 + 1 * (x 0).val = (x 0).val; rw [e2]; omega
  | ⟨1, _⟩ => show win5_1.index t (1 : Fin 2) * 128 + 1 * (x 1).val = (x 1).val; rw [e3]; omega

/-- The bias row's one block is the bias row. -/
theorem biasBlock5 (c : Dev nD) (t : Fin cfg5.N) (x : S1x128.Idx) :
    (iblk5 (F := Ideal) V c 2 t : Vec Ideal S1x128 .f32) x = (V c main_v56 : Mat 1 128) x := by
  obtain ⟨-, -, -, -, e4, e5, -⟩ := blockOrigin5 t
  show V c main_v56 (((cfg5.win 2).blk t).view.emb x) = V c main_v56 x
  refine congrArg (V c main_v56) (funext fun a => Fin.ext ?_)
  match a with
  | ⟨0, _⟩ => show win5_2.index t (0 : Fin 2) * 1 + 1 * (x 0).val = (x 0).val; rw [e4]; omega
  | ⟨1, _⟩ => show win5_2.index t (1 : Fin 2) * 128 + 1 * (x 1).val = (x 1).val; rw [e5]; omega

/-- What the one point writes back is the dense layer of the whole input, read through its one block. -/
theorem writtenBack5 (c : Dev nD) (t : Fin cfg5.N) :
    (dat5 (F := Ideal) V c).flushed 3 t = ((cfg5.win 3).blk t).view.read (Elt Ideal)
      (denseRow (V c main_v55 : Mat 1024 128) (V c main_arg10 : Mat 128 128) (V c main_v56 : Mat 1 128)) := by
  show (cfg5.win 3).cut (grid5.coords t) ((dat5 (F := Ideal) V c).after 3 t) = _
  rw [after5_3]
  unfold out5_3
  rw [View.canon_unit_zero denseZeroOffsets]
  simp only [View.ld_unit_zero (S := S1024x128) denseZeroOffsets, View.ld_unit_zero (S := S128x128) denseZeroOffsets,
    View.ld_unit_zero (S := S1x128) denseZeroOffsets]
  funext j
  obtain ⟨r, q, rfl⟩ : ∃ (r : Fin 1024) (q : Fin 128), j = ix2 r q := ⟨j 0, j 1, eq_ix2 j⟩
  obtain ⟨-, -, -, -, -, -, e6, e7⟩ := blockOrigin5 t
  show k5_pay1 (F := Ideal) (iblk5 (F := Ideal) V c 0 t) (iblk5 (F := Ideal) V c 1 t) (iblk5 (F := Ideal) V c 2 t) (ix2 r q)
      = denseRow (V c main_v55 : Mat 1024 128) (V c main_arg10 : Mat 128 128) (V c main_v56 : Mat 1 128)
          (((cfg5.win 3).blk t).view.emb (ix2 r q))
  -- the block's entry `(r, q)` lands on the array's entry `(r, q)`
  have hi : ((cfg5.win 3).blk t).view.emb (ix2 r q) = ix2 r q := by
    funext a; apply Fin.ext
    match a with
    | ⟨0, _⟩ => show win5_3.index t (0 : Fin 2) * 1024 + 1 * r.val = r.val; rw [e6]; omega
    | ⟨1, _⟩ => show win5_3.index t (1 : Fin 2) * 128 + 1 * q.val = q.val; rw [e7]; omega
  rw [hi]
  refine (blockEntry5 (iblk5 (F := Ideal) V c 0 t) (iblk5 (F := Ideal) V c 1 t) (iblk5 (F := Ideal) V c 2 t) r q).trans
    (Eq.trans ?_ (denseRow_apply (V c main_v55 : Mat 1024 128) (V c main_arg10 : Mat 128 128) (V c main_v56 : Mat 1 128)
      r q).symm)
  refine congrArg₂ (· + ·) (Finset.sum_congr rfl fun k _ => congrArg₂ (· * ·) ?_ ?_) ?_
  · exact inputRows5 V c t (ix2 r k)
  · exact weightBlock5 V c t (ix2 k q)
  · exact biasBlock5 V c t (ix2 (0 : Fin 1) q)

/-! ## The last projection: the one block covers the array -/

/-- An entry is in point `t`'s block iff each coordinate is in the block's range on its axis. -/
theorem inRowBlock5 (t : Fin cfg5.N) (i : S1024x128.Idx) :
    i ∈ ((cfg5.win 3).blk t).view.set ↔ ∀ a : Fin 2, win5_3.index t a * S1024x128.size a ≤ (i a).val
      ∧ (i a).val < win5_3.index t a * S1024x128.size a + S1024x128.size a := by
  show i ∈ ((View.whole main_v57).slice (win5_3.rect t)).set ↔ _
  rw [View.set_slice_whole, Rect.mem_set_unit]
  exact Iff.rfl

/-- Every entry is written back by the one point. -/
theorem rowBlocksCover5 (i : S1024x128.Idx) :
    ∃ t : Fin cfg5.N, (cfg5.win 3).flush t = true ∧ i ∈ ((cfg5.win 3).blk t).view.set := by
  have hi0 : (i 0).val < 1024 := (i 0).isLt
  have hi1 : (i 1).val < 128 := (i 1).isLt
  obtain ⟨-, -, -, -, -, -, e6, e7⟩ := blockOrigin5 t5_0
  refine ⟨t5_0, flush5_3 t5_0, ?_⟩
  rw [inRowBlock5]
  intro a
  match a with
  | ⟨0, _⟩ =>
    show win5_3.index t5_0 (0 : Fin 2) * 1024 ≤ (i 0).val ∧ (i 0).val < win5_3.index t5_0 (0 : Fin 2) * 1024 + 1024
    rw [e6]; omega
  | ⟨1, _⟩ =>
    show win5_3.index t5_0 (1 : Fin 2) * 128 ≤ (i 1).val ∧ (i 1).val < win5_3.index t5_0 (1 : Fin 2) * 128 + 128
    rw [e7]; omega

/-- The last projection of the 1024 batch rows (one block). -/
theorem region5_value (c : Dev nD) :
    ((dat5 (F := Ideal) V c).arrAt 3 cfg5.N : Mat 1024 128)
      = denseRow (V c main_v55 : Mat 1024 128) (V c main_arg10 : Mat 128 128) (V c main_v56 : Mat 1 128) :=
  (dat5 (F := Ideal) V c).arrAt_eq_of_cover 3
    (denseRow (V c main_v55 : Mat 1024 128) (V c main_arg10 : Mat 128 128) (V c main_v56 : Mat 1 128))
    (fun t _ => writtenBack5 V c t) rowBlocksCover5

end Cert.KernelIdeal.RegionValue

end
-- ==== Proof.RegionScaled.lean ====
/-
  What the two scaled-product launches leave in their output arrays: every block of 3000 rows is the product of those rows
  with the weight matrix, each row scaled by its entry of the weight column; 50 blocks tile the 150000 rows.
-/
import proofs.«120925_j38465727103681_1_alg».proof.Proof.Gen.KernelIdeal.Frame
import proofs.«120925_j38465727103681_1_alg».proof.Proof.Spec
import proofs.«120925_j38465727103681_1_alg».proof.Proof.LibPlainProduct
import proofs.«120925_j38465727103681_1_alg».proof.Proof.LibRowScale

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

/-- Both coordinates of a zero offset, as the constant function. -/
theorem scaledZeroOffsets : (![0, 0] : Fin 2 → Nat) = fun _ => 0 := funext fun a => by fin_cases a <;> rfl

/-- Row `r` of the `t`-th block of 3000 rows is row `3000 t + r` of the array (50 blocks). -/
def scaledBlockRow {N : ℕ} (hN : N = 50) (t : Fin N) (r : Fin 3000) : Fin 150000 :=
  ⟨t.val * 3000 + r.val, by have := t.isLt; have := r.isLt; omega⟩

/-! ## Layer 1's scaled product (launch 1) -/

/-- The block arithmetic at one entry: the row of the left block times the column of the weights, scaled by the row's
    entry of the column block (narrowing to the short float format is the identity on the extended reals). -/
theorem bodyLeaves1 (x : Vec Ideal S3000x128 .f32) (w : Vec Ideal S128x128 .f32) (s : Vec Ideal S3000x1 .f32)
    (p : Fin 3000) (q : Fin 128) :
    k1_pay1 (F := Ideal) x w s (ix2 p q) = (∑ k : Fin 128, x (ix2 p k) * w (ix2 k q)) * s (ix2 p (0 : Fin 1)) := by
  unfold k1_pay1
  refine (mulf_apply _ _ _).trans (congrArg₂ (· * ·) ?_ ?_)
  · refine (Cert.LibPlainProduct.matmul_zero_plain_apply (M := 3000) (K := 128) (N := 128) _ _ none p q).trans ?_
    refine Finset.sum_congr rfl fun k _ => ?_
    rw [truncf_apply, truncf_apply, shapeCast_self]
  · refine (Cert.LibRowScale.column_repeat_apply (n := 3000) (m := 128) _ _ p q).trans ?_
    rw [shapeCast_self]

/-- The three arrays the launch reads, as the launch finds them: the left factor, the weights, the weight column. -/
abbrev left1 (c : Dev nD) : Mat 150000 128 := V c main_v14
abbrev weights1 (c : Dev nD) : Mat 128 128 := V c main_arg6
abbrev column1 (c : Dev nD) : Mat 150000 1 := V c main_v11

/-- The array the launch is to leave: the whole product with its rows scaled. -/
abbrev target1 (c : Dev nD) : Mat 150000 128 := scaledRows (left1 V c) (weights1 V c) (column1 V c)

/-- The index maps over the grid: the row-block windows sit at block `(t, 0)`, the weights at `(0, 0)`. -/
theorem blockOrigin1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The left block at point `t` is rows `3000 t …` of the left array. -/
theorem leftRows1 (c : Dev nD) (t : Fin cfg1.N) (r : Fin 3000) (k : Fin 128) :
    (iblk1 V c 0 t : Vec Ideal S3000x128 .f32) (ix2 r k) = left1 V c (ix2 (scaledBlockRow N_1 t r) k) := by
  obtain ⟨e0, e1, -⟩ := blockOrigin1 t
  show V c main_v14 (((cfg1.win 0).blk t).view.emb (ix2 r k)) = V c main_v14 (ix2 (scaledBlockRow N_1 t r) k)
  refine congrArg (V c main_v14) ?_
  funext a; apply Fin.ext
  match a with
  | ⟨0, _⟩ => show win1_0.index t (0 : Fin 2) * 3000 + 1 * r.val = t.val * 3000 + r.val; rw [e0]; omega
  | ⟨1, _⟩ => show win1_0.index t (1 : Fin 2) * 128 + 1 * k.val = k.val; rw [e1]; omega

/-- The weight block at every point is the whole weight matrix. -/
theorem weightBlock1 (c : Dev nD) (t : Fin cfg1.N) (k : Fin 128) (q : Fin 128) :
    (iblk1 V c 1 t : Vec Ideal S128x128 .f32) (ix2 k q) = weights1 V c (ix2 k q) := by
  obtain ⟨-, -, e0, e1, -⟩ := blockOrigin1 t
  show V c main_arg6 (((cfg1.win 1).blk t).view.emb (ix2 k q)) = V c main_arg6 (ix2 k q)
  refine congrArg (V c main_arg6) ?_
  funext a; apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The column block at point `t` is rows `3000 t …` of the weight column. -/
theorem columnRows1 (c : Dev nD) (t : Fin cfg1.N) (r : Fin 3000) :
    (iblk1 V c 2 t : Vec Ideal S3000x1 .f32) (ix2 r (0 : Fin 1))
      = column1 V c (ix2 (scaledBlockRow N_1 t r) (0 : Fin 1)) := by
  obtain ⟨-, -, -, -, e0, e1, -⟩ := blockOrigin1 t
  show V c main_v11 (((cfg1.win 2).blk t).view.emb (ix2 r (0 : Fin 1))) = V c main_v11 (ix2 (scaledBlockRow N_1 t r) (0 : Fin 1))
  refine congrArg (V c main_v11) ?_
  funext a; apply Fin.ext
  match a with
  | ⟨0, _⟩ => show win1_2.index t (0 : Fin 2) * 3000 + 1 * r.val = t.val * 3000 + r.val; rw [e0]; omega
  | ⟨1, _⟩ => show win1_2.index t (1 : Fin 2) * 1 + 1 * 0 = 0; rw [e1]

/-- What point `t` writes back is block `t` of the target array. -/
theorem writtenBack1 (c : Dev nD) (t : Fin cfg1.N) :
    (dat1 (F := Ideal) V c).flushed 3 t = ((cfg1.win 3).blk t).view.read (Elt Ideal) (target1 V c) := by
  show (cfg1.win 3).cut (grid1.coords t) ((dat1 (F := Ideal) V c).after 3 t) = _
  rw [after1_3]
  unfold out1_3
  rw [View.canon_unit_zero scaledZeroOffsets]
  simp only [View.ld_unit_zero (S := S3000x128) scaledZeroOffsets, View.ld_unit_zero (S := S128x128) scaledZeroOffsets,
    View.ld_unit_zero (S := S3000x1) scaledZeroOffsets]
  funext j
  obtain ⟨r, q, rfl⟩ : ∃ (r : Fin 3000) (q : Fin 128), j = ix2 r q := ⟨j 0, j 1, eq_ix2 j⟩
  obtain ⟨-, -, -, -, -, -, e0, e1⟩ := blockOrigin1 t
  have hemb : ((cfg1.win 3).blk t).view.emb (ix2 r q) = ix2 (scaledBlockRow N_1 t r) q := by
    funext a; apply Fin.ext
    match a with
    | ⟨0, _⟩ => show win1_3.index t (0 : Fin 2) * 3000 + 1 * r.val = t.val * 3000 + r.val; rw [e0]; omega
    | ⟨1, _⟩ => show win1_3.index t (1 : Fin 2) * 128 + 1 * q.val = q.val; rw [e1]; omega
  show k1_pay1 (F := Ideal) (iblk1 V c 0 t) (iblk1 V c 1 t) (iblk1 V c 2 t) (ix2 r q)
      = target1 V c (((cfg1.win 3).blk t).view.emb (ix2 r q))
  rw [hemb]
  refine (bodyLeaves1 (iblk1 V c 0 t) (iblk1 V c 1 t) (iblk1 V c 2 t) r q).trans ?_
  show _ = (∑ k : Fin 128, left1 V c (ix2 (scaledBlockRow N_1 t r) k) * weights1 V c (ix2 k q))
      * column1 V c (ix2 (scaledBlockRow N_1 t r) (0 : Fin 1))
  refine congrArg₂ (· * ·) (Finset.sum_congr rfl fun k _ => ?_) (columnRows1 V c t r)
  exact congrArg₂ (· * ·) (leftRows1 V c t r k) (weightBlock1 V c t k q)

/-- An index of the output array is in point `t`'s block iff each coordinate is in the block's range on its axis. -/
theorem inRowBlock1 (t : Fin cfg1.N) (i : S150000x128.Idx) :
    i ∈ ((cfg1.win 3).blk t).view.set ↔ ∀ a : Fin 2, win1_3.index t a * S3000x128.size a ≤ (i a).val
      ∧ (i a).val < win1_3.index t a * S3000x128.size a + S3000x128.size a := by
  show i ∈ ((View.whole main_v15).slice (win1_3.rect t)).set ↔ _
  rw [View.set_slice_whole, Rect.mem_set_unit]
  exact Iff.rfl

/-- Every row lies in the block of the point `row / 3000`, and every point writes its block back. -/
theorem rowBlocksCover1 (i : S150000x128.Idx) :
    ∃ t : Fin cfg1.N, (cfg1.win 3).flush t = true ∧ i ∈ ((cfg1.win 3).blk t).view.set := by
  have hi0 : (i 0).val < 150000 := (i 0).isLt
  have hi1 : (i 1).val < 128 := (i 1).isLt
  have hN : cfg1.N = 50 := N_1
  obtain ⟨t, ht⟩ : ∃ t : Fin cfg1.N, t.val = (i 0).val / 3000 := ⟨⟨(i 0).val / 3000, by omega⟩, rfl⟩
  obtain ⟨-, -, -, -, -, -, e0, e1⟩ := blockOrigin1 t
  refine ⟨t, flush1_3 t, ?_⟩
  rw [inRowBlock1]
  intro a
  match a with
  | ⟨0, _⟩ =>
    show win1_3.index t (0 : Fin 2) * 3000 ≤ (i 0).val ∧ (i 0).val < win1_3.index t (0 : Fin 2) * 3000 + 3000
    rw [e0, ht]; omega
  | ⟨1, _⟩ =>
    show win1_3.index t (1 : Fin 2) * 128 ≤ (i 1).val ∧ (i 1).val < win1_3.index t (1 : Fin 2) * 128 + 128
    rw [e1]; omega

/-- Layer 1's scaled product. -/
theorem region1_value (c : Dev nD) :
    ((dat1 (F := Ideal) V c).arrAt 3 cfg1.N : Mat 150000 128)
      = scaledRows (V c main_v14 : Mat 150000 128) (V c main_arg6 : Mat 128 128) (V c main_v11 : Mat 150000 1) :=
  (dat1 (F := Ideal) V c).arrAt_eq_of_cover 3 (target1 V c) (fun t _ => writtenBack1 V c t) (fun i => rowBlocksCover1 i)

/-! ## Layer 2's scaled product (launch 3) -/

/-- The block arithmetic at one entry: the row of the left block times the column of the weights, scaled by the row's
    entry of the column block (narrowing to the short float format is the identity on the extended reals). -/
theorem bodyLeaves3 (x : Vec Ideal S3000x128 .f32) (w : Vec Ideal S128x128 .f32) (s : Vec Ideal S3000x1 .f32)
    (p : Fin 3000) (q : Fin 128) :
    k3_pay1 (F := Ideal) x w s (ix2 p q) = (∑ k : Fin 128, x (ix2 p k) * w (ix2 k q)) * s (ix2 p (0 : Fin 1)) := by
  unfold k3_pay1
  refine (mulf_apply _ _ _).trans (congrArg₂ (· * ·) ?_ ?_)
  · refine (Cert.LibPlainProduct.matmul_zero_plain_apply (M := 3000) (K := 128) (N := 128) _ _ none p q).trans ?_
    refine Finset.sum_congr rfl fun k _ => ?_
    rw [truncf_apply, truncf_apply, shapeCast_self]
  · refine (Cert.LibRowScale.column_repeat_apply (n := 3000) (m := 128) _ _ p q).trans ?_
    rw [shapeCast_self]

/-- The three arrays the launch reads, as the launch finds them: the left factor, the weights, the weight column. -/
abbrev left3 (c : Dev nD) : Mat 150000 128 := V c main_v27
abbrev weights3 (c : Dev nD) : Mat 128 128 := V c main_arg8
abbrev column3 (c : Dev nD) : Mat 150000 1 := V c main_v11

/-- The array the launch is to leave: the whole product with its rows scaled. -/
abbrev target3 (c : Dev nD) : Mat 150000 128 := scaledRows (left3 V c) (weights3 V c) (column3 V c)

/-- The index maps over the grid: the row-block windows sit at block `(t, 0)`, the weights at `(0, 0)`. -/
theorem blockOrigin3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The left block at point `t` is rows `3000 t …` of the left array. -/
theorem leftRows3 (c : Dev nD) (t : Fin cfg3.N) (r : Fin 3000) (k : Fin 128) :
    (iblk3 V c 0 t : Vec Ideal S3000x128 .f32) (ix2 r k) = left3 V c (ix2 (scaledBlockRow N_3 t r) k) := by
  obtain ⟨e0, e1, -⟩ := blockOrigin3 t
  show V c main_v27 (((cfg3.win 0).blk t).view.emb (ix2 r k)) = V c main_v27 (ix2 (scaledBlockRow N_3 t r) k)
  refine congrArg (V c main_v27) ?_
  funext a; apply Fin.ext
  match a with
  | ⟨0, _⟩ => show win3_0.index t (0 : Fin 2) * 3000 + 1 * r.val = t.val * 3000 + r.val; rw [e0]; omega
  | ⟨1, _⟩ => show win3_0.index t (1 : Fin 2) * 128 + 1 * k.val = k.val; rw [e1]; omega

/-- The weight block at every point is the whole weight matrix. -/
theorem weightBlock3 (c : Dev nD) (t : Fin cfg3.N) (k : Fin 128) (q : Fin 128) :
    (iblk3 V c 1 t : Vec Ideal S128x128 .f32) (ix2 k q) = weights3 V c (ix2 k q) := by
  obtain ⟨-, -, e0, e1, -⟩ := blockOrigin3 t
  show V c main_arg8 (((cfg3.win 1).blk t).view.emb (ix2 k q)) = V c main_arg8 (ix2 k q)
  refine congrArg (V c main_arg8) ?_
  funext a; apply Fin.ext
  match a with
  | ⟨0, _⟩ => show win3_1.index t (0 : Fin 2) * 128 + 1 * k.val = k.val; rw [e0]; omega
  | ⟨1, _⟩ => show win3_1.index t (1 : Fin 2) * 128 + 1 * q.val = q.val; rw [e1]; omega

/-- The column block at point `t` is rows `3000 t …` of the weight column. -/
theorem columnRows3 (c : Dev nD) (t : Fin cfg3.N) (r : Fin 3000) :
    (iblk3 V c 2 t : Vec Ideal S3000x1 .f32) (ix2 r (0 : Fin 1))
      = column3 V c (ix2 (scaledBlockRow N_3 t r) (0 : Fin 1)) := by
  obtain ⟨-, -, -, -, e0, e1, -⟩ := blockOrigin3 t
  show V c main_v11 (((cfg3.win 2).blk t).view.emb (ix2 r (0 : Fin 1))) = V c main_v11 (ix2 (scaledBlockRow N_3 t r) (0 : Fin 1))
  refine congrArg (V c main_v11) ?_
  funext a; apply Fin.ext
  match a with
  | ⟨0, _⟩ => show win3_2.index t (0 : Fin 2) * 3000 + 1 * r.val = t.val * 3000 + r.val; rw [e0]; omega
  | ⟨1, _⟩ => show win3_2.index t (1 : Fin 2) * 1 + 1 * 0 = 0; rw [e1]

/-- What point `t` writes back is block `t` of the target array. -/
theorem writtenBack3 (c : Dev nD) (t : Fin cfg3.N) :
    (dat3 (F := Ideal) V c).flushed 3 t = ((cfg3.win 3).blk t).view.read (Elt Ideal) (target3 V c) := by
  show (cfg3.win 3).cut (grid3.coords t) ((dat3 (F := Ideal) V c).after 3 t) = _
  rw [after3_3]
  unfold out3_3
  rw [View.canon_unit_zero scaledZeroOffsets]
  simp only [View.ld_unit_zero (S := S3000x128) scaledZeroOffsets, View.ld_unit_zero (S := S128x128) scaledZeroOffsets,
    View.ld_unit_zero (S := S3000x1) scaledZeroOffsets]
  funext j
  obtain ⟨r, q, rfl⟩ : ∃ (r : Fin 3000) (q : Fin 128), j = ix2 r q := ⟨j 0, j 1, eq_ix2 j⟩
  obtain ⟨-, -, -, -, -, -, e0, e1⟩ := blockOrigin3 t
  have hemb : ((cfg3.win 3).blk t).view.emb (ix2 r q) = ix2 (scaledBlockRow N_3 t r) q := by
    funext a; apply Fin.ext
    match a with
    | ⟨0, _⟩ => show win3_3.index t (0 : Fin 2) * 3000 + 1 * r.val = t.val * 3000 + r.val; rw [e0]; omega
    | ⟨1, _⟩ => show win3_3.index t (1 : Fin 2) * 128 + 1 * q.val = q.val; rw [e1]; omega
  show k3_pay1 (F := Ideal) (iblk3 V c 0 t) (iblk3 V c 1 t) (iblk3 V c 2 t) (ix2 r q)
      = target3 V c (((cfg3.win 3).blk t).view.emb (ix2 r q))
  rw [hemb]
  refine (bodyLeaves3 (iblk3 V c 0 t) (iblk3 V c 1 t) (iblk3 V c 2 t) r q).trans ?_
  show _ = (∑ k : Fin 128, left3 V c (ix2 (scaledBlockRow N_3 t r) k) * weights3 V c (ix2 k q))
      * column3 V c (ix2 (scaledBlockRow N_3 t r) (0 : Fin 1))
  refine congrArg₂ (· * ·) (Finset.sum_congr rfl fun k _ => ?_) (columnRows3 V c t r)
  exact congrArg₂ (· * ·) (leftRows3 V c t r k) (weightBlock3 V c t k q)

/-- An index of the output array is in point `t`'s block iff each coordinate is in the block's range on its axis. -/
theorem inRowBlock3 (t : Fin cfg3.N) (i : S150000x128.Idx) :
    i ∈ ((cfg3.win 3).blk t).view.set ↔ ∀ a : Fin 2, win3_3.index t a * S3000x128.size a ≤ (i a).val
      ∧ (i a).val < win3_3.index t a * S3000x128.size a + S3000x128.size a := by
  show i ∈ ((View.whole main_v28).slice (win3_3.rect t)).set ↔ _
  rw [View.set_slice_whole, Rect.mem_set_unit]
  exact Iff.rfl

/-- Every row lies in the block of the point `row / 3000`, and every point writes its block back. -/
theorem rowBlocksCover3 (i : S150000x128.Idx) :
    ∃ t : Fin cfg3.N, (cfg3.win 3).flush t = true ∧ i ∈ ((cfg3.win 3).blk t).view.set := by
  have hi0 : (i 0).val < 150000 := (i 0).isLt
  have hi1 : (i 1).val < 128 := (i 1).isLt
  have hN : cfg3.N = 50 := N_3
  obtain ⟨t, ht⟩ : ∃ t : Fin cfg3.N, t.val = (i 0).val / 3000 := ⟨⟨(i 0).val / 3000, by omega⟩, rfl⟩
  obtain ⟨-, -, -, -, -, -, e0, e1⟩ := blockOrigin3 t
  refine ⟨t, flush3_3 t, ?_⟩
  rw [inRowBlock3]
  intro a
  match a with
  | ⟨0, _⟩ =>
    show win3_3.index t (0 : Fin 2) * 3000 ≤ (i 0).val ∧ (i 0).val < win3_3.index t (0 : Fin 2) * 3000 + 3000
    rw [e0, ht]; omega
  | ⟨1, _⟩ =>
    show win3_3.index t (1 : Fin 2) * 128 ≤ (i 1).val ∧ (i 1).val < win3_3.index t (1 : Fin 2) * 128 + 128
    rw [e1]; omega

/-- Layer 2's scaled product. -/
theorem region3_value (c : Dev nD) :
    ((dat3 (F := Ideal) V c).arrAt 3 cfg3.N : Mat 150000 128)
      = scaledRows (V c main_v27 : Mat 150000 128) (V c main_arg8 : Mat 128 128) (V c main_v11 : Mat 150000 1) :=
  (dat3 (F := Ideal) V c).arrAt_eq_of_cover 3 (target3 V c) (fun t _ => writtenBack3 V c t) (fun i => rowBlocksCover3 i)

end Cert.KernelIdeal.RegionValue

end
-- ==== Proof.RegionFinish.lean ====
/-
  What the two closing launches of a layer leave in their output arrays: entry by entry the leaky rectifier of
  `d p * (s + g) + b`; 50 blocks of 3000 rows tile the 150000 rows.
-/
import proofs.«120925_j38465727103681_1_alg».proof.Proof.Gen.KernelIdeal.Frame
import proofs.«120925_j38465727103681_1_alg».proof.Proof.Spec
import proofs.«120925_j38465727103681_1_alg».proof.Proof.LibBroadcastRead
import proofs.«120925_j38465727103681_1_alg».proof.Proof.LibRowScale

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

/-! ## The body's arithmetic at one entry -/

/-- The value the rectifier is applied to, as the body spells it: the column repeated along the columns times the sum
    of the two blocks, plus the bias row repeated down the rows. -/
def preBlock (d : Vec Ideal S3000x1 .f32) (s g : Vec Ideal S3000x128 .f32) (b : Vec Ideal S1x128 .f32) :
    FVec Ideal S3000x128 .f32 :=
  addf (mulf (broadcastTo S3000x128 (shapeCast S3000x1 d shapeCasts_S3000x1_S3000x1) broadcasts_S3000x1_S3000x128)
      (addf (shapeCast S3000x128 s shapeCasts_S3000x128_S3000x128) (shapeCast S3000x128 g shapeCasts_S3000x128_S3000x128)))
    (broadcastTo S3000x128 (shapeCast S1x128 b shapeCasts_S1x128_S1x128) broadcasts_S1x128_S3000x128)

/-- Entry `(p, q)` of it is `d p * (s + g) + b q`: a repeated column holds its entry `p`, a repeated row its entry `q`. -/
theorem preBlock_apply (d : Vec Ideal S3000x1 .f32) (s g : Vec Ideal S3000x128 .f32) (b : Vec Ideal S1x128 .f32)
    (p : Fin 3000) (q : Fin 128) :
    preBlock d s g b (ix2 p q)
      = d (ix2 p (0 : Fin 1)) * (s (ix2 p q) + g (ix2 p q)) + b (ix2 (0 : Fin 1) q) := by
  unfold preBlock
  rw [addf_apply, mulf_apply, addf_apply, shapeCast_self, shapeCast_self, shapeCast_self, shapeCast_self,
    Cert.LibRowScale.column_repeat_apply, broadcastTo_1b_ab_apply]

/-- Layer 1's closing body at an entry: the leaky rectifier of `d p * (s + g) + b q` (the comparison against the word
    of `0.0`, the slope the word of `0.2`: the same words the specification names). -/
theorem k2_pay1_apply (d : Vec Ideal S3000x1 .f32) (s g : Vec Ideal S3000x128 .f32) (b : Vec Ideal S1x128 .f32)
    (p : Fin 3000) (q : Fin 128) :
    k2_pay1 (F := Ideal) d s g b (ix2 p q)
      = leakyAt (d (ix2 p (0 : Fin 1)) * (s (ix2 p q) + g (ix2 p q)) + b (ix2 (0 : Fin 1) q)) := by
  rw [← preBlock_apply]
  rfl

/-- Layer 2's closing body at an entry: the same arithmetic. -/
theorem k4_pay1_apply (d : Vec Ideal S3000x1 .f32) (s g : Vec Ideal S3000x128 .f32) (b : Vec Ideal S1x128 .f32)
    (p : Fin 3000) (q : Fin 128) :
    k4_pay1 (F := Ideal) d s g b (ix2 p q)
      = leakyAt (d (ix2 p (0 : Fin 1)) * (s (ix2 p q) + g (ix2 p q)) + b (ix2 (0 : Fin 1) q)) := by
  rw [← preBlock_apply]
  rfl

/-! ## Rows of a block among the rows of the array -/

theorem finishZeroOffsets : (![0, 0] : Fin 2 → Nat) = fun _ => 0 := funext fun a => by fin_cases a <;> rfl

/-- Row `r` of the `t`-th block of 3000 rows, among the 150000 rows. -/
def finishBlockRow (t : Fin 50) (r : Fin 3000) : Fin 150000 :=
  ⟨3000 * t.val + r.val, by have := t.isLt; have := r.isLt; omega⟩

theorem finishBlockRow_val (t : Fin 50) (r : Fin 3000) : (finishBlockRow t r).val = 3000 * t.val + r.val := rfl

variable (V : (c : Dev nD) → (b : Ref sig .tc) → Buf (Elt Ideal) ((c : Thread nD τ).loc b))

/-! ## Region 2: the blocks, the write-back of one point, the cover -/

theorem hN2 : cfg2.N = 50 := N_2

/-- The grid point as a block number. -/
abbrev pt2 (t : Fin cfg2.N) : Fin 50 := Fin.cast hN2 t

/-- The four arrays the launch reads, as the region finds them, and the blocks of them point `t` stages. -/
abbrev sArr2 (c : Dev nD) : Mat 150000 128 := V c main_v25
abbrev gArr2 (c : Dev nD) : Mat 150000 128 := V c main_v15
abbrev dArr2 (c : Dev nD) : Mat 150000 1 := V c main_v11
abbrev bArr2 (c : Dev nD) : Mat 1 128 := V c main_v26
abbrev sblk2 (c : Dev nD) (t : Fin cfg2.N) : Vec Ideal S3000x128 .f32 := iblk2 V c 0 t
abbrev gblk2 (c : Dev nD) (t : Fin cfg2.N) : Vec Ideal S3000x128 .f32 := iblk2 V c 1 t
abbrev dblk2 (c : Dev nD) (t : Fin cfg2.N) : Vec Ideal S3000x1 .f32 := iblk2 V c 2 t
abbrev bblk2 (c : Dev nD) (t : Fin cfg2.N) : Vec Ideal S1x128 .f32 := iblk2 V c 3 t

/-- What the output array is to hold. -/
abbrev target2 (c : Dev nD) : Mat 150000 128 := finished (sArr2 V c) (gArr2 V c) (dArr2 V c) (bArr2 V c)

/-- The printed index maps over the 50 points: the three row-block inputs and the output sit at block `(t, 0)`, the
    bias row at block `(0, 0)`. -/
theorem blockOrigin2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Block `t` of `s` holds rows `3000 t …` of `s`. -/
theorem sblk2_apply (c : Dev nD) (t : Fin cfg2.N) (r : Fin 3000) (q : Fin 128) :
    sblk2 V c t (ix2 r q) = sArr2 V c (ix2 (finishBlockRow (pt2 t) r) q) := by
  obtain ⟨e0, e1, -⟩ := blockOrigin2 t
  show V c main_v25 (((cfg2.win 0).blk t).view.emb (ix2 r q)) = V c main_v25 (ix2 (finishBlockRow (pt2 t) r) q)
  refine congrArg (V c main_v25) (funext fun a => Fin.ext ?_)
  match a with
  | ⟨0, _⟩ => show win2_0.index t (0 : Fin 2) * 3000 + 1 * r.val = 3000 * t.val + r.val; rw [e0]; omega
  | ⟨1, _⟩ => show win2_0.index t (1 : Fin 2) * 128 + 1 * q.val = q.val; rw [e1]; omega

/-- Block `t` of `g` holds rows `3000 t …` of `g`. -/
theorem gblk2_apply (c : Dev nD) (t : Fin cfg2.N) (r : Fin 3000) (q : Fin 128) :
    gblk2 V c t (ix2 r q) = gArr2 V c (ix2 (finishBlockRow (pt2 t) r) q) := by
  obtain ⟨-, -, e0, e1, -⟩ := blockOrigin2 t
  show V c main_v15 (((cfg2.win 1).blk t).view.emb (ix2 r q)) = V c main_v15 (ix2 (finishBlockRow (pt2 t) r) q)
  refine congrArg (V c main_v15) (funext fun a => Fin.ext ?_)
  match a with
  | ⟨0, _⟩ => show win2_1.index t (0 : Fin 2) * 3000 + 1 * r.val = 3000 * t.val + r.val; rw [e0]; omega
  | ⟨1, _⟩ => show win2_1.index t (1 : Fin 2) * 128 + 1 * q.val = q.val; rw [e1]; omega

/-- Block `t` of the column `d` holds entries `3000 t …` of `d`. -/
theorem dblk2_apply (c : Dev nD) (t : Fin cfg2.N) (r : Fin 3000) :
    dblk2 V c t (ix2 r (0 : Fin 1)) = dArr2 V c (ix2 (finishBlockRow (pt2 t) r) (0 : Fin 1)) := by
  obtain ⟨-, -, -, -, e0, e1, -⟩ := blockOrigin2 t
  show V c main_v11 (((cfg2.win 2).blk t).view.emb (ix2 r (0 : Fin 1))) = V c main_v11 (ix2 (finishBlockRow (pt2 t) r) (0 : Fin 1))
  refine congrArg (V c main_v11) (funext fun a => Fin.ext ?_)
  match a with
  | ⟨0, _⟩ => show win2_2.index t (0 : Fin 2) * 3000 + 1 * r.val = 3000 * t.val + r.val; rw [e0]; omega
  | ⟨1, _⟩ => show win2_2.index t (1 : Fin 2) * 1 + 1 * (0 : Fin 1).val = (0 : Fin 1).val; rw [e1]; omega

/-- Every point stages the whole bias row. -/
theorem bblk2_apply (c : Dev nD) (t : Fin cfg2.N) (q : Fin 128) :
    bblk2 V c t (ix2 (0 : Fin 1) q) = bArr2 V c (ix2 (0 : Fin 1) q) := by
  obtain ⟨-, -, -, -, -, -, e0, e1, -⟩ := blockOrigin2 t
  show V c main_v26 (((cfg2.win 3).blk t).view.emb (ix2 (0 : Fin 1) q)) = V c main_v26 (ix2 (0 : Fin 1) q)
  refine congrArg (V c main_v26) (funext fun a => Fin.ext ?_)
  match a with
  | ⟨0, _⟩ => show win2_3.index t (0 : Fin 2) * 1 + 1 * (0 : Fin 1).val = (0 : Fin 1).val; rw [e0]; omega
  | ⟨1, _⟩ => show win2_3.index t (1 : Fin 2) * 128 + 1 * q.val = q.val; rw [e1]; omega

/-- Entry `(r, q)` of the output's block `t` is entry `(3000 t + r, q)` of the array. -/
theorem outBlockRow2 (t : Fin cfg2.N) (r : Fin 3000) (q : Fin 128) :
    ((cfg2.win 4).blk t).view.emb (ix2 r q) = (ix2 (finishBlockRow (pt2 t) r) q : S150000x128.Idx) := by
  obtain ⟨-, -, -, -, -, -, -, -, e0, e1⟩ := blockOrigin2 t
  refine funext fun a => Fin.ext ?_
  match a with
  | ⟨0, _⟩ => show win2_4.index t (0 : Fin 2) * 3000 + 1 * r.val = 3000 * t.val + r.val; rw [e0]; omega
  | ⟨1, _⟩ => show win2_4.index t (1 : Fin 2) * 128 + 1 * q.val = q.val; rw [e1]; omega

/-- The body's one store, through the whole staging buffer, leaves the payload of the four loaded blocks. -/
theorem bodyLeaves2 (x0 x1 : Vec Ideal S3000x128 .f32) (x2 : Vec Ideal S3000x1 .f32) (x3 : Vec Ideal S1x128 .f32) :
    out2_4 (F := Ideal) x0 x1 x2 x3 = k2_pay1 x2 x0 x1 x3 := by
  unfold out2_4
  rw [View.canon_unit_zero finishZeroOffsets]
  simp only [View.ld_unit_zero (S := S3000x128) finishZeroOffsets, View.ld_unit_zero (S := S3000x1) finishZeroOffsets, View.ld_unit_zero (S := S1x128) finishZeroOffsets]

/-- What point `t` writes back is block `t` of the target. -/
theorem writtenBack2 (c : Dev nD) (t : Fin cfg2.N) :
    (dat2 (F := Ideal) V c).flushed 4 t = ((cfg2.win 4).blk t).view.read (Elt Ideal) (target2 V c) := by
  show (cfg2.win 4).cut (grid2.coords t) ((dat2 (F := Ideal) V c).after 4 t) = _
  rw [after2_4]
  refine funext fun (j : S3000x128.Idx) => ?_
  obtain ⟨r, q, rfl⟩ : ∃ (r : Fin 3000) (q : Fin 128), j = ix2 r q := ⟨j 0, j 1, eq_ix2 j⟩
  show out2_4 (F := Ideal) (sblk2 V c t) (gblk2 V c t) (dblk2 V c t) (bblk2 V c t) (ix2 r q)
    = target2 V c (((cfg2.win 4).blk t).view.emb (ix2 r q))
  rw [bodyLeaves2, outBlockRow2]
  refine (k2_pay1_apply (dblk2 V c t) (sblk2 V c t) (gblk2 V c t) (bblk2 V c t) r q).trans ?_
  rw [dblk2_apply V c t r, sblk2_apply V c t r q, gblk2_apply V c t r q, bblk2_apply V c t q]
  rfl

/-- An index of the array is in point `t`'s block iff each coordinate is in the block's range on its axis. -/
theorem inRowBlock2 (t : Fin cfg2.N) (i : S150000x128.Idx) :
    i ∈ ((cfg2.win 4).blk t).view.set ↔ ∀ a : Fin 2, win2_4.index t a * S3000x128.size a ≤ (i a).val
      ∧ (i a).val < win2_4.index t a * S3000x128.size a + S3000x128.size a := by
  show i ∈ ((View.whole main_v27).slice (win2_4.rect t)).set ↔ _
  rw [View.set_slice_whole, Rect.mem_set_unit]
  exact Iff.rfl

/-- Row `p` lies in the block of point `p / 3000`: the 50 blocks cover the array. -/
theorem rowBlocksCover2 (i : S150000x128.Idx) :
    ∃ t : Fin cfg2.N, (cfg2.win 4).flush t = true ∧ i ∈ ((cfg2.win 4).blk t).view.set := by
  have h0 : (i 0).val < 150000 := idx2_lt0 i
  have h1 : (i 1).val < 128 := idx2_lt1 i
  obtain ⟨t, ht⟩ : ∃ t : Fin cfg2.N, t.val = (i 0).val / 3000 := ⟨⟨(i 0).val / 3000, by rw [hN2]; omega⟩, rfl⟩
  refine ⟨t, flush2_4 t, ?_⟩
  rw [inRowBlock2]
  obtain ⟨-, -, -, -, -, -, -, -, e0, e1⟩ := blockOrigin2 t
  intro a
  match a with
  | ⟨0, _⟩ =>
    show win2_4.index t (0 : Fin 2) * 3000 ≤ (i 0).val ∧ (i 0).val < win2_4.index t (0 : Fin 2) * 3000 + 3000
    rw [e0, ht]; omega
  | ⟨1, _⟩ =>
    show win2_4.index t (1 : Fin 2) * 128 ≤ (i 1).val ∧ (i 1).val < win2_4.index t (1 : Fin 2) * 128 + 128
    rw [e1]; omega

/-- Layer 1's closing step. -/
theorem region2_value (c : Dev nD) :
    ((dat2 (F := Ideal) V c).arrAt 4 cfg2.N : Mat 150000 128)
      = finished (V c main_v25 : Mat 150000 128) (V c main_v15 : Mat 150000 128) (V c main_v11 : Mat 150000 1)
          (V c main_v26 : Mat 1 128) :=
  (dat2 (F := Ideal) V c).arrAt_eq_of_cover 4 (target2 V c) (fun t _ => writtenBack2 V c t) rowBlocksCover2

/-! ## Region 4: the blocks, the write-back of one point, the cover -/

theorem hN4 : cfg4.N = 50 := N_4

/-- The grid point as a block number. -/
abbrev pt4 (t : Fin cfg4.N) : Fin 50 := Fin.cast hN4 t

/-- The four arrays the launch reads, as the region finds them, and the blocks of them point `t` stages. -/
abbrev sArr4 (c : Dev nD) : Mat 150000 128 := V c main_v38
abbrev gArr4 (c : Dev nD) : Mat 150000 128 := V c main_v28
abbrev dArr4 (c : Dev nD) : Mat 150000 1 := V c main_v11
abbrev bArr4 (c : Dev nD) : Mat 1 128 := V c main_v39
abbrev sblk4 (c : Dev nD) (t : Fin cfg4.N) : Vec Ideal S3000x128 .f32 := iblk4 V c 0 t
abbrev gblk4 (c : Dev nD) (t : Fin cfg4.N) : Vec Ideal S3000x128 .f32 := iblk4 V c 1 t
abbrev dblk4 (c : Dev nD) (t : Fin cfg4.N) : Vec Ideal S3000x1 .f32 := iblk4 V c 2 t
abbrev bblk4 (c : Dev nD) (t : Fin cfg4.N) : Vec Ideal S1x128 .f32 := iblk4 V c 3 t

/-- What the output array is to hold. -/
abbrev target4 (c : Dev nD) : Mat 150000 128 := finished (sArr4 V c) (gArr4 V c) (dArr4 V c) (bArr4 V c)

/-- The printed index maps over the 50 points: the three row-block inputs and the output sit at block `(t, 0)`, the
    bias row at block `(0, 0)`. -/
theorem blockOrigin4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Block `t` of `s` holds rows `3000 t …` of `s`. -/
theorem sblk4_apply (c : Dev nD) (t : Fin cfg4.N) (r : Fin 3000) (q : Fin 128) :
    sblk4 V c t (ix2 r q) = sArr4 V c (ix2 (finishBlockRow (pt4 t) r) q) := by
  obtain ⟨e0, e1, -⟩ := blockOrigin4 t
  show V c main_v38 (((cfg4.win 0).blk t).view.emb (ix2 r q)) = V c main_v38 (ix2 (finishBlockRow (pt4 t) r) q)
  refine congrArg (V c main_v38) (funext fun a => Fin.ext ?_)
  match a with
  | ⟨0, _⟩ => show win4_0.index t (0 : Fin 2) * 3000 + 1 * r.val = 3000 * t.val + r.val; rw [e0]; omega
  | ⟨1, _⟩ => show win4_0.index t (1 : Fin 2) * 128 + 1 * q.val = q.val; rw [e1]; omega

/-- Block `t` of `g` holds rows `3000 t …` of `g`. -/
theorem gblk4_apply (c : Dev nD) (t : Fin cfg4.N) (r : Fin 3000) (q : Fin 128) :
    gblk4 V c t (ix2 r q) = gArr4 V c (ix2 (finishBlockRow (pt4 t) r) q) := by
  obtain ⟨-, -, e0, e1, -⟩ := blockOrigin4 t
  show V c main_v28 (((cfg4.win 1).blk t).view.emb (ix2 r q)) = V c main_v28 (ix2 (finishBlockRow (pt4 t) r) q)
  refine congrArg (V c main_v28) (funext fun a => Fin.ext ?_)
  match a with
  | ⟨0, _⟩ => show win4_1.index t (0 : Fin 2) * 3000 + 1 * r.val = 3000 * t.val + r.val; rw [e0]; omega
  | ⟨1, _⟩ => show win4_1.index t (1 : Fin 2) * 128 + 1 * q.val = q.val; rw [e1]; omega

/-- Block `t` of the column `d` holds entries `3000 t …` of `d`. -/
theorem dblk4_apply (c : Dev nD) (t : Fin cfg4.N) (r : Fin 3000) :
    dblk4 V c t (ix2 r (0 : Fin 1)) = dArr4 V c (ix2 (finishBlockRow (pt4 t) r) (0 : Fin 1)) := by
  obtain ⟨-, -, -, -, e0, e1, -⟩ := blockOrigin4 t
  show V c main_v11 (((cfg4.win 2).blk t).view.emb (ix2 r (0 : Fin 1))) = V c main_v11 (ix2 (finishBlockRow (pt4 t) r) (0 : Fin 1))
  refine congrArg (V c main_v11) (funext fun a => Fin.ext ?_)
  match a with
  | ⟨0, _⟩ => show win4_2.index t (0 : Fin 2) * 3000 + 1 * r.val = 3000 * t.val + r.val; rw [e0]; omega
  | ⟨1, _⟩ => show win4_2.index t (1 : Fin 2) * 1 + 1 * (0 : Fin 1).val = (0 : Fin 1).val; rw [e1]; omega

/-- Every point stages the whole bias row. -/
theorem bblk4_apply (c : Dev nD) (t : Fin cfg4.N) (q : Fin 128) :
    bblk4 V c t (ix2 (0 : Fin 1) q) = bArr4 V c (ix2 (0 : Fin 1) q) := by
  obtain ⟨-, -, -, -, -, -, e0, e1, -⟩ := blockOrigin4 t
  show V c main_v39 (((cfg4.win 3).blk t).view.emb (ix2 (0 : Fin 1) q)) = V c main_v39 (ix2 (0 : Fin 1) q)
  refine congrArg (V c main_v39) (funext fun a => Fin.ext ?_)
  match a with
  | ⟨0, _⟩ => show win4_3.index t (0 : Fin 2) * 1 + 1 * (0 : Fin 1).val = (0 : Fin 1).val; rw [e0]; omega
  | ⟨1, _⟩ => show win4_3.index t (1 : Fin 2) * 128 + 1 * q.val = q.val; rw [e1]; omega

/-- Entry `(r, q)` of the output's block `t` is entry `(3000 t + r, q)` of the array. -/
theorem outBlockRow4 (t : Fin cfg4.N) (r : Fin 3000) (q : Fin 128) :
    ((cfg4.win 4).blk t).view.emb (ix2 r q) = (ix2 (finishBlockRow (pt4 t) r) q : S150000x128.Idx) := by
  obtain ⟨-, -, -, -, -, -, -, -, e0, e1⟩ := blockOrigin4 t
  refine funext fun a => Fin.ext ?_
  match a with
  | ⟨0, _⟩ => show win4_4.index t (0 : Fin 2) * 3000 + 1 * r.val = 3000 * t.val + r.val; rw [e0]; omega
  | ⟨1, _⟩ => show win4_4.index t (1 : Fin 2) * 128 + 1 * q.val = q.val; rw [e1]; omega

/-- The body's one store, through the whole staging buffer, leaves the payload of the four loaded blocks. -/
theorem bodyLeaves4 (x0 x1 : Vec Ideal S3000x128 .f32) (x2 : Vec Ideal S3000x1 .f32) (x3 : Vec Ideal S1x128 .f32) :
    out4_4 (F := Ideal) x0 x1 x2 x3 = k4_pay1 x2 x0 x1 x3 := by
  unfold out4_4
  rw [View.canon_unit_zero finishZeroOffsets]
  simp only [View.ld_unit_zero (S := S3000x128) finishZeroOffsets, View.ld_unit_zero (S := S3000x1) finishZeroOffsets, View.ld_unit_zero (S := S1x128) finishZeroOffsets]

/-- What point `t` writes back is block `t` of the target. -/
theorem writtenBack4 (c : Dev nD) (t : Fin cfg4.N) :
    (dat4 (F := Ideal) V c).flushed 4 t = ((cfg4.win 4).blk t).view.read (Elt Ideal) (target4 V c) := by
  show (cfg4.win 4).cut (grid4.coords t) ((dat4 (F := Ideal) V c).after 4 t) = _
  rw [after4_4]
  refine funext fun (j : S3000x128.Idx) => ?_
  obtain ⟨r, q, rfl⟩ : ∃ (r : Fin 3000) (q : Fin 128), j = ix2 r q := ⟨j 0, j 1, eq_ix2 j⟩
  show out4_4 (F := Ideal) (sblk4 V c t) (gblk4 V c t) (dblk4 V c t) (bblk4 V c t) (ix2 r q)
    = target4 V c (((cfg4.win 4).blk t).view.emb (ix2 r q))
  rw [bodyLeaves4, outBlockRow4]
  refine (k4_pay1_apply (dblk4 V c t) (sblk4 V c t) (gblk4 V c t) (bblk4 V c t) r q).trans ?_
  rw [dblk4_apply V c t r, sblk4_apply V c t r q, gblk4_apply V c t r q, bblk4_apply V c t q]
  rfl

/-- An index of the array is in point `t`'s block iff each coordinate is in the block's range on its axis. -/
theorem inRowBlock4 (t : Fin cfg4.N) (i : S150000x128.Idx) :
    i ∈ ((cfg4.win 4).blk t).view.set ↔ ∀ a : Fin 2, win4_4.index t a * S3000x128.size a ≤ (i a).val
      ∧ (i a).val < win4_4.index t a * S3000x128.size a + S3000x128.size a := by
  show i ∈ ((View.whole main_v40).slice (win4_4.rect t)).set ↔ _
  rw [View.set_slice_whole, Rect.mem_set_unit]
  exact Iff.rfl

/-- Row `p` lies in the block of point `p / 3000`: the 50 blocks cover the array. -/
theorem rowBlocksCover4 (i : S150000x128.Idx) :
    ∃ t : Fin cfg4.N, (cfg4.win 4).flush t = true ∧ i ∈ ((cfg4.win 4).blk t).view.set := by
  have h0 : (i 0).val < 150000 := idx2_lt0 i
  have h1 : (i 1).val < 128 := idx2_lt1 i
  obtain ⟨t, ht⟩ : ∃ t : Fin cfg4.N, t.val = (i 0).val / 3000 := ⟨⟨(i 0).val / 3000, by rw [hN4]; omega⟩, rfl⟩
  refine ⟨t, flush4_4 t, ?_⟩
  rw [inRowBlock4]
  obtain ⟨-, -, -, -, -, -, -, -, e0, e1⟩ := blockOrigin4 t
  intro a
  match a with
  | ⟨0, _⟩ =>
    show win4_4.index t (0 : Fin 2) * 3000 ≤ (i 0).val ∧ (i 0).val < win4_4.index t (0 : Fin 2) * 3000 + 3000
    rw [e0, ht]; omega
  | ⟨1, _⟩ =>
    show win4_4.index t (1 : Fin 2) * 128 ≤ (i 1).val ∧ (i 1).val < win4_4.index t (1 : Fin 2) * 128 + 128
    rw [e1]; omega

/-- Layer 2's closing step. -/
theorem region4_value (c : Dev nD) :
    ((dat4 (F := Ideal) V c).arrAt 4 cfg4.N : Mat 150000 128)
      = finished (V c main_v38 : Mat 150000 128) (V c main_v28 : Mat 150000 128) (V c main_v11 : Mat 150000 1)
          (V c main_v39 : Mat 1 128) :=
  (dat4 (F := Ideal) V c).arrAt_eq_of_cover 4 (target4 V c) (fun t _ => writtenBack4 V c t) rowBlocksCover4

end Cert.KernelIdeal.RegionValue

end
-- ==== Proof.KernelFold.lean ====
/-
  The kernel program's result buffer, followed through its eleven segments.

  Host stretches apply their operations to the previous boundary's contents; a launch leaves in its output array the
  whole-array function of its input arrays (the region modules). Stage by stage: the projected rows, the stacked table,
  layer 1's scaled product, its gathered and accumulated rows and closing step, the same for layer 2, the two batch
  look-ups added, and the readout's dense layer. The buffers a step reads that were written earlier are carried by the
  table of unchanged buffers.
-/
import proofs.«120925_j38465727103681_1_alg».proof.Proof.KernelStages
import proofs.«120925_j38465727103681_1_alg».proof.Proof.KernelCarry
import proofs.«120925_j38465727103681_1_alg».proof.Proof.RegionDense
import proofs.«120925_j38465727103681_1_alg».proof.Proof.RegionScaled
import proofs.«120925_j38465727103681_1_alg».proof.Proof.RegionFinish

set_option maxRecDepth 16384

noncomputable section

namespace Cert.KernelIdeal.FoldValue

open Idealize.ShloMosaic Idealize.ShloMosaic.TcCoe Idealize.ShloMosaic.ValueIdx Idealize.SL.Sem Idealize.ShloMosaic.StableHlo
open Cert.KernelIdeal Cert.KernelIdeal.Gen Cert.Gcn

variable (m : (ℓ : Loc nD τ sig) → Buf (Elt Ideal) ℓ) (ρ : Dev nD → PrngReg)

local macro "stretch " ops:ident prev:term : tactic =>
  `(tactic| (show StableHlo.after $ops $prev _ = _; after_results))

/-- The projected rows, after the first launch. -/
theorem proj_2 (c : Dev nD) : (W2 m ρ c (Proc.devRef .tc main_v13) : Mat 50000 128)
    = denseRow (m ((c : Thread nD τ).loc main_arg1)) (m ((c : Thread nD τ).loc main_arg4)) (stRow (m ((c : Thread nD τ).loc main_arg5))) := by
  refine (W2_arr m ρ c 3).trans ((RegionValue.region0_value (V1 m ρ) c).trans ?_)
  show denseRow (W1 m ρ c (Proc.devRef .tc main_arg1)) (W1 m ρ c (Proc.devRef .tc main_arg4))
    (W1 m ρ c (Proc.devRef .tc main_v12)) = _
  rw [arg1_1, arg4_1, row_1]

/-- The stacked table, after the second host stretch. -/
theorem table_3 (c : Dev nD) : (W3 m ρ c (Proc.devRef .tc main_v14) : Mat 150000 128) = (stStack (m ((c : Thread nD τ).loc main_arg3)) (denseRow (m ((c : Thread nD τ).loc main_arg1)) (m ((c : Thread nD τ).loc main_arg4)) (stRow (m ((c : Thread nD τ).loc main_arg5))))) := by
  stretch hostOps1 (W2 m ρ c)
  rw [arg3_2, proj_2]; rfl

/-- Layer 1's scaled product, after the second launch. -/
theorem scaled_4 (c : Dev nD) : (W4 m ρ c (Proc.devRef .tc main_v15) : Mat 150000 128) = (scaledRows (stStack (m ((c : Thread nD τ).loc main_arg3)) (denseRow (m ((c : Thread nD τ).loc main_arg1)) (m ((c : Thread nD τ).loc main_arg4)) (stRow (m ((c : Thread nD τ).loc main_arg5))))) (m ((c : Thread nD τ).loc main_arg6)) (stW (m ((c : Thread nD τ).loc main_arg2)))) := by
  refine (W4_arr m ρ c 3).trans ((RegionValue.region1_value (V3 m ρ) c).trans ?_)
  show scaledRows (W3 m ρ c (Proc.devRef .tc main_v14)) (W3 m ρ c (Proc.devRef .tc main_arg6))
    (W3 m ρ c (Proc.devRef .tc main_v11)) = _
  rw [table_3, arg6_3, w_3]

set_option maxHeartbeats 2000000 in
/-- Layer 1's accumulated rows and bias row, after the third host stretch; the scaled product is unchanged. -/
theorem acc_5 (c : Dev nD) : (W5 m ρ c (Proc.devRef .tc main_v25) : Mat 150000 128) = stAcc (m ((c : Thread nD τ).loc main_arg2)) (stTake (m ((c : Thread nD τ).loc main_arg2)) (scaledRows (stStack (m ((c : Thread nD τ).loc main_arg3)) (denseRow (m ((c : Thread nD τ).loc main_arg1)) (m ((c : Thread nD τ).loc main_arg4)) (stRow (m ((c : Thread nD τ).loc main_arg5))))) (m ((c : Thread nD τ).loc main_arg6)) (stW (m ((c : Thread nD τ).loc main_arg2))))) := by
  stretch hostOps2 (W4 m ρ c)
  rw [src_4, dst_4, scaled_4]; rfl
theorem row_5 (c : Dev nD) : W5 m ρ c (Proc.devRef .tc main_v26) = stRow (m ((c : Thread nD τ).loc main_arg7)) := by
  stretch hostOps2 (W4 m ρ c)
  rw [arg7_4]; rfl
theorem scaled_5 (c : Dev nD) : (W5 m ρ c (Proc.devRef .tc main_v15) : Mat 150000 128) = (scaledRows (stStack (m ((c : Thread nD τ).loc main_arg3)) (denseRow (m ((c : Thread nD τ).loc main_arg1)) (m ((c : Thread nD τ).loc main_arg4)) (stRow (m ((c : Thread nD τ).loc main_arg5))))) (m ((c : Thread nD τ).loc main_arg6)) (stW (m ((c : Thread nD τ).loc main_arg2)))) := by
  stretch hostOps2 (W4 m ρ c); exact scaled_4 m ρ c

/-- Layer 1's output, after the third launch. -/
theorem layer_6 (c : Dev nD) : (W6 m ρ c (Proc.devRef .tc main_v27) : Mat 150000 128) = (stLayer (m ((c : Thread nD τ).loc main_arg2)) (stStack (m ((c : Thread nD τ).loc main_arg3)) (denseRow (m ((c : Thread nD τ).loc main_arg1)) (m ((c : Thread nD τ).loc main_arg4)) (stRow (m ((c : Thread nD τ).loc main_arg5))))) (m ((c : Thread nD τ).loc main_arg6)) (m ((c : Thread nD τ).loc main_arg7))) := by
  refine (W6_arr m ρ c 4).trans ((RegionValue.region2_value (V5 m ρ) c).trans ?_)
  show finished (W5 m ρ c (Proc.devRef .tc main_v25)) (W5 m ρ c (Proc.devRef .tc main_v15))
    (W5 m ρ c (Proc.devRef .tc main_v11)) (W5 m ρ c (Proc.devRef .tc main_v26)) = _
  rw [acc_5, scaled_5, w_5, row_5]; rfl

/-- Layer 2's scaled product, after the fourth launch. -/
theorem scaled_7 (c : Dev nD) : (W7 m ρ c (Proc.devRef .tc main_v28) : Mat 150000 128) = (scaledRows (stLayer (m ((c : Thread nD τ).loc main_arg2)) (stStack (m ((c : Thread nD τ).loc main_arg3)) (denseRow (m ((c : Thread nD τ).loc main_arg1)) (m ((c : Thread nD τ).loc main_arg4)) (stRow (m ((c : Thread nD τ).loc main_arg5))))) (m ((c : Thread nD τ).loc main_arg6)) (m ((c : Thread nD τ).loc main_arg7))) (m ((c : Thread nD τ).loc main_arg8)) (stW (m ((c : Thread nD τ).loc main_arg2)))) := by
  refine (W7_arr m ρ c 3).trans ((RegionValue.region3_value (V6 m ρ) c).trans ?_)
  show scaledRows (W6 m ρ c (Proc.devRef .tc main_v27)) (W6 m ρ c (Proc.devRef .tc main_arg8))
    (W6 m ρ c (Proc.devRef .tc main_v11)) = _
  rw [layer_6, arg8_6, w_6]

set_option maxHeartbeats 2000000 in
/-- Layer 2's accumulated rows and bias row, after the fourth host stretch. -/
theorem acc_8 (c : Dev nD) : (W8 m ρ c (Proc.devRef .tc main_v38) : Mat 150000 128) = stAcc (m ((c : Thread nD τ).loc main_arg2)) (stTake (m ((c : Thread nD τ).loc main_arg2)) (scaledRows (stLayer (m ((c : Thread nD τ).loc main_arg2)) (stStack (m ((c : Thread nD τ).loc main_arg3)) (denseRow (m ((c : Thread nD τ).loc main_arg1)) (m ((c : Thread nD τ).loc main_arg4)) (stRow (m ((c : Thread nD τ).loc main_arg5))))) (m ((c : Thread nD τ).loc main_arg6)) (m ((c : Thread nD τ).loc main_arg7))) (m ((c : Thread nD τ).loc main_arg8)) (stW (m ((c : Thread nD τ).loc main_arg2))))) := by
  stretch hostOps4 (W7 m ρ c)
  rw [src_7, dst_7, scaled_7]; rfl
theorem row_8 (c : Dev nD) : W8 m ρ c (Proc.devRef .tc main_v39) = stRow (m ((c : Thread nD τ).loc main_arg9)) := by
  stretch hostOps4 (W7 m ρ c)
  rw [arg9_7]; rfl
theorem scaled_8 (c : Dev nD) : (W8 m ρ c (Proc.devRef .tc main_v28) : Mat 150000 128) = (scaledRows (stLayer (m ((c : Thread nD τ).loc main_arg2)) (stStack (m ((c : Thread nD τ).loc main_arg3)) (denseRow (m ((c : Thread nD τ).loc main_arg1)) (m ((c : Thread nD τ).loc main_arg4)) (stRow (m ((c : Thread nD τ).loc main_arg5))))) (m ((c : Thread nD τ).loc main_arg6)) (m ((c : Thread nD τ).loc main_arg7))) (m ((c : Thread nD τ).loc main_arg8)) (stW (m ((c : Thread nD τ).loc main_arg2)))) := by
  stretch hostOps4 (W7 m ρ c); exact scaled_7 m ρ c

/-- Layer 2's output, after the fifth launch. -/
theorem layer_9 (c : Dev nD) : (W9 m ρ c (Proc.devRef .tc main_v40) : Mat 150000 128) = (stLayer (m ((c : Thread nD τ).loc main_arg2)) (stLayer (m ((c : Thread nD τ).loc main_arg2)) (stStack (m ((c : Thread nD τ).loc main_arg3)) (denseRow (m ((c : Thread nD τ).loc main_arg1)) (m ((c : Thread nD τ).loc main_arg4)) (stRow (m ((c : Thread nD τ).loc main_arg5))))) (m ((c : Thread nD τ).loc main_arg6)) (m ((c : Thread nD τ).loc main_arg7))) (m ((c : Thread nD τ).loc main_arg8)) (m ((c : Thread nD τ).loc main_arg9))) := by
  refine (W9_arr m ρ c 4).trans ((RegionValue.region4_value (V8 m ρ) c).trans ?_)
  show finished (W8 m ρ c (Proc.devRef .tc main_v38)) (W8 m ρ c (Proc.devRef .tc main_v28))
    (W8 m ρ c (Proc.devRef .tc main_v11)) (W8 m ρ c (Proc.devRef .tc main_v39)) = _
  rw [acc_8, scaled_8, w_8, row_8]; rfl

set_option maxHeartbeats 2000000 in
/-- The batch rows and the last bias row, after the last host stretch. -/
theorem batch_10 (c : Dev nD) : (W10 m ρ c (Proc.devRef .tc main_v55) : Mat 1024 128) = stBatch (stLayer (m ((c : Thread nD τ).loc main_arg2)) (stLayer (m ((c : Thread nD τ).loc main_arg2)) (stStack (m ((c : Thread nD τ).loc main_arg3)) (denseRow (m ((c : Thread nD τ).loc main_arg1)) (m ((c : Thread nD τ).loc main_arg4)) (stRow (m ((c : Thread nD τ).loc main_arg5))))) (m ((c : Thread nD τ).loc main_arg6)) (m ((c : Thread nD τ).loc main_arg7))) (m ((c : Thread nD τ).loc main_arg8)) (m ((c : Thread nD τ).loc main_arg9))) (m ((c : Thread nD τ).loc main_arg3)) (m ((c : Thread nD τ).loc main_arg0)) := by
  stretch hostOps5 (W9 m ρ c)
  rw [arg0_9, layer_9, arg3_9]; rfl
theorem row_10 (c : Dev nD) : W10 m ρ c (Proc.devRef .tc main_v56) = stRow (m ((c : Thread nD τ).loc main_arg11)) := by
  stretch hostOps5 (W9 m ρ c)
  rw [arg11_9]; rfl

/-- The result buffer after the last launch is the last stage. -/
theorem fold_value (c : Dev nD) : (W11 m ρ c (Proc.devRef .tc main_v57) : Mat 1024 128)
    = stOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W11_arr m ρ c 3).trans ((RegionValue.region5_value (V10 m ρ) c).trans ?_)
  show denseRow (W10 m ρ c (Proc.devRef .tc main_v55)) (W10 m ρ c (Proc.devRef .tc main_arg10))
    (W10 m ρ c (Proc.devRef .tc main_v56)) = _
  rw [batch_10, arg10_10, row_10]; rfl

end Cert.KernelIdeal.FoldValue

end
-- ==== Proof.KernelChain.lean ====
/-
  The kernel program's result as one function of its arguments.

  Between launches the host only re-lays arrays, stacks the user rows on the projected rows, counts in-degrees, and
  gathers and accumulates rows along the edges; every launch's output array is a whole-array function of its input arrays.
  Following the buffers from the launch memory through the eleven segments, the result buffer holds the two layers in the
  rows-scaled-first arrangement followed by the readout.
-/
import proofs.«120925_j38465727103681_1_alg».proof.Proof.Gen.KernelIdeal.Frame
import proofs.«120925_j38465727103681_1_alg».proof.Proof.Spec
import proofs.«120925_j38465727103681_1_alg».proof.Proof.Decode
import proofs.«120925_j38465727103681_1_alg».proof.Proof.LibRowScale
import proofs.«120925_j38465727103681_1_alg».proof.Proof.KernelStages
import proofs.«120925_j38465727103681_1_alg».proof.Proof.KernelFold
import Idealize.ShloMosaic.Lib.Pipeline.Value

set_option maxRecDepth 16384

noncomputable section

namespace Cert.KernelIdeal.ChainValue

open Idealize.ShloMosaic Idealize.ShloMosaic.TcCoe Idealize.ShloMosaic.ValueIdx Idealize.SL.Sem
open Cert.KernelIdeal Cert.KernelIdeal.Gen Cert.Gcn Cert.KernelIdeal.FoldValue
open scoped BigOperators

/-! ## The host's arrays as neutral functions -/

/-- A bias vector laid as one row. -/
def biasRow {N : ℕ} (b : Vec1 N) : Mat 1 N := ofRC fun _ q => b (ix1 q)

/-- The node weights laid as one column. -/
def wcol (E : Edges) : Mat 150000 1 := ofRC fun n _ => dinv E n

/-- The landed rows of `g` summed per node, each edge reading the row its source word takes. -/
def aggr (E : Edges) (g : Mat 150000 128) : Mat 150000 128 :=
  ofRC fun i c => zeroW + ∑ e ∈ Finset.univ.filter (fun e => lands E e i), g (ix2 (rowSrc E e) c)

/-- The user rows above the rows `y`. -/
def stacked (ut : Mat 100000 128) (y : Mat 50000 128) : Mat 150000 128 :=
  ofRC fun n j => if h : n.val < 100000 then ut (ix2 ⟨n.val, h⟩ j)
    else y (ix2 ⟨n.val - 100000, by have := n.isLt; omega⟩ j)

/-- The looked-up node row plus the looked-up user row, per batch entry. -/
def batchRows (x : Mat 150000 128) (ut : Mat 100000 128) (uidx : IVec (⟨1, ![1024]⟩ : Shape) 32) : Mat 1024 128 :=
  ofRC fun p j => x (ix2 (takeRow 150000 (by decide) 150000#32 (uidx (ix1 p))) j)
      + ut (ix2 (takeRow 100000 (by decide) 100000#32 (uidx (ix1 p))) j)

/-- A dense layer with its bias laid as a row is the dense layer. -/
theorem denseRow_biasRow {M K N : ℕ} (a : Mat M K) (w : Mat K N) (b : Vec1 N) :
    denseRow a w (biasRow b) = dense a w b := rfl

/-- The stacked table over the projected rows is the node table. -/
theorem stacked_dense (ut : Mat 100000 128) (poi : Mat 50000 320) (Wp : Mat 320 128) (bp : Vec1 128) :
    stacked ut (denseRow poi Wp (biasRow bp)) = nodes0 ut poi Wp bp := rfl

/-- The closing step, at an entry. -/
theorem finished_apply {n : ℕ} (s g : Mat n 128) (d : Mat n 1) (b : Mat 1 128) (p : Fin n) (q : Fin 128) :
    finished s g d b (ix2 p q)
      = leakyAt (d (ix2 p (0 : Fin 1)) * (s (ix2 p q) + g (ix2 p q)) + b (ix2 (0 : Fin 1) q)) := rfl

/-- The scaled product, at an entry. -/
theorem scaledRows_apply {n : ℕ} (x : Mat n 128) (W : Mat 128 128) (d : Mat n 1) (p : Fin n) (q : Fin 128) :
    scaledRows x W d (ix2 p q) = prod x W (ix2 p q) * d (ix2 p (0 : Fin 1)) := rfl

/-- The aggregation, at an entry. -/
theorem aggr_apply (E : Edges) (g : Mat 150000 128) (i : Fin 150000) (c : Fin 128) :
    aggr E g (ix2 i c) = zeroW + ∑ e ∈ Finset.univ.filter (fun e => lands E e i), g (ix2 (rowSrc E e) c) := rfl

/-- The weight column, at an entry. -/
theorem wcol_apply (E : Edges) (n : Fin 150000) (u : Fin 1) : wcol E (ix2 n u) = dinv E n :=
  ofRC_apply (fun n _ => dinv E n) n u

/-- The bias row, at an entry. -/
theorem biasRow_apply {N : ℕ} (b : Vec1 N) (p : Fin 1) (q : Fin N) : biasRow b (ix2 p q) = b (ix1 q) := rfl

/-- The layer with its rows scaled first, at an entry. -/
theorem scaledFirst_apply (dv : Fin 150000 → EReal) (rs : Fin 2000000 → Fin 150000)
    (lands : Fin 2000000 → Fin 150000 → Prop) [∀ e i, Decidable (lands e i)] (x : Mat 150000 128) (W : Mat 128 128)
    (b : Vec1 128) (i : Fin 150000) (c : Fin 128) :
    scaledFirst dv rs lands x W b (ix2 i c)
      = leakyAt (dv i * ((zeroW + ∑ e ∈ Finset.univ.filter (fun e => lands e i), prod x W (ix2 (rs e) c) * dv (rs e))
          + prod x W (ix2 i c) * dv i) + b (ix1 c)) := rfl

/-- The closing step over the aggregated scaled rows is the layer with its rows scaled first. -/
theorem finished_aggr (E : Edges) (x : Mat 150000 128) (W : Mat 128 128) (b : Vec1 128) :
    finished (aggr E (scaledRows x W (wcol E))) (scaledRows x W (wcol E)) (wcol E) (biasRow b)
      = scaledFirst (dinv E) (rowSrc E) (lands E) x W b := by
  funext j
  obtain ⟨i, c, rfl⟩ : ∃ i c, j = ix2 i c := ⟨j 0, j 1, eq_ix2 j⟩
  rw [finished_apply, scaledFirst_apply, aggr_apply, scaledRows_apply, wcol_apply, biasRow_apply,
    Finset.sum_congr rfl (fun e _ => (scaledRows_apply x W (wcol E) (rowSrc E e) c).trans
      (congrArg (fun z => prod x W (ix2 (rowSrc E e) c) * z) (wcol_apply E (rowSrc E e) 0)))]

/-- The last dense layer over the batch rows is the readout. -/
theorem denseRow_batchRows (x : Mat 150000 128) (ut : Mat 100000 128) (uidx : IVec (⟨1, ![1024]⟩ : Shape) 32)
    (Wf : Mat 128 128) (bf : Vec1 128) :
    denseRow (batchRows x ut uidx) Wf (biasRow bf) = readout x ut uidx Wf bf := rfl

/-- A scalar constant broadcast to any shape, at an entry. -/
theorem bcast_const {T : Shape} (h : S_.BroadcastsInDim T ![]) (b : BitVec FTy.f32.bits) (i : T.Idx) :
    broadcastInDim T ![] h (constant (F := Ideal) S_ .f32 b) i = Ideal.ofBits .f32 b := by
  unfold broadcastInDim; rfl

/-- A scalar integer constant broadcast to any shape, at an entry. -/
theorem bcast_constI {T : Shape} (h : S_.BroadcastsInDim T ![]) (b : BitVec 32) (i : T.Idx) :
    broadcastInDim T ![] h (constantI S_ 32 b) i = b := by
  unfold broadcastInDim; rfl

/-- The host's inverse square root, at an entry. -/
theorem rsqrt_apply {s : Shape} (v : FVec Ideal s .f32) (i : s.Idx) :
    Host.rsqrt (F := Ideal) (φ := .f32) v i = Ideal.rsqrt (v i) := rfl

/-- A bias vector recast as one row. -/
theorem recast_bias (b : Vec1 128) (h : S128.ShapeCasts S1x128) : (shapeCast S1x128 b h : Mat 1 128) = biasRow b := by
  funext j
  obtain ⟨p, q, rfl⟩ : ∃ p q, j = ix2 p q := ⟨j 0, j 1, eq_ix2 j⟩
  refine (shapeCast_apply b h _ (ix1 q) ?_).trans rfl
  rw [Shape.rowMajor_val_two, Shape.rowMajor_val_one]
  show q.val = p.val * 128 + q.val
  have := p.isLt; omega

/-- The two row pieces along the first axis: the stacked table. -/
theorem concat_stacked (h : Shape.Concatenates [S100000x128, S50000x128] S150000x128 0) (ut : Mat 100000 128)
    (y : Mat 50000 128) :
    (concatenate S150000x128 0 [⟨S100000x128, ut⟩, ⟨S50000x128, y⟩] h : Mat 150000 128) = stacked ut y := by
  funext i
  obtain ⟨n, j, rfl⟩ : ∃ n j, i = ix2 n j := ⟨i 0, i 1, eq_ix2 i⟩
  show _ = if h : n.val < 100000 then ut (ix2 ⟨n.val, h⟩ j) else y (ix2 ⟨n.val - 100000, _⟩ j)
  split
  · next hn =>
    exact concatenate_pair_apply_left (0 : Fin 2) ut y h (ix2 n j) rfl (ix2 ⟨n.val, hn⟩ j) fun b => by
      match b with
      | ⟨0, _⟩ => rfl
      | ⟨1, _⟩ => rfl
  · next hn =>
    refine concatenate_pair_apply_right (0 : Fin 2) ut y h (ix2 n j) rfl rfl (ix2 ⟨n.val - 100000, by have := n.isLt; omega⟩ j) (fun b hb => ?_) ?_
    · match b with
      | ⟨0, _⟩ => exact absurd rfl hb
      | ⟨1, _⟩ => rfl
    · show n.val - 100000 + 100000 = n.val
      omega

/-- The batch rows, at an entry. -/
theorem batchRows_apply (x : Mat 150000 128) (ut : Mat 100000 128) (uidx : IVec (⟨1, ![1024]⟩ : Shape) 32)
    (p : Fin 1024) (q : Fin 128) :
    batchRows x ut uidx (ix2 p q) = x (ix2 (takeRow 150000 (by decide) 150000#32 (uidx (ix1 p))) q)
      + ut (ix2 (takeRow 100000 (by decide) 100000#32 (uidx (ix1 p))) q) :=
  ofRC_apply _ p q

/-- The edges an index column's words select for node `n` are the edges landing on `n`. -/
theorem landed_filter (E : Edges) (n : Fin 150000) (idx : IVec S2000000x1 32)
    (hidx : ∀ e : Fin 2000000, idx (ix2 e (0 : Fin 1)) = dstW E e) :
    Finset.univ.filter (fun e : Fin 2000000 => (idx (ix2 e (0 : Fin 1))).toInt = (n.val : ℤ))
      = Finset.univ.filter (fun e => lands E e n) :=
  Finset.filter_congr fun e _ => by rw [hidx e]; exact Iff.rfl

/-- The in-degree count, one added, under the inverse square root, recast as a column: the node weights. -/
theorem weight_column (d : ScatterDims S150000 S2000000x1 S2000000) (huw : d.updateWindowDims = [])
    (hiw : d.insertedWindowDims = [0]) (hsd : d.scatterDimsToOperandDims = [0]) (hiv : d.indexVectorDim = 1)
    (hb1 : S_.BroadcastsInDim S150000 ![]) (hbE : S_.BroadcastsInDim S2000000 ![])
    (hbc : S2000000.BroadcastsInDim S2000000x1 ![0]) (hcol : S150000.ShapeCasts S150000x1) (E : Edges)
    (dstV : IVec S2000000 32) (hdst : ∀ e : Fin 2000000, dstV (ix1 e) = dstW E e) :
    (shapeCast S150000x1 (Host.rsqrt (F := Ideal) (φ := .f32)
        (addf (broadcastInDim S150000 ![] hb1 (constant (F := Ideal) S_ .f32 0x3F800000#32))
          (Host.scatterAdd (F := Ideal) (φ := .f32) d
            (broadcastInDim S150000 ![] hb1 (constant (F := Ideal) S_ .f32 0x00000000#32))
            (broadcastInDim S2000000x1 ![0] hbc dstV)
            (broadcastInDim S2000000 ![] hbE (constant (F := Ideal) S_ .f32 0x3F800000#32))))) hcol : Mat 150000 1)
      = wcol E := by
  funext j
  obtain ⟨n, u, rfl⟩ : ∃ n u, j = ix2 n u := ⟨j 0, j 1, eq_ix2 j⟩
  refine (Cert.LibRowScale.vec_recast_col_apply _ hcol n u).trans ?_
  rw [rsqrt_apply, addf_apply, scatterCount_apply d huw hiw hsd hiv, bcast_const, bcast_const,
    landed_filter E n _ (fun e => (asColumn_apply hbc dstV e).trans (hdst e)),
    Finset.sum_congr rfl (fun e _ => bcast_const hbE _ (ix1 e)), wcol_apply]
  unfold dinv oneW zeroW
  with_reducible rfl

/-- The wrapped take of rows of `g` by the source words, accumulated by the destination words: the aggregation. -/
theorem scatter_gather (ds : ScatterDims S150000x128 S2000000x1 S2000000x128) (huw : ds.updateWindowDims = [1])
    (hiw : ds.insertedWindowDims = [0]) (hsd : ds.scatterDimsToOperandDims = [0]) (hiv : ds.indexVectorDim = 1)
    (dg : GatherDims S150000x128 S2000000x1 S2000000x128) (hoff : dg.offsetDims = [1]) (hcoll : dg.collapsedSliceDims = [0])
    (hob : dg.operandBatchingDims = []) (hsim : dg.startIndexMap = [0]) (hivd : dg.indexVectorDim = 1)
    (hbz : S_.BroadcastsInDim S150000x128 ![])
    (hbE : S_.BroadcastsInDim S2000000 ![]) (hbc : S2000000.BroadcastsInDim S2000000x1 ![0])
    (E : Edges) (g : Mat 150000 128) (srcV dstV : IVec S2000000 32)
    (hsrc : ∀ e : Fin 2000000, srcV (ix1 e) = srcW E e) (hdst : ∀ e : Fin 2000000, dstV (ix1 e) = dstW E e) :
    (Host.scatterAdd (F := Ideal) (φ := .f32) ds
        (broadcastInDim S150000x128 ![] hbz (constant (F := Ideal) S_ .f32 0x00000000#32))
        (broadcastInDim S2000000x1 ![0] hbc dstV)
        (Host.gather dg g (broadcastInDim S2000000x1 ![0] hbc
          (select (cmpi .slt srcV (broadcastInDim S2000000 ![] hbE (constantI S_ 32 0#32)))
            (addi srcV (broadcastInDim S2000000 ![] hbE (constantI S_ 32 150000#32))) srcV))) : Mat 150000 128)
      = aggr E g := by
  funext j
  obtain ⟨i, c, rfl⟩ : ∃ i c, j = ix2 i c := ⟨j 0, j 1, eq_ix2 j⟩
  rw [scatterRows_apply ds huw hiw hsd hiv, bcast_const,
    landed_filter E i _ (fun e => (asColumn_apply hbc dstV e).trans (hdst e)),
    Finset.sum_congr rfl (fun e _ => (takeRows_wrapped dg hoff hcoll hob hsim hivd hbc g srcV _ _ 150000#32
      (fun e => bcast_constI hbE _ e) (fun e => bcast_constI hbE _ e) (by decide) e c).trans
        (congrArg (fun r => g (ix2 (takeRow 150000 (by decide) 150000#32 r) c)) (hsrc e))), aggr_apply]
  unfold rowSrc zeroW
  with_reducible rfl

/-- The two wrapped takes by the batch's words, added: the batch rows. -/
theorem batch_takes (d1 : GatherDims S150000x128 S1024x1 S1024x128) (hoff1 : d1.offsetDims = [1])
    (hcoll1 : d1.collapsedSliceDims = [0]) (hob1 : d1.operandBatchingDims = []) (hsim1 : d1.startIndexMap = [0])
    (hivd1 : d1.indexVectorDim = 1)
    (d2 : GatherDims S100000x128 S1024x1 S1024x128) (hoff2 : d2.offsetDims = [1])
    (hcoll2 : d2.collapsedSliceDims = [0]) (hob2 : d2.operandBatchingDims = []) (hsim2 : d2.startIndexMap = [0])
    (hivd2 : d2.indexVectorDim = 1)
    (hb : S_.BroadcastsInDim S1024 ![]) (hbc : S1024.BroadcastsInDim S1024x1 ![0])
    (x : Mat 150000 128) (ut : Mat 100000 128) (uidx : IVec S1024 32) :
    (addf (F := Ideal) (φ := .f32)
        (Host.gather d1 x (broadcastInDim S1024x1 ![0] hbc
          (select (cmpi .slt uidx (broadcastInDim S1024 ![] hb (constantI S_ 32 0#32)))
            (addi uidx (broadcastInDim S1024 ![] hb (constantI S_ 32 150000#32))) uidx)))
        (Host.gather d2 ut (broadcastInDim S1024x1 ![0] hbc
          (select (cmpi .slt uidx (broadcastInDim S1024 ![] hb (constantI S_ 32 0#32)))
            (addi uidx (broadcastInDim S1024 ![] hb (constantI S_ 32 100000#32))) uidx))) : Mat 1024 128)
      = batchRows x ut uidx := by
  funext j
  obtain ⟨p, q, rfl⟩ : ∃ p q, j = ix2 p q := ⟨j 0, j 1, eq_ix2 j⟩
  rw [addf_apply, takeRows_wrapped d1 hoff1 hcoll1 hob1 hsim1 hivd1 hbc x _ _ _ 150000#32 (fun e => bcast_constI hb _ e)
    (fun e => bcast_constI hb _ e) (by decide) p q,
    takeRows_wrapped d2 hoff2 hcoll2 hob2 hsim2 hivd2 hbc ut _ _ _ 100000#32 (fun e => bcast_constI hb _ e)
    (fun e => bcast_constI hb _ e) (by decide) p q, batchRows_apply]

/-! ## The kernel program's stages as the neutral functions -/

/-- The source words, at an edge. -/
theorem stSrc_apply (E : Edges) (e : Fin 2000000) : stSrc E (ix1 e) = srcW E e := by
  unfold stSrc; exact edgeRow_apply E 0 _ _ e

/-- The destination words, at an edge. -/
theorem stDst_apply (E : Edges) (e : Fin 2000000) : stDst E (ix1 e) = dstW E e := by
  unfold stDst; exact edgeRow_apply E 1 _ _ e

/-- The weight column holds the node weights. -/
theorem stW_eq (E : Edges) : stW E = wcol E := by
  unfold stW
  exact weight_column _ rfl rfl rfl rfl _ _ _ _ E (stDst E) (stDst_apply E)

/-- A bias recast as a row. -/
theorem stRow_eq (b : Vec1 128) : stRow b = biasRow b := by
  unfold stRow; exact recast_bias b _

/-- The concatenation is the stacked table. -/
theorem stStack_eq (ut : Mat 100000 128) (y : Mat 50000 128) : stStack ut y = stacked ut y := by
  unfold stStack; exact concat_stacked _ ut y

/-- The gather along the sources accumulated by destination is the aggregation. -/
theorem stAcc_stTake (E : Edges) (g : Mat 150000 128) : stAcc E (stTake E g) = aggr E g := by
  unfold stAcc stTake stCol
  exact scatter_gather _ rfl rfl rfl rfl _ rfl rfl rfl rfl rfl _ _ _ E g (stSrc E) (stDst E) (stSrc_apply E) (stDst_apply E)

/-- One layer of the program is the layer with its rows scaled first. -/
theorem stLayer_eq (E : Edges) (x : Mat 150000 128) (W : Mat 128 128) (b : Vec1 128) :
    stLayer E x W b = scaledFirst (dinv E) (rowSrc E) (lands E) x W b := by
  unfold stLayer
  rw [stAcc_stTake, stW_eq, stRow_eq]
  exact finished_aggr E x W b

/-- The two look-ups added are the batch rows. -/
theorem stBatch_eq (x : Mat 150000 128) (ut : Mat 100000 128) (uidx : IVec S1024 32) :
    stBatch x ut uidx = batchRows x ut uidx := by
  unfold stBatch stCol
  exact batch_takes _ rfl rfl rfl rfl rfl _ rfl rfl rfl rfl rfl _ _ x ut uidx

/-- The program's stages compose to the two layers, rows scaled first, then the readout. -/
theorem stages_value (uidx : IVec S1024 32) (poi : Mat 50000 320) (E : Edges) (ut : Mat 100000 128) (Wp : Mat 320 128)
    (bp : Vec1 128) (W1 : Mat 128 128) (b1 : Vec1 128) (W2 : Mat 128 128) (b2 : Vec1 128) (Wf : Mat 128 128)
    (bf : Vec1 128) :
    stOut uidx poi E ut Wp bp W1 b1 W2 b2 Wf bf = outScaledFirst uidx poi E ut Wp bp W1 b1 W2 b2 Wf bf := by
  unfold stOut outScaledFirst
  rw [stLayer_eq, stLayer_eq, stStack_eq, stBatch_eq, stRow_eq, stRow_eq, stacked_dense, denseRow_batchRows]

variable (m : (ℓ : Loc nD τ sig) → Buf (Elt Ideal) ℓ) (ρ : Dev nD → PrngReg)

/-- The result buffer after the last segment. -/
theorem kernel_value (c : Dev nD) :
    (W11 (F := Ideal) m ρ c (Proc.devRef .tc main_v57) : Mat 1024 128)
      = outScaledFirst (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) :=
  (fold_value m ρ c).trans (stages_value _ _ _ _ _ _ _ _ _ _ _ _)

end Cert.KernelIdeal.ChainValue

end
-- ==== Proof.RefChain.lean ====
/-
  The reference program's result as one function of its arguments.

  Read one operation at a time, the reference stacks the user rows on the projected rows, counts in-degrees, and for each
  layer gathers rows of `x · W` along the edges, scales each by the two end weights, accumulates them by destination,
  adds the self term and the bias and applies the leaky rectifier; then looks the batch rows up and applies the last dense
  layer: the two layers in the scaled-per-edge arrangement followed by the readout.
-/
import proofs.«120925_j38465727103681_1_alg».proof.Proof.Gen.ReferenceIdeal.Run
import proofs.«120925_j38465727103681_1_alg».proof.Proof.Gen.ReferenceIdeal.Read
import proofs.«120925_j38465727103681_1_alg».proof.Proof.Spec
import proofs.«120925_j38465727103681_1_alg».proof.Proof.Decode
import proofs.«120925_j38465727103681_1_alg».proof.Proof.LibPlainProduct
import proofs.«120925_j38465727103681_1_alg».proof.Proof.LibBroadcastRead

set_option maxRecDepth 16384

noncomputable section

namespace Cert.ReferenceIdeal.ChainValue

open Idealize.ShloMosaic Idealize.ShloMosaic.TcCoe Idealize.ShloMosaic.ValueIdx Idealize.SL.Sem
open Cert.ReferenceIdeal Cert.ReferenceIdeal.Gen Cert.Gcn

variable (m : (ℓ : Loc nD τ sig) → Buf (Elt Ideal) ℓ)

/-! ## The stages, one lemma each -/

open Cert.ReferenceIdeal.Read in
/-- The flattened first row of the edge list holds the source words. -/
theorem srcWord (E : Edges) (e : Fin 2000000) : val_main_v1 (F := Ideal) E (ix1 e) = srcW E e := by
  unfold val_main_v1 val_main_v0
  exact edgeRow_apply E 0 _ _ e

open Cert.ReferenceIdeal.Read in
/-- The flattened second row holds the destination words. -/
theorem dstWord (E : Edges) (e : Fin 2000000) : val_main_v3 (F := Ideal) E (ix1 e) = dstW E e := by
  unfold val_main_v3 val_main_v2
  exact edgeRow_apply E 1 _ _ e

open Cert.ReferenceIdeal.Read in
/-- The destination words laid as a column. -/
theorem dstColumn (E : Edges) (e : Fin 2000000) : val_main_v6 (F := Ideal) E (ix2 e (0 : Fin 1)) = dstW E e := by
  unfold val_main_v6
  rw [asColumn_apply]
  exact dstWord E e

open Cert.ReferenceIdeal.Read in
/-- A node's weight in the reference: the inverse square root of one plus its in-degree. -/
theorem weight_apply (E : Edges) (n : Fin 150000) : val_main_v10 (F := Ideal) E (ix1 n) = dinv E n := by
  rw [val_main_v10_apply, val_main_v9_apply, val_main_v8_apply, val_main_cst_1_apply]
  unfold val_main_v7
  rw [scatterCount_apply _ rfl rfl rfl rfl, val_main_v5_apply, val_main_cst_0_apply]
  simp only [val_main_v4_apply, val_main_cst_apply, dstColumn]
  rw [Ideal.hostUnary_rsqrt_def, Ideal.addf_def]
  unfold dinv lands oneW zeroW
  rfl
open Cert.ReferenceIdeal.Read Cert.LibBroadcastRead in
/-- The projection of the second table at an entry: the product plus the bias. -/
theorem projected_apply (poi : Mat 50000 320) (Wp : Mat 320 128) (bp : Vec1 128) (p : Fin 50000) (q : Fin 128) :
    val_main_v14 (F := Ideal) poi Wp bp (ix2 p q) = dense poi Wp bp (ix2 p q) := by
  rw [val_main_v14_apply, val_main_v11_apply, Ideal.addf_def, dense_apply]
  unfold val_main_v13 val_main_v12
  rw [row_down_apply, vec_as_row_apply]
  refine congrArg (· + bp (ix1 q)) (Finset.sum_congr rfl fun k _ => ?_)
  rw [show lidx_main_v11 (ix2 p q) k = ix2 p k from
        funext fun a => Fin.ext (by match a with | ⟨0, _⟩ => rfl | ⟨1, _⟩ => rfl),
      show ridx_main_v11 (ix2 p q) k = ix2 k q from
        funext fun a => Fin.ext (by match a with | ⟨0, _⟩ => rfl | ⟨1, _⟩ => rfl)]

open Cert.ReferenceIdeal.Read Idealize.ShloMosaic.Pipeline in
/-- The stacked node table: the first table's rows above the projected rows. -/
theorem table_eq (poi : Mat 50000 320) (ut : Mat 100000 128) (Wp : Mat 320 128) (bp : Vec1 128) :
    val_main_v15 (F := Ideal) poi ut Wp bp = nodes0 ut poi Wp bp := by
  funext j
  obtain ⟨n, q, rfl⟩ : ∃ (n : Fin 150000) (q : Fin 128), j = ix2 n q := ⟨j 0, j 1, eq_ix2 j⟩
  unfold val_main_v15 nodes0
  rw [ofRC_apply]
  by_cases h : n.val < 100000
  · rw [dif_pos h]
    exact concatenate_pair_apply_left 0 ut _ concatenates_S100000x128_S50000x128_S150000x128_d0 (ix2 n q) rfl
      (ix2 ⟨n.val, h⟩ q) (fun b => by match b with | ⟨0, _⟩ => rfl | ⟨1, _⟩ => rfl)
  · rw [dif_neg h]
    have hn := n.isLt
    refine (concatenate_pair_apply_right 0 ut (val_main_v14 (F := Ideal) poi Wp bp)
      concatenates_S100000x128_S50000x128_S150000x128_d0 (ix2 n q) rfl rfl
      (ix2 ⟨n.val - 100000, by omega⟩ q) (fun b hb => ?_) ?_).trans (projected_apply poi Wp bp _ q)
    · match b with
      | ⟨0, _⟩ => exact absurd rfl hb
      | ⟨1, _⟩ => rfl
    · show (n.val - 100000) + 100000 = n.val
      omega

section stages

open scoped BigOperators

variable (uidx : IVec (⟨1, ![1024]⟩ : Shape) 32) (poi : Mat 50000 320) (E : Edges) (ut : Mat 100000 128)
  (Wp : Mat 320 128) (bp : Vec1 128) (W1 : Mat 128 128) (b1 : Vec1 128) (W2 : Mat 128 128) (b2 : Vec1 128)
  (Wf : Mat 128 128) (bf : Vec1 128)

open Cert.ReferenceIdeal.Read in
/-- A take of the node weights by a wrapped word vector reads the weight of the clamped row. -/
theorem takeWeight (v z Rv : IVec S2000000 32) (hz : ∀ e, z e = 0#32) (hRv : ∀ e, Rv e = 150000#32)
    (e : Fin 2000000) :
    Host.gather gather_S150000_S2000000x1_S2000000_n_0_n_n_0_1_1 (val_main_v10 (F := Ideal) E)
        (broadcastInDim S2000000x1 ![0] bcast_S2000000_S2000000x1_0 (select (cmpi .slt v z) (addi v Rv) v)) (ix1 e)
      = dinv E (takeRow 150000 (by decide) 150000#32 (v (ix1 e))) := by
  rw [takeVec_wrapped _ rfl rfl rfl rfl _ _ _ _ _ 150000#32 hz hRv (by decide) e, weight_apply]

/-! ### Layer 1 -/

open Cert.ReferenceIdeal.Read in
/-- The product of layer 1 at an entry. -/
theorem product1 (i : Fin 150000) (c : Fin 128) :
    val_main_v16 (F := Ideal) poi ut Wp bp W1 (ix2 i c) = prod (nodes0 ut poi Wp bp) W1 (ix2 i c) := by
  rw [val_main_v16_apply, table_eq, prod_apply]
  refine Finset.sum_congr rfl fun k _ => ?_
  rw [show lidx_main_v16 (ix2 i c) k = ix2 i k from
        funext fun a => Fin.ext (by match a with | ⟨0, _⟩ => rfl | ⟨1, _⟩ => rfl),
      show ridx_main_v16 (ix2 i c) k = ix2 k c from
        funext fun a => Fin.ext (by match a with | ⟨0, _⟩ => rfl | ⟨1, _⟩ => rfl)]

open Cert.ReferenceIdeal.Read in
/-- The factor of edge `e` in layer 1: the product of its two end weights. -/
theorem edgeFactor1 (e : Fin 2000000) :
    val_main_v31 (F := Ideal) E (ix1 e) = dinv E (rowSrc E e) * dinv E (rowDst E e) := by
  rw [val_main_v31_apply, Ideal.mulf_def]
  unfold val_main_v23 val_main_v22 val_main_v21 val_main_v18 val_main_v20 val_main_v30 val_main_v29 val_main_v28 val_main_v25 val_main_v27
  rw [takeWeight E (val_main_v1 (F := Ideal) E) val_main_v17 val_main_v19
        (fun e => by rw [val_main_v17_apply, val_main_c_apply]) (fun e => by rw [val_main_v19_apply, val_main_c_2_apply]),
      takeWeight E (val_main_v3 (F := Ideal) E) val_main_v24 val_main_v26
        (fun e => by rw [val_main_v24_apply, val_main_c_3_apply]) (fun e => by rw [val_main_v26_apply, val_main_c_4_apply]),
      srcWord, dstWord]
  rfl

open Cert.ReferenceIdeal.Read in
/-- The row layer 1 gathers for edge `e`: the product's row at the edge's source. -/
theorem gathered1 (e : Fin 2000000) (c : Fin 128) :
    val_main_v38 (F := Ideal) poi E ut Wp bp W1 (ix2 e c) = val_main_v16 (F := Ideal) poi ut Wp bp W1 (ix2 (rowSrc E e) c) := by
  unfold val_main_v38 val_main_v37 val_main_v36 val_main_v33 val_main_v35
  rw [takeRows_wrapped _ rfl rfl rfl rfl rfl _ _ (val_main_v1 (F := Ideal) E) val_main_v32 val_main_v34 150000#32
        (fun e => by rw [val_main_v32_apply, val_main_c_5_apply]) (fun e => by rw [val_main_v34_apply, val_main_c_6_apply])
        (by decide) e c, srcWord]
  rfl

open Cert.ReferenceIdeal.Read Cert.LibBroadcastRead in
/-- The gathered row scaled by the edge's factor. -/
theorem scaledRow1 (e : Fin 2000000) (c : Fin 128) :
    val_main_v41 (F := Ideal) poi E ut Wp bp W1 (ix2 e c)
      = val_main_v16 (F := Ideal) poi ut Wp bp W1 (ix2 (rowSrc E e) c) * (dinv E (rowSrc E e) * dinv E (rowDst E e)) := by
  rw [val_main_v41_apply, Ideal.mulf_def, gathered1]
  unfold val_main_v40 val_main_v39
  rw [col_along_apply, vec_as_col_apply, edgeFactor1]

open Cert.ReferenceIdeal.Read in
/-- The destination column the scatter of layer 1 reads. -/
theorem dstColumn1 (e : Fin 2000000) : val_main_v43 (F := Ideal) E (ix2 e (0 : Fin 1)) = dstW E e := by
  unfold val_main_v43
  rw [asColumn_apply]
  exact dstWord E e

open Cert.ReferenceIdeal.Read in
/-- The accumulation of layer 1 at node `i`: the scaled rows of the edges that land on `i`. -/
theorem landed1 (i : Fin 150000) (c : Fin 128) :
    val_main_v44 (F := Ideal) poi E ut Wp bp W1 (ix2 i c)
      = zeroW + ∑ e ∈ Finset.univ.filter (fun e => lands E e i),
          val_main_v16 (F := Ideal) poi ut Wp bp W1 (ix2 (rowSrc E e) c) * (dinv E (rowSrc E e) * dinv E (rowDst E e)) := by
  unfold val_main_v44
  rw [scatterRows_apply _ rfl rfl rfl rfl, val_main_v42_apply, val_main_cst_7_apply]
  simp only [dstColumn1, scaledRow1]
  rfl

open Cert.ReferenceIdeal.Read Cert.LibBroadcastRead in
/-- The self term of layer 1. -/
theorem selfTerm1 (i : Fin 150000) (c : Fin 128) :
    val_main_v48 (F := Ideal) poi E ut Wp bp W1 (ix2 i c) = (dinv E i * dinv E i) * val_main_v16 (F := Ideal) poi ut Wp bp W1 (ix2 i c) := by
  rw [val_main_v48_apply, Ideal.mulf_def]
  unfold val_main_v47 val_main_v46
  rw [col_along_apply, vec_as_col_apply, val_main_v45_apply, Ideal.mulf_def, weight_apply]

open Cert.ReferenceIdeal.Read Cert.LibBroadcastRead in
/-- The bias of layer 1, repeated down the rows. -/
theorem bias1 (i : Fin 150000) (c : Fin 128) : val_main_v51 (F := Ideal) b1 (ix2 i c) = b1 (ix1 c) := by
  unfold val_main_v51 val_main_v50
  rw [row_down_apply, vec_as_row_apply]

open Cert.ReferenceIdeal.Read in
/-- Layer 1 of the reference is the per-edge arrangement of the layer. -/
theorem layer1_eq :
    val_main_v57 (F := Ideal) poi E ut Wp bp W1 b1
      = scaledPerEdge (dinv E) (rowSrc E) (rowDst E) (lands E) (nodes0 ut poi Wp bp) W1 b1 := by
  funext j
  obtain ⟨i, c, rfl⟩ : ∃ (i : Fin 150000) (c : Fin 128), j = ix2 i c := ⟨j 0, j 1, eq_ix2 j⟩
  have hT : val_main_v52 (F := Ideal) poi E ut Wp bp W1 b1 (ix2 i c)
      = ((zeroW + ∑ e ∈ Finset.univ.filter (fun e => lands E e i),
            prod (nodes0 ut poi Wp bp) W1 (ix2 (rowSrc E e) c) * (dinv E (rowSrc E e) * dinv E (rowDst E e)))
          + (dinv E i * dinv E i) * prod (nodes0 ut poi Wp bp) W1 (ix2 i c)) + b1 (ix1 c) := by
    rw [val_main_v52_apply, val_main_v49_apply, Ideal.addf_def, Ideal.addf_def, landed1, selfTerm1, bias1]
    simp only [product1]
  rw [val_main_v57_apply, val_main_v54_apply, val_main_v56_apply, val_main_v53_apply, val_main_cst_8_apply, val_main_v55_apply, val_main_cst_9_apply, hT]
  rfl

/-! ### Layer 2 -/

open Cert.ReferenceIdeal.Read in
/-- The product of layer 2 at an entry. -/
theorem product2 (i : Fin 150000) (c : Fin 128) :
    val_main_v58 (F := Ideal) poi E ut Wp bp W1 b1 W2 (ix2 i c) = prod (val_main_v57 (F := Ideal) poi E ut Wp bp W1 b1) W2 (ix2 i c) := by
  rw [val_main_v58_apply, prod_apply]
  refine Finset.sum_congr rfl fun k _ => ?_
  rw [show lidx_main_v58 (ix2 i c) k = ix2 i k from
        funext fun a => Fin.ext (by match a with | ⟨0, _⟩ => rfl | ⟨1, _⟩ => rfl),
      show ridx_main_v58 (ix2 i c) k = ix2 k c from
        funext fun a => Fin.ext (by match a with | ⟨0, _⟩ => rfl | ⟨1, _⟩ => rfl)]

open Cert.ReferenceIdeal.Read in
/-- The factor of edge `e` in layer 2: the product of its two end weights. -/
theorem edgeFactor2 (e : Fin 2000000) :
    val_main_v73 (F := Ideal) E (ix1 e) = dinv E (rowSrc E e) * dinv E (rowDst E e) := by
  rw [val_main_v73_apply, Ideal.mulf_def]
  unfold val_main_v65 val_main_v64 val_main_v63 val_main_v60 val_main_v62 val_main_v72 val_main_v71 val_main_v70 val_main_v67 val_main_v69
  rw [takeWeight E (val_main_v1 (F := Ideal) E) val_main_v59 val_main_v61
        (fun e => by rw [val_main_v59_apply, val_main_c_10_apply]) (fun e => by rw [val_main_v61_apply, val_main_c_11_apply]),
      takeWeight E (val_main_v3 (F := Ideal) E) val_main_v66 val_main_v68
        (fun e => by rw [val_main_v66_apply, val_main_c_12_apply]) (fun e => by rw [val_main_v68_apply, val_main_c_13_apply]),
      srcWord, dstWord]
  rfl

open Cert.ReferenceIdeal.Read in
/-- The row layer 2 gathers for edge `e`: the product's row at the edge's source. -/
theorem gathered2 (e : Fin 2000000) (c : Fin 128) :
    val_main_v80 (F := Ideal) poi E ut Wp bp W1 b1 W2 (ix2 e c) = val_main_v58 (F := Ideal) poi E ut Wp bp W1 b1 W2 (ix2 (rowSrc E e) c) := by
  unfold val_main_v80 val_main_v79 val_main_v78 val_main_v75 val_main_v77
  rw [takeRows_wrapped _ rfl rfl rfl rfl rfl _ _ (val_main_v1 (F := Ideal) E) val_main_v74 val_main_v76 150000#32
        (fun e => by rw [val_main_v74_apply, val_main_c_14_apply]) (fun e => by rw [val_main_v76_apply, val_main_c_15_apply])
        (by decide) e c, srcWord]
  rfl

open Cert.ReferenceIdeal.Read Cert.LibBroadcastRead in
/-- The gathered row scaled by the edge's factor. -/
theorem scaledRow2 (e : Fin 2000000) (c : Fin 128) :
    val_main_v83 (F := Ideal) poi E ut Wp bp W1 b1 W2 (ix2 e c)
      = val_main_v58 (F := Ideal) poi E ut Wp bp W1 b1 W2 (ix2 (rowSrc E e) c) * (dinv E (rowSrc E e) * dinv E (rowDst E e)) := by
  rw [val_main_v83_apply, Ideal.mulf_def, gathered2]
  unfold val_main_v82 val_main_v81
  rw [col_along_apply, vec_as_col_apply, edgeFactor2]

open Cert.ReferenceIdeal.Read in
/-- The destination column the scatter of layer 2 reads. -/
theorem dstColumn2 (e : Fin 2000000) : val_main_v85 (F := Ideal) E (ix2 e (0 : Fin 1)) = dstW E e := by
  unfold val_main_v85
  rw [asColumn_apply]
  exact dstWord E e

open Cert.ReferenceIdeal.Read in
/-- The accumulation of layer 2 at node `i`: the scaled rows of the edges that land on `i`. -/
theorem landed2 (i : Fin 150000) (c : Fin 128) :
    val_main_v86 (F := Ideal) poi E ut Wp bp W1 b1 W2 (ix2 i c)
      = zeroW + ∑ e ∈ Finset.univ.filter (fun e => lands E e i),
          val_main_v58 (F := Ideal) poi E ut Wp bp W1 b1 W2 (ix2 (rowSrc E e) c) * (dinv E (rowSrc E e) * dinv E (rowDst E e)) := by
  unfold val_main_v86
  rw [scatterRows_apply _ rfl rfl rfl rfl, val_main_v84_apply, val_main_cst_16_apply]
  simp only [dstColumn2, scaledRow2]
  rfl

open Cert.ReferenceIdeal.Read Cert.LibBroadcastRead in
/-- The self term of layer 2. -/
theorem selfTerm2 (i : Fin 150000) (c : Fin 128) :
    val_main_v90 (F := Ideal) poi E ut Wp bp W1 b1 W2 (ix2 i c) = (dinv E i * dinv E i) * val_main_v58 (F := Ideal) poi E ut Wp bp W1 b1 W2 (ix2 i c) := by
  rw [val_main_v90_apply, Ideal.mulf_def]
  unfold val_main_v89 val_main_v88
  rw [col_along_apply, vec_as_col_apply, val_main_v87_apply, Ideal.mulf_def, weight_apply]

open Cert.ReferenceIdeal.Read Cert.LibBroadcastRead in
/-- The bias of layer 2, repeated down the rows. -/
theorem bias2 (i : Fin 150000) (c : Fin 128) : val_main_v93 (F := Ideal) b2 (ix2 i c) = b2 (ix1 c) := by
  unfold val_main_v93 val_main_v92
  rw [row_down_apply, vec_as_row_apply]

open Cert.ReferenceIdeal.Read in
/-- Layer 2 of the reference is the per-edge arrangement of the layer. -/
theorem layer2_eq :
    val_main_v99 (F := Ideal) poi E ut Wp bp W1 b1 W2 b2
      = scaledPerEdge (dinv E) (rowSrc E) (rowDst E) (lands E) (val_main_v57 (F := Ideal) poi E ut Wp bp W1 b1) W2 b2 := by
  funext j
  obtain ⟨i, c, rfl⟩ : ∃ (i : Fin 150000) (c : Fin 128), j = ix2 i c := ⟨j 0, j 1, eq_ix2 j⟩
  have hT : val_main_v94 (F := Ideal) poi E ut Wp bp W1 b1 W2 b2 (ix2 i c)
      = ((zeroW + ∑ e ∈ Finset.univ.filter (fun e => lands E e i),
            prod (val_main_v57 (F := Ideal) poi E ut Wp bp W1 b1) W2 (ix2 (rowSrc E e) c) * (dinv E (rowSrc E e) * dinv E (rowDst E e)))
          + (dinv E i * dinv E i) * prod (val_main_v57 (F := Ideal) poi E ut Wp bp W1 b1) W2 (ix2 i c)) + b2 (ix1 c) := by
    rw [val_main_v94_apply, val_main_v91_apply, Ideal.addf_def, Ideal.addf_def, landed2, selfTerm2, bias2]
    simp only [product2]
  rw [val_main_v99_apply, val_main_v96_apply, val_main_v98_apply, val_main_v95_apply, val_main_cst_17_apply, val_main_v97_apply, val_main_cst_18_apply, hT]
  rfl

/-! ### The readout -/

open Cert.ReferenceIdeal.Read in
/-- The readout's input at an entry: the looked-up node row plus the looked-up row of the first table. -/
theorem batchRow (p : Fin 1024) (k : Fin 128) :
    val_main_v114 (F := Ideal) uidx poi E ut Wp bp W1 b1 W2 b2 (ix2 p k)
      = val_main_v99 (F := Ideal) poi E ut Wp bp W1 b1 W2 b2
            (ix2 (takeRow 150000 (by decide) 150000#32 (uidx (ix1 p))) k)
          + ut (ix2 (takeRow 100000 (by decide) 100000#32 (uidx (ix1 p))) k) := by
  rw [val_main_v114_apply, Ideal.addf_def]
  unfold val_main_v106 val_main_v105 val_main_v104 val_main_v101 val_main_v103
    val_main_v113 val_main_v112 val_main_v111 val_main_v108 val_main_v110
  rw [takeRows_wrapped _ rfl rfl rfl rfl rfl _ _ uidx val_main_v100 val_main_v102 150000#32
        (fun e => by rw [val_main_v100_apply, val_main_c_19_apply])
        (fun e => by rw [val_main_v102_apply, val_main_c_20_apply]) (by decide) p k,
      takeRows_wrapped _ rfl rfl rfl rfl rfl _ _ uidx val_main_v107 val_main_v109 100000#32
        (fun e => by rw [val_main_v107_apply, val_main_c_21_apply])
        (fun e => by rw [val_main_v109_apply, val_main_c_22_apply]) (by decide) p k]

open Cert.ReferenceIdeal.Read Cert.LibBroadcastRead in
/-- The last stage is the readout of layer 2's output. -/
theorem readout_eq :
    val_main_v118 (F := Ideal) uidx poi E ut Wp bp W1 b1 W2 b2 Wf bf
      = readout (val_main_v99 (F := Ideal) poi E ut Wp bp W1 b1 W2 b2) ut uidx Wf bf := by
  funext j
  obtain ⟨p, q, rfl⟩ : ∃ (p : Fin 1024) (q : Fin 128), j = ix2 p q := ⟨j 0, j 1, eq_ix2 j⟩
  rw [val_main_v118_apply, val_main_v115_apply, Ideal.addf_def]
  unfold val_main_v117 val_main_v116 readout
  rw [row_down_apply, vec_as_row_apply, dense_apply]
  refine congrArg (· + bf (ix1 q)) (Finset.sum_congr rfl fun k _ => ?_)
  rw [show lidx_main_v115 (ix2 p q) k = ix2 p k from
        funext fun a => Fin.ext (by match a with | ⟨0, _⟩ => rfl | ⟨1, _⟩ => rfl),
      show ridx_main_v115 (ix2 p q) k = ix2 k q from
        funext fun a => Fin.ext (by match a with | ⟨0, _⟩ => rfl | ⟨1, _⟩ => rfl),
      ofRC_apply, batchRow]

/-- The last stage as one function of the arguments: two per-edge layers, then the readout. -/
theorem chain_eq :
    Cert.ReferenceIdeal.Read.val_main_v118 (F := Ideal) uidx poi E ut Wp bp W1 b1 W2 b2 Wf bf
      = outScaledPerEdge uidx poi E ut Wp bp W1 b1 W2 b2 Wf bf := by
  rw [readout_eq, layer2_eq, layer1_eq]
  rfl

end stages

/-- The reference run's result term. -/
theorem reference_value (c : Dev nD) :
    (Cert.ReferenceIdeal.Value.res_main_v118 (F := Ideal) m c : Mat 1024 128)
      = outScaledPerEdge (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  refine (Cert.ReferenceIdeal.Read.val_main_v118_eq m c).trans ?_
  exact chain_eq _ _ _ _ _ _ _ _ _ _ _ _

end Cert.ReferenceIdeal.ChainValue

end
-- ==== Proof.lean ====
/-
  A two-layer graph convolution over 150000 nodes and 2000000 edges followed by a batch readout, computed two ways.

  Both programs weight node `n` by `dv n = (1 + #{edges accumulated into n})^(-1/2)`, stack the user rows on the projected
  rows, and apply twice  x ↦ leaky (A x W + b)  where, with  h = x · W,
      (A h) i = ∑_{e accumulated into i} dv(src e) · dv(dst e) · h(src e)  +  dv i² · h i .
  The reference forms each edge's factor `dv(src e) · dv(dst e)` and scales the gathered row by it. The kernel
  program scales every row once, `g n = h n · dv n` (fused into the product launch), sums the gathered rows of `g`, adds
  `g i`, and multiplies the total by `dv i` in the launch that also adds the bias and applies the rectifier.
  The two agree on the extended reals because `dv i` is a nonnegative REAL (it distributes over the sum) and an edge
  accumulated into `i` has destination word exactly `i`, so its destination weight is `dv i` (Proof/Law.lean).

  The pieces: Proof/Spec.lean states both arrangements over plain functions; Proof/Decode.lean reads the host's
  gathers and accumulating scatters at an entry; Proof/RegionDense.lean, RegionScaled.lean, RegionFinish.lean give each
  launch's output array as a whole-array function of its input arrays (the row blocks tile the arrays);
  Proof/KernelStages.lean names the kernel program's stages, Proof/KernelCarry.lean lists which buffers each segment leaves
  alone, Proof/KernelFold.lean follows the result buffer through the segments to the last stage and Proof/KernelChain.lean
  shows that stage is the rows-scaled-first arrangement; Proof/RefChain.lean reads the reference one operation at a time; Proof/Launch.lean is the kernel program's run with its result buffer named.
  The frames of the two kernel programs are the generated ones; the reference's frame is its generated run.
  No operation was rewritten by the idealization, so nothing is owed for it.
-/
import proofs.«120925_j38465727103681_1_alg».proof.Defs
import proofs.«120925_j38465727103681_1_alg».proof.Proof.Gen.Kernel
import proofs.«120925_j38465727103681_1_alg».proof.Proof.Gen.Kernel.Frame
import proofs.«120925_j38465727103681_1_alg».proof.Proof.Gen.KernelIdeal
import proofs.«120925_j38465727103681_1_alg».proof.Proof.Gen.KernelIdeal.Frame
import proofs.«120925_j38465727103681_1_alg».proof.Proof.Gen.ReferenceIdeal
import proofs.«120925_j38465727103681_1_alg».proof.Proof.Gen.ReferenceIdeal.Run
import proofs.«120925_j38465727103681_1_alg».proof.Proof.Gen.Pre_finite_inputs
import proofs.«120925_j38465727103681_1_alg».proof.Proof.Law
import proofs.«120925_j38465727103681_1_alg».proof.Proof.Launch
import proofs.«120925_j38465727103681_1_alg».proof.Proof.KernelChain
import proofs.«120925_j38465727103681_1_alg».proof.Proof.RefChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference launches nothing: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the twelve arguments both programs end with the result array at the
    rows-scaled-first arrangement of the arguments: the kernel program by following its buffers, the reference through the
    layer law. -/
theorem algebraic : Cert.algebraic_KernelIdeal_ReferenceIdeal := by
  intro m ρ m' ρ' _ hagree
  refine ⟨fun c => Cert.Gcn.outScaledFirst
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.ChainValue.kernel_value m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    refine (Cert.ReferenceIdeal.ChainValue.reference_value m' c).trans ?_
    rw [h0, h1, h2, h3, h4, h5, h6, h7, h8, h9, h10, h11]
    exact (Cert.Gcn.outScaledFirst_eq_outScaledPerEdge _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
